-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x32x32 : Shape := ⟨4, ![128, 64, 32, 32]⟩
abbrev S64x64x3x1 : Shape := ⟨4, ![64, 64, 3, 1]⟩
abbrev S128x64x1x3 : Shape := ⟨4, ![128, 64, 1, 3]⟩
abbrev S_ : Shape := ⟨0, ![]⟩

class Facts : Prop where
  bcast_S_S128x64x32x32 : S_.BroadcastsInDim S128x64x32x32 (![] : Fin 0 → Fin S128x64x32x32.rank)
  reducesTo_S128x64x32x32_S_d0_1_2_3 : S128x64x32x32.ReducesTo [0, 1, 2, 3] S_
  h_S_ : 0 < S_.numel
  bcast_S_S64x64x3x1 : S_.BroadcastsInDim S64x64x3x1 (![] : Fin 0 → Fin S64x64x3x1.rank)
  reducesTo_S64x64x3x1_S_d0_1_2_3 : S64x64x3x1.ReducesTo [0, 1, 2, 3] S_
  bcast_S_S128x64x1x3 : S_.BroadcastsInDim S128x64x1x3 (![] : Fin 0 → Fin S128x64x1x3.rank)
  reducesTo_S128x64x1x3_S_d0_1_2_3 : S128x64x1x3.ReducesTo [0, 1, 2, 3] S_

variable [Facts]

def fn {F : FTy → Type} [FloatOps F] (main_arg0 : FVec F S128x64x32x32 .f32) (main_arg1 : FVec F S64x64x3x1 .f32) (main_arg2 : FVec F S128x64x1x3 .f32) : IVec S_ 1 :=
  let main_v0 : FVec F S128x64x32x32 .f32 := Host.absf main_arg0
  let main_cst : FVec F S_ .f32 := constant S_ .f32 0x7F800000#32
  let main_v1 : FVec F S128x64x32x32 .f32 := broadcastInDim S128x64x32x32 ![] bcast_S_S128x64x32x32 main_cst
  let main_v2 : IVec S128x64x32x32 1 := cmpf .olt main_v0 main_v1
  let main_c : IVec S_ 1 := constantI S_ 1 1#1
  let main_v3 : IVec S_ 1 := (fun x v => Host.reduce IntOp.andi x v reducesTo_S128x64x32x32_S_d0_1_2_3 h_S_) main_v2 main_c
  let main_v4 : FVec F S64x64x3x1 .f32 := Host.absf main_arg1
  let main_cst_0 : FVec F S_ .f32 := constant S_ .f32 0x7F800000#32
  let main_v5 : FVec F S64x64x3x1 .f32 := broadcastInDim S64x64x3x1 ![] bcast_S_S64x64x3x1 main_cst_0
  let main_v6 : IVec S64x64x3x1 1 := cmpf .olt main_v4 main_v5
  let main_c_1 : IVec S_ 1 := constantI S_ 1 1#1
  let main_v7 : IVec S_ 1 := (fun x v => Host.reduce IntOp.andi x v reducesTo_S64x64x3x1_S_d0_1_2_3 h_S_) main_v6 main_c_1
  let main_v8 : IVec S_ 1 := andi main_v3 main_v7
  let main_v9 : FVec F S128x64x1x3 .f32 := Host.absf main_arg2
  let main_cst_2 : FVec F S_ .f32 := constant S_ .f32 0x7F800000#32
  let main_v10 : FVec F S128x64x1x3 .f32 := broadcastInDim S128x64x1x3 ![] bcast_S_S128x64x1x3 main_cst_2
  let main_v11 : IVec S128x64x1x3 1 := cmpf .olt main_v9 main_v10
  let main_c_3 : IVec S_ 1 := constantI S_ 1 1#1
  let main_v12 : IVec S_ 1 := (fun x v => Host.reduce IntOp.andi x v reducesTo_S128x64x1x3_S_d0_1_2_3 h_S_) main_v11 main_c_3
  let main_v13 : IVec S_ 1 := andi main_v8 main_v12
  main_v13
-- ==== Kernel.lean ====
abbrev S128x64x32x32 : Shape := ⟨4, ![128, 64, 32, 32]⟩
abbrev S64x64x3x1 : Shape := ⟨4, ![64, 64, 3, 1]⟩
abbrev S128x64x1x3 : Shape := ⟨4, ![128, 64, 1, 3]⟩
abbrev S64x64x1x1 : Shape := ⟨4, ![64, 64, 1, 1]⟩
abbrev S64x64 : Shape := ⟨2, ![64, 64]⟩
abbrev S64x192 : Shape := ⟨2, ![64, 192]⟩
abbrev S128x64x1x1 : Shape := ⟨4, ![128, 64, 1, 1]⟩
abbrev S128x64 : Shape := ⟨2, ![128, 64]⟩
abbrev S128x192 : Shape := ⟨2, ![128, 192]⟩
abbrev S1224 : Shape := ⟨1, ![1224]⟩
abbrev S_ : Shape := ⟨0, ![]⟩
abbrev S1x1224 : Shape := ⟨2, ![1, 1224]⟩
abbrev S128x128x1 : Shape := ⟨3, ![128, 128, 1]⟩
abbrev S1x64x32x32 : Shape := ⟨4, ![1, 64, 32, 32]⟩
abbrev S1x128x1 : Shape := ⟨3, ![1, 128, 1]⟩
abbrev S64x32x32 : Shape := ⟨3, ![64, 32, 32]⟩
abbrev S64x1x32 : Shape := ⟨3, ![64, 1, 32]⟩
abbrev S64x34x2 : Shape := ⟨3, ![64, 34, 2]⟩
abbrev S64x34x32 : Shape := ⟨3, ![64, 34, 32]⟩
abbrev S64x34x36 : Shape := ⟨3, ![64, 34, 36]⟩
abbrev S64x1224 : Shape := ⟨2, ![64, 1224]⟩
abbrev S64x1152 : Shape := ⟨2, ![64, 1152]⟩
abbrev S192x1152 : Shape := ⟨2, ![192, 1152]⟩
abbrev S64x36 : Shape := ⟨2, ![64, 36]⟩
abbrev S64x38 : Shape := ⟨2, ![64, 38]⟩
abbrev S64x1226 : Shape := ⟨2, ![64, 1226]⟩
abbrev S192x1224 : Shape := ⟨2, ![192, 1224]⟩
abbrev S128x1224 : Shape := ⟨2, ![128, 1224]⟩
abbrev S128 : Shape := ⟨1, ![128]⟩
abbrev S128x1 : Shape := ⟨2, ![128, 1]⟩
abbrev S128x128x34x34 : Shape := ⟨4, ![128, 128, 34, 34]⟩
abbrev S1x128x34x34 : Shape := ⟨4, ![1, 128, 34, 34]⟩
abbrev S128x34x36 : Shape := ⟨3, ![128, 34, 36]⟩
abbrev S128x34x34 : Shape := ⟨3, ![128, 34, 34]⟩
abbrev S128x1x1 : Shape := ⟨3, ![128, 1, 1]⟩

abbrev nBuf : Space → Nat
  | .hbm => 71
  | .vmem => 16
  | .smem => 0
  | _ => 0

abbrev bufTy : (tb : Table) → Fin (tcTables nBuf tb) → BufTy
  | .hbm, ⟨0, _⟩ => ⟨S128x64x32x32, .f32⟩
  | .hbm, ⟨1, _⟩ => ⟨S64x64x3x1, .f32⟩
  | .hbm, ⟨2, _⟩ => ⟨S128x64x1x3, .f32⟩
  | .hbm, ⟨3, _⟩ => ⟨S64x64x1x1, .f32⟩
  | .hbm, ⟨4, _⟩ => ⟨S64x64, .f32⟩
  | .hbm, ⟨5, _⟩ => ⟨S64x64x1x1, .f32⟩
  | .hbm, ⟨6, _⟩ => ⟨S64x64, .f32⟩
  | .hbm, ⟨7, _⟩ => ⟨S64x64x1x1, .f32⟩
  | .hbm, ⟨8, _⟩ => ⟨S64x64, .f32⟩
  | .hbm, ⟨9, _⟩ => ⟨S64x192, .f32⟩
  | .hbm, ⟨10, _⟩ => ⟨S64x192, .bf16⟩
  | .hbm, ⟨11, _⟩ => ⟨S128x64x1x1, .f32⟩
  | .hbm, ⟨12, _⟩ => ⟨S128x64, .f32⟩
  | .hbm, ⟨13, _⟩ => ⟨S128x64x1x1, .f32⟩
  | .hbm, ⟨14, _⟩ => ⟨S128x64, .f32⟩
  | .hbm, ⟨15, _⟩ => ⟨S128x64x1x1, .f32⟩
  | .hbm, ⟨16, _⟩ => ⟨S128x64, .f32⟩
  | .hbm, ⟨17, _⟩ => ⟨S128x192, .f32⟩
  | .hbm, ⟨18, _⟩ => ⟨S1224, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1224, .i32⟩
  | .hbm, ⟨26, _⟩ => ⟨S1224, .i32⟩
  | .hbm, ⟨27, _⟩ => ⟨S_, .i32⟩
  | .hbm, ⟨28, _⟩ => ⟨S1224, .i32⟩
  | .hbm, ⟨29, _⟩ => ⟨S1224, .i1⟩
  | .hbm, ⟨30, _⟩ => ⟨S_, .i32⟩
  | .hbm, ⟨31, _⟩ => ⟨S1224, .i32⟩
  | .hbm, ⟨32, _⟩ => ⟨S1224, .i1⟩
  | .hbm, ⟨33, _⟩ => ⟨S_, .i32⟩
  | .hbm, ⟨34, _⟩ => ⟨S_, .i1⟩
  | .hbm, ⟨35, _⟩ => ⟨S1224, .i1⟩
  | .hbm, ⟨36, _⟩ => ⟨S1224, .i1⟩
  | .hbm, ⟨37, _⟩ => ⟨S1224, .i1⟩
  | .hbm, ⟨38, _⟩ => ⟨S1224, .i32⟩
  | .hbm, ⟨39, _⟩ => ⟨S1224, .i32⟩
  | .hbm, ⟨40, _⟩ => ⟨S1224, .i32⟩
  | .hbm, ⟨41, _⟩ => ⟨S_, .i32⟩
  | .hbm, ⟨42, _⟩ => ⟨S1224, .i32⟩
  | .hbm, ⟨43, _⟩ => ⟨S1224, .i1⟩
  | .hbm, ⟨44, _⟩ => ⟨S1224, .f32⟩
  | .hbm, ⟨45, _⟩ => ⟨S1x1224, .f32⟩
  | .hbm, ⟨46, _⟩ => ⟨S128x192, .bf16⟩
  | .hbm, ⟨47, _⟩ => ⟨S128x128x1, .f32⟩
  | .hbm, ⟨48, _⟩ => ⟨S128x128x1, .f32⟩
  | .hbm, ⟨49, _⟩ => ⟨S_, .f32⟩
  | .hbm, ⟨50, _⟩ => ⟨S128x1, .f32⟩
  | .hbm, ⟨51, _⟩ => ⟨S_, .f32⟩
  | .hbm, ⟨52, _⟩ => ⟨S128x1, .f32⟩
  | .hbm, ⟨53, _⟩ => ⟨S128x1, .f32⟩
  | .hbm, ⟨54, _⟩ => ⟨S_, .f32⟩
  | .hbm, ⟨55, _⟩ => ⟨S128x1, .f32⟩
  | .hbm, ⟨56, _⟩ => ⟨S_, .f32⟩
  | .hbm, ⟨57, _⟩ => ⟨S128x1, .f32⟩
  | .hbm, ⟨58, _⟩ => ⟨S128x1, .f32⟩
  | .hbm, ⟨59, _⟩ => ⟨S128x1, .f32⟩
  | .hbm, ⟨60, _⟩ => ⟨S128x1, .f32⟩
  | .hbm, ⟨61, _⟩ => ⟨S_, .f32⟩
  | .hbm, ⟨62, _⟩ => ⟨S128x1, .f32⟩
  | .hbm, ⟨63, _⟩ => ⟨S128x1, .f32⟩
  | .hbm, ⟨64, _⟩ => ⟨S128x1, .f32⟩
  | .hbm, ⟨65, _⟩ => ⟨S128x192, .f32⟩
  | .hbm, ⟨66, _⟩ => ⟨S128x192, .f32⟩
  | .hbm, ⟨67, _⟩ => ⟨S128x192, .bf16⟩
  | .hbm, ⟨68, _⟩ => ⟨S128x1, .f32⟩
  | .hbm, ⟨69, _⟩ => ⟨S128x1, .f32⟩
  | .hbm, ⟨70, _⟩ => ⟨S128x128x34x34, .f32⟩
  | .local _ .vmem, ⟨0, _⟩ => ⟨S1x64x32x32, .f32⟩
  | .local _ .vmem, ⟨1, _⟩ => ⟨S1x64x32x32, .f32⟩
  | .local _ .vmem, ⟨2, _⟩ => ⟨S64x192, .bf16⟩
  | .local _ .vmem, ⟨3, _⟩ => ⟨S128x192, .bf16⟩
  | .local _ .vmem, ⟨4, _⟩ => ⟨S1x1224, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x64x32x32, .f32⟩
  | .local _ .vmem, ⟨10, _⟩ => ⟨S1x64x32x32, .f32⟩
  | .local _ .vmem, ⟨11, _⟩ => ⟨S64x192, .bf16⟩
  | .local _ .vmem, ⟨12, _⟩ => ⟨S128x192, .bf16⟩
  | .local _ .vmem, ⟨13, _⟩ => ⟨S128x1, .f32⟩
  | .local _ .vmem, ⟨14, _⟩ => ⟨S1x128x34x34, .f32⟩
  | .local _ .vmem, ⟨15, _⟩ => ⟨S1x128x34x34, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v16 : Ref sig .tc := ⟨.hbm, 40, rfl⟩
abbrev main_c_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22_0 : Ref sig .tc := ⟨.hbm, 47, rfl⟩
abbrev main_v22_1 : Ref sig .tc := ⟨.hbm, 48, rfl⟩
abbrev main_cst : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x128x34x34 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S64x64x3x1_S64x64x1x1_0_0_0_0 : S64x64x3x1.Slices ![0, 0, 0, 0] S64x64x1x1
  shapeCasts_S64x64x1x1_S64x64 : S64x64x1x1.ShapeCasts S64x64
  slices_S64x64x3x1_S64x64x1x1_0_0_1_0 : S64x64x3x1.Slices ![0, 0, 1, 0] S64x64x1x1
  slices_S64x64x3x1_S64x64x1x1_0_0_2_0 : S64x64x3x1.Slices ![0, 0, 2, 0] S64x64x1x1
  concatenates_S64x64_S64x64_S64x64_S64x192_d1 : Shape.Concatenates [S64x64, S64x64, S64x64] S64x192 1
  bitsLt_bf16_f32 : FTy.bits .bf16 < FTy.bits .f32
  slices_S128x64x1x3_S128x64x1x1_0_0_0_0 : S128x64x1x3.Slices ![0, 0, 0, 0] S128x64x1x1
  shapeCasts_S128x64x1x1_S128x64 : S128x64x1x1.ShapeCasts S128x64
  slices_S128x64x1x3_S128x64x1x1_0_0_0_1 : S128x64x1x3.Slices ![0, 0, 0, 1] S128x64x1x1
  slices_S128x64x1x3_S128x64x1x1_0_0_0_2 : S128x64x1x3.Slices ![0, 0, 0, 2] S128x64x1x1
  concatenates_S128x64_S128x64_S128x64_S128x192_d1 : Shape.Concatenates [S128x64, S128x64, S128x64] S128x192 1
  bcast_S_S1224 : S_.BroadcastsInDim S1224 (![] : Fin 0 → Fin S1224.rank)
  shapeCasts_S1224_S1x1224 : S1224.ShapeCasts S1x1224
  inb_S1x64x32x32_S1x64x32x32_0_0_0_0 : ∀ a, (![0, 0, 0, 0] : Fin 4 → Nat) a + S1x64x32x32.size a ≤ S1x64x32x32.size a
  h_S1x64x32x32 : 0 < S1x64x32x32.numel
  shapeCasts_S1x64x32x32_S64x32x32 : S1x64x32x32.ShapeCasts S64x32x32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S128x192_S128x192_0_0 : ∀ a, (![0, 0] : Fin 2 → Nat) a + S128x192.size a ≤ S128x192.size a
  h_S128x192 : 0 < S128x192.numel
  shapeCasts_S128x192_S128x192 : S128x192.ShapeCasts S128x192
  concatenates_S64x1x32_S64x32x32_S64x1x32_S64x34x32_d1 : Shape.Concatenates [S64x1x32, S64x32x32, S64x1x32] S64x34x32 1
  concatenates_S64x34x2_S64x34x32_S64x34x2_S64x34x36_d2 : Shape.Concatenates [S64x34x2, S64x34x32, S64x34x2] S64x34x36 2
  shapeCasts_S64x34x36_S64x1224 : S64x34x36.ShapeCasts S64x1224
  slices_S64x1224_o0_0_S64x1152 : S64x1224.Slices ![0, 0] S64x1152
  slices_S64x1224_o0_36_S64x1152 : S64x1224.Slices ![0, 36] S64x1152
  slices_S64x1224_o0_72_S64x1152 : S64x1224.Slices ![0, 72] S64x1152
  concatenates_S64x1152_S64x1152_S64x1152_S192x1152_d0 : Shape.Concatenates [S64x1152, S64x1152, S64x1152] S192x1152 0
  concatenates_S64x36_S64x1152_S64x38_S64x1226_d1 : Shape.Concatenates [S64x36, S64x1152, S64x38] S64x1226 1
  slices_S64x1226_o0_0_S64x1224 : S64x1226.Slices ![0, 0] S64x1224
  slices_S64x1226_o0_1_S64x1224 : S64x1226.Slices ![0, 1] S64x1224
  slices_S64x1226_o0_2_S64x1224 : S64x1226.Slices ![0, 2] S64x1224
  concatenates_S64x1224_S64x1224_S64x1224_S192x1224_d0 : Shape.Concatenates [S64x1224, S64x1224, S64x1224] S192x1224 0
  inb_S1x1224_S1x1224_0_0 : ∀ a, (![0, 0] : Fin 2 → Nat) a + S1x1224.size a ≤ S1x1224.size a
  h_S1x1224 : 0 < S1x1224.numel
  shapeCasts_S1x1224_S1x1224 : S1x1224.ShapeCasts S1x1224
  broadcasts_S1x1224_S128x1224 : S1x1224.Broadcasts S128x1224
  reduces_S128x1224_S128 : S128x1224.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S128x128x1_S128x1_d0 : S128x128x1.ReducesTo [0] S128x1
  h_S_ : 0 < S_.numel
  bcast_S_S128x1 : S_.BroadcastsInDim S128x1 (![] : Fin 0 → Fin S128x1.rank)
  bcast_S128x1_S128x192_0_1 : S128x1.BroadcastsInDim S128x192 (![0, 1] : Fin 2 → Fin S128x192.rank)
  shapeCasts_S128x1224_S128x34x36 : S128x1224.ShapeCasts S128x34x36
  slices_S128x34x36_o0_0_0_S128x34x34 : S128x34x36.Slices ![0, 0, 0] S128x34x34
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S128x1x1 : S128x1.ShapeCasts S128x1x1
  broadcasts_S128x1x1_S128x34x34 : S128x1x1.Broadcasts S128x34x34
  inb_S1x128x34x34_S1x128x34x34_0_0_0_0 : ∀ a, (![0, 0, 0, 0] : Fin 4 → Nat) a + S1x128x34x34.size a ≤ S1x128x34x34.size a
  h_S1x128x34x34 : 0 < S1x128x34x34.numel
  shapeCasts_S1x128x34x34_S128x34x34 : S1x128x34x34.ShapeCasts S128x34x34
  shapeCasts_S128x34x34_S1x128x34x34 : S128x34x34.ShapeCasts S1x128x34x34
  dot_S64x192_S192x1152_S64x1152_1_0_0_1_n_n_wf : DotDims.WF S64x192 S192x1152 S64x1152 [1] [0] [0] [1] [] []
  dot_S128x192_S192x1224_S128x1224_1_0_0_1_n_n_wf : DotDims.WF S128x192 S192x1224 S128x1224 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x32.size a ≤ S128x64x32x32.size a
  hwx0_0 : ∀ i : grid0.Coords, EltTy.bits .f32 = 32 ∨ (Rect.block (s := S128x64x32x32) S1x64x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .bf16 = 32 ∨ (Rect.block (s := S64x192) S64x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x192.size a ≤ S128x192.size a
  hwx0_2 : ∀ i : grid0.Coords, EltTy.bits .bf16 = 32 ∨ (Rect.block (s := S128x192) S128x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1224.size a ≤ S1x1224.size a
  hwx0_3 : ∀ i : grid0.Coords, EltTy.bits .f32 = 32 ∨ (Rect.block (s := S1x1224) S1x1224.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S128x128x1.size a
  hwx0_4 : ∀ i : grid0.Coords, EltTy.bits .f32 = 32 ∨ (Rect.block (s := S128x128x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S128x128x1.size a
  hwx0_5 : ∀ i : grid0.Coords, EltTy.bits .f32 = 32 ∨ (Rect.block (s := S128x128x1) S1x128x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x32x32.size a ≤ S128x64x32x32.size a
  hwx1_0 : ∀ i : grid1.Coords, EltTy.bits .f32 = 32 ∨ (Rect.block (s := S128x64x32x32) S1x64x32x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x192.size a ≤ S64x192.size a
  hwx1_1 : ∀ i : grid1.Coords, EltTy.bits .bf16 = 32 ∨ (Rect.block (s := S64x192) S64x192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x192.size a ≤ S128x192.size a
  hwx1_2 : ∀ i : grid1.Coords, EltTy.bits .bf16 = 32 ∨ (Rect.block (s := S128x192) S128x192.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x34x34.size a ≤ S128x128x34x34.size a
  hwx1_4 : ∀ i : grid1.Coords, EltTy.bits .f32 = 32 ∨ (Rect.block (s := S128x128x34x34) S1x128x34x34.size (cc1_transform_4 i) (hinb1_4 i)).WholeWords (EltTy.packing .f32)

variable [Facts₀]

def dot_S64x192_S192x1152_S64x1152_1_0_0_1_n_n : DotDims S64x192 S192x1152 S64x1152 where
  lhsContracting := [1]
  rhsContracting := [0]
  lhsNonContracting := [0]
  rhsNonContracting := [1]
  lhsBatch := []
  rhsBatch := []
  wf := dot_S64x192_S192x1152_S64x1152_1_0_0_1_n_n_wf
def dot_S128x192_S192x1224_S128x1224_1_0_0_1_n_n : DotDims S128x192 S192x1224 S128x1224 where
  lhsContracting := [1]
  rhsContracting := [0]
  lhsNonContracting := [0]
  rhsNonContracting := [1]
  lhsBatch := []
  rhsBatch := []
  wf := dot_S128x192_S192x1224_S128x1224_1_0_0_1_n_n_wf

abbrev win0_0 : Pipeline.Window sig grid0 :=
  Pipeline.Window.ofSpec (Memref.whole main_arg0) S1x64x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1224.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S1x128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S1x128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x64x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128x34x34.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x64x32x32 : Shape := ⟨4, ![128, 64, 32, 32]⟩
abbrev S64x64x3x1 : Shape := ⟨4, ![64, 64, 3, 1]⟩
abbrev S128x64x1x3 : Shape := ⟨4, ![128, 64, 1, 3]⟩
abbrev S64x64x3 : Shape := ⟨3, ![64, 64, 3]⟩
abbrev S3x64x64 : Shape := ⟨3, ![3, 64, 64]⟩
abbrev S128x64x3 : Shape := ⟨3, ![128, 64, 3]⟩
abbrev S3x128x64 : Shape := ⟨3, ![3, 128, 64]⟩
abbrev S_ : Shape := ⟨0, ![]⟩
abbrev S128x64x34x36 : Shape := ⟨4, ![128, 64, 34, 36]⟩
abbrev S128x64x1224 : Shape := ⟨3, ![128, 64, 1224]⟩
abbrev S1224 : Shape := ⟨1, ![1224]⟩
abbrev S1x1224 : Shape := ⟨2, ![1, 1224]⟩
abbrev S128x128x1224 : Shape := ⟨3, ![128, 128, 1224]⟩
abbrev S128x128x1 : Shape := ⟨3, ![128, 128, 1]⟩
abbrev S1x64x1224 : Shape := ⟨3, ![1, 64, 1224]⟩
abbrev S1x128x1224 : Shape := ⟨3, ![1, 128, 1224]⟩
abbrev S1x128x1 : Shape := ⟨3, ![1, 128, 1]⟩
abbrev S64x1226 : Shape := ⟨2, ![64, 1226]⟩
abbrev S64x1224 : Shape := ⟨2, ![64, 1224]⟩
abbrev S64x1152 : Shape := ⟨2, ![64, 1152]⟩
abbrev S1x64x64 : Shape := ⟨3, ![1, 64, 64]⟩
abbrev S64x64 : Shape := ⟨2, ![64, 64]⟩
abbrev S128x1224 : Shape := ⟨2, ![128, 1224]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S128x1x1 : Shape := ⟨3, ![128, 1, 1]⟩
abbrev S128x128x34x36 : Shape := ⟨4, ![128, 128, 34, 36]⟩
abbrev S128x128x34x34 : Shape := ⟨4, ![128, 128, 34, 34]⟩
abbrev S1x128x34x36 : Shape := ⟨4, ![1, 128, 34, 36]⟩
abbrev S1x128x34x34 : Shape := ⟨4, ![1, 128, 34, 34]⟩
abbrev S128x34x36 : Shape := ⟨3, ![128, 34, 36]⟩
abbrev S128x34x34 : Shape := ⟨3, ![128, 34, 34]⟩

abbrev nBuf : Space → Nat
  | .hbm => 62
  | .vmem => 18
  | .smem => 0
  | _ => 0

abbrev bufTy : (tb : Table) → Fin (tcTables nBuf tb) → BufTy
  | .hbm, ⟨0, _⟩ => ⟨S128x64x32x32, .f32⟩
  | .hbm, ⟨1, _⟩ => ⟨S64x64x3x1, .f32⟩
  | .hbm, ⟨2, _⟩ => ⟨S128x64x1x3, .f32⟩
  | .hbm, ⟨3, _⟩ => ⟨S64x64x3, .f32⟩
  | .hbm, ⟨4, _⟩ => ⟨S3x64x64, .f32⟩
  | .hbm, ⟨5, _⟩ => ⟨S128x64x3, .f32⟩
  | .hbm, ⟨6, _⟩ => ⟨S3x128x64, .f32⟩
  | .hbm, ⟨7, _⟩ => ⟨S_, .i32⟩
  | .hbm, ⟨8, _⟩ => ⟨S_, .f32⟩
  | .hbm, ⟨9, _⟩ => ⟨S128x64x34x36, .f32⟩
  | .hbm, ⟨10, _⟩ => ⟨S128x64x1224, .f32⟩
  | .hbm, ⟨11, _⟩ => ⟨S1224, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1224, .i32⟩
  | .hbm, ⟨19, _⟩ => ⟨S1224, .i32⟩
  | .hbm, ⟨20, _⟩ => ⟨S_, .i32⟩
  | .hbm, ⟨21, _⟩ => ⟨S1224, .i32⟩
  | .hbm, ⟨22, _⟩ => ⟨S1224, .i1⟩
  | .hbm, ⟨23, _⟩ => ⟨S_, .i32⟩
  | .hbm, ⟨24, _⟩ => ⟨S1224, .i32⟩
  | .hbm, ⟨25, _⟩ => ⟨S1224, .i1⟩
  | .hbm, ⟨26, _⟩ => ⟨S_, .i32⟩
  | .hbm, ⟨27, _⟩ => ⟨S_, .i1⟩
  | .hbm, ⟨28, _⟩ => ⟨S1224, .i1⟩
  | .hbm, ⟨29, _⟩ => ⟨S1224, .i1⟩
  | .hbm, ⟨30, _⟩ => ⟨S1224, .i1⟩
  | .hbm, ⟨31, _⟩ => ⟨S1224, .i32⟩
  | .hbm, ⟨32, _⟩ => ⟨S1224, .i32⟩
  | .hbm, ⟨33, _⟩ => ⟨S1224, .i32⟩
  | .hbm, ⟨34, _⟩ => ⟨S_, .i32⟩
  | .hbm, ⟨35, _⟩ => ⟨S1224, .i32⟩
  | .hbm, ⟨36, _⟩ => ⟨S1224, .i1⟩
  | .hbm, ⟨37, _⟩ => ⟨S1224, .f32⟩
  | .hbm, ⟨38, _⟩ => ⟨S1x1224, .f32⟩
  | .hbm, ⟨39, _⟩ => ⟨S128x128x1224, .f32⟩
  | .hbm, ⟨40, _⟩ => ⟨S128x128x1, .f32⟩
  | .hbm, ⟨41, _⟩ => ⟨S128x128x1, .f32⟩
  | .hbm, ⟨42, _⟩ => ⟨S_, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x1, .f32⟩
  | .hbm, ⟨53, _⟩ => ⟨S128x1, .f32⟩
  | .hbm, ⟨54, _⟩ => ⟨S_, .f32⟩
  | .hbm, ⟨55, _⟩ => ⟨S128x1, .f32⟩
  | .hbm, ⟨56, _⟩ => ⟨S128x1, .f32⟩
  | .hbm, ⟨57, _⟩ => ⟨S128x1, .f32⟩
  | .hbm, ⟨58, _⟩ => ⟨S128x1x1, .f32⟩
  | .hbm, ⟨59, _⟩ => ⟨S128x1x1, .f32⟩
  | .hbm, ⟨60, _⟩ => ⟨S128x128x34x36, .f32⟩
  | .hbm, ⟨61, _⟩ => ⟨S128x128x34x34, .f32⟩
  | .local _ .vmem, ⟨0, _⟩ => ⟨S1x64x1224, .f32⟩
  | .local _ .vmem, ⟨1, _⟩ => ⟨S1x64x1224, .f32⟩
  | .local _ .vmem, ⟨2, _⟩ => ⟨S3x64x64, .f32⟩
  | .local _ .vmem, ⟨3, _⟩ => ⟨S3x128x64, .f32⟩
  | .local _ .vmem, ⟨4, _⟩ => ⟨S1x1224, .f32⟩
  | .local _ .vmem, ⟨5, _⟩ => ⟨S1x128x1224, .f32⟩
  | .local _ .vmem, ⟨6, _⟩ => ⟨S1x128x1224, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S64x1226, .f32⟩
  | .local _ .vmem, ⟨12, _⟩ => ⟨S1x128x34x36, .f32⟩
  | .local _ .vmem, ⟨13, _⟩ => ⟨S1x128x34x36, .f32⟩
  | .local _ .vmem, ⟨14, _⟩ => ⟨S128x1x1, .f32⟩
  | .local _ .vmem, ⟨15, _⟩ => ⟨S128x1x1, .f32⟩
  | .local _ .vmem, ⟨16, _⟩ => ⟨S1x128x34x34, .f32⟩
  | .local _ .vmem, ⟨17, _⟩ => ⟨S1x128x34x34, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_call1_c : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_v5 : Ref sig .tc := ⟨.hbm, 21, rfl⟩
abbrev main_call1_v6 : Ref sig .tc := ⟨.hbm, 22, rfl⟩
abbrev main_call1_c_2 : Ref sig .tc := ⟨.hbm, 23, rfl⟩
abbrev main_call1_v7 : Ref sig .tc := ⟨.hbm, 24, rfl⟩
abbrev main_call1_v8 : Ref sig .tc := ⟨.hbm, 25, rfl⟩
abbrev main_call1_c_3 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_v7 : Ref sig .tc := ⟨.hbm, 33, rfl⟩
abbrev main_c_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12_0 : Ref sig .tc := ⟨.hbm, 39, rfl⟩
abbrev main_v12_1 : Ref sig .tc := ⟨.hbm, 40, rfl⟩
abbrev main_v12_2 : Ref sig .tc := ⟨.hbm, 41, rfl⟩
abbrev main_cst : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_5 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x34x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x34x34 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x64x3x1_S64x64x3 : S64x64x3x1.ShapeCasts S64x64x3
  transposes_S64x64x3_S3x64x64_2_0_1 : S64x64x3.Transposes [2, 0, 1] S3x64x64
  shapeCasts_S128x64x1x3_S128x64x3 : S128x64x1x3.ShapeCasts S128x64x3
  transposes_S128x64x3_S3x128x64_2_0_1 : S128x64x3.Transposes [2, 0, 1] S3x128x64
  pads_S128x64x32x32_S128x64x34x36_000_000_110_220 : S128x64x32x32.Pads (![0, 0, 1, 2] : Fin 4 → Nat) ![0, 0, 1, 2] ![0, 0, 0, 0] S128x64x34x36
  h_S_ : 0 < S_.numel
  shapeCasts_S128x64x34x36_S128x64x1224 : S128x64x34x36.ShapeCasts S128x64x1224
  bcast_S_S1224 : S_.BroadcastsInDim S1224 (![] : Fin 0 → Fin S1224.rank)
  shapeCasts_S1224_S1x1224 : S1224.ShapeCasts S1x1224
  inb_S1x64x1224_S1x64x1224_0_0_0 : ∀ a, (![0, 0, 0] : Fin 3 → Nat) a + S1x64x1224.size a ≤ S1x64x1224.size a
  h_S1x64x1224 : 0 < S1x64x1224.numel
  shapeCasts_S1x64x1224_S64x1224 : S1x64x1224.ShapeCasts S64x1224
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  slices_S64x1224_o0_0_S64x1152 : S64x1224.Slices ![0, 0] S64x1152
  inb_S3x64x64_S1x64x64_1_0_0 : ∀ a, (![1, 0, 0] : Fin 3 → Nat) a + S1x64x64.size a ≤ S3x64x64.size a
  slices_S64x1224_o0_36_S64x1152 : S64x1224.Slices ![0, 36] S64x1152
  inb_S3x64x64_S1x64x64_2_0_0 : ∀ a, (![2, 0, 0] : Fin 3 → Nat) a + S1x64x64.size a ≤ S3x64x64.size a
  slices_S64x1224_o0_72_S64x1152 : S64x1224.Slices ![0, 72] S64x1152
  inb_S64x1226_S64x1226_0_0 : ∀ a, (![0, 0] : Fin 2 → Nat) a + S64x1226.size a ≤ S64x1226.size a
  h_S64x1226 : 0 < S64x1226.numel
  shapeCasts_S64x1226_S64x1226 : S64x1226.ShapeCasts S64x1226
  inb_S64x1226_S64x1152_0_36 : ∀ a, (![0, 36] : Fin 2 → Nat) a + S64x1152.size a ≤ S64x1226.size a
  h_S64x1152 : 0 < S64x1152.numel
  shapeCasts_S64x1152_S64x1152 : S64x1152.ShapeCasts S64x1152
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  slices_S64x1226_o0_0_S64x1224 : S64x1226.Slices ![0, 0] S64x1224
  inb_S3x128x64_S1x128x64_1_0_0 : ∀ a, (![1, 0, 0] : Fin 3 → Nat) a + S1x128x64.size a ≤ S3x128x64.size a
  slices_S64x1226_o0_1_S64x1224 : S64x1226.Slices ![0, 1] S64x1224
  inb_S3x128x64_S1x128x64_2_0_0 : ∀ a, (![2, 0, 0] : Fin 3 → Nat) a + S1x128x64.size a ≤ S3x128x64.size a
  slices_S64x1226_o0_2_S64x1224 : S64x1226.Slices ![0, 2] S64x1224
  inb_S1x1224_S1x1224_0_0 : ∀ a, (![0, 0] : Fin 2 → Nat) a + S1x1224.size a ≤ S1x1224.size a
  h_S1x1224 : 0 < S1x1224.numel
  shapeCasts_S1x1224_S1x1224 : S1x1224.ShapeCasts S1x1224
  broadcasts_S1x1224_S128x1224 : S1x1224.Broadcasts S128x1224
  inb_S1x128x1224_S1x128x1224_0_0_0 : ∀ a, (![0, 0, 0] : Fin 3 → Nat) a + S1x128x1224.size a ≤ S1x128x1224.size a
  h_S1x128x1224 : 0 < S1x128x1224.numel
  shapeCasts_S1x128x1224_S128x1224 : S1x128x1224.ShapeCasts S128x1224
  shapeCasts_S128x1224_S1x128x1224 : S128x1224.ShapeCasts S1x128x1224
  reduces_S128x1224_S128 : S128x1224.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S128x128x1_S128x1_d0 : S128x128x1.ReducesTo [0] S128x1
  bcast_S_S128x1 : S_.BroadcastsInDim S128x1 (![] : Fin 0 → Fin S128x1.rank)
  shapeCasts_S128x1_S128x1x1 : S128x1.ShapeCasts S128x1x1
  shapeCasts_S128x128x1224_S128x128x34x36 : S128x128x1224.ShapeCasts S128x128x34x36
  inb_S1x128x34x36_S1x128x34x36_0_0_0_0 : ∀ a, (![0, 0, 0, 0] : Fin 4 → Nat) a + S1x128x34x36.size a ≤ S1x128x34x36.size a
  h_S1x128x34x36 : 0 < S1x128x34x36.numel
  shapeCasts_S1x128x34x36_S128x34x36 : S1x128x34x36.ShapeCasts S128x34x36
  slices_S128x34x36_o0_0_0_S128x34x34 : S128x34x36.Slices ![0, 0, 0] S128x34x34
  inb_S128x1x1_S128x1x1_0_0_0 : ∀ a, (![0, 0, 0] : Fin 3 → Nat) a + S128x1x1.size a ≤ S128x1x1.size a
  h_S128x1x1 : 0 < S128x1x1.numel
  shapeCasts_S128x1x1_S128x1x1 : S128x1x1.ShapeCasts S128x1x1
  broadcasts_S128x1x1_S128x34x34 : S128x1x1.Broadcasts S128x34x34
  inb_S1x128x34x34_S1x128x34x34_0_0_0_0 : ∀ a, (![0, 0, 0, 0] : Fin 4 → Nat) a + S1x128x34x34.size a ≤ S1x128x34x34.size a
  h_S1x128x34x34 : 0 < S1x128x34x34.numel
  shapeCasts_S1x128x34x34_S128x34x34 : S1x128x34x34.ShapeCasts S128x34x34
  shapeCasts_S128x34x34_S1x128x34x34 : S128x34x34.ShapeCasts S1x128x34x34
  dot_S64x64_S64x1152_S64x1152_1_0_0_1_n_n_wf : DotDims.WF S64x64 S64x1152 S64x1152 [1] [0] [0] [1] [] []
  dot_S128x64_S64x1224_S128x1224_1_0_0_1_n_n_wf : DotDims.WF S128x64 S64x1224 S128x1224 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1224.size a ≤ S128x64x1224.size a
  hwx0_0 : ∀ i : grid0.Coords, EltTy.bits .f32 = 32 ∨ (Rect.block (s := S128x64x1224) S1x64x1224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x64.size a ≤ S3x64x64.size a
  hwx0_1 : ∀ i : grid0.Coords, EltTy.bits .f32 = 32 ∨ (Rect.block (s := S3x64x64) S3x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x64.size a ≤ S3x128x64.size a
  hwx0_2 : ∀ i : grid0.Coords, EltTy.bits .f32 = 32 ∨ (Rect.block (s := S3x128x64) S3x128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1224.size a ≤ S1x1224.size a
  hwx0_3 : ∀ i : grid0.Coords, EltTy.bits .f32 = 32 ∨ (Rect.block (s := S1x1224) S1x1224.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1224.size a ≤ S128x128x1224.size a
  hwx0_4 : ∀ i : grid0.Coords, EltTy.bits .f32 = 32 ∨ (Rect.block (s := S128x128x1224) S1x128x1224.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S128x128x1.size a
  hwx0_5 : ∀ i : grid0.Coords, EltTy.bits .f32 = 32 ∨ (Rect.block (s := S128x128x1) S1x128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1.size a ≤ S128x128x1.size a
  hwx0_6 : ∀ i : grid0.Coords, EltTy.bits .f32 = 32 ∨ (Rect.block (s := S128x128x1) S1x128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x34x36.size a ≤ S128x128x34x36.size a
  hwx1_0 : ∀ i : grid1.Coords, EltTy.bits .f32 = 32 ∨ (Rect.block (s := S128x128x34x36) S1x128x34x36.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1x1.size a ≤ S128x1x1.size a
  hwx1_1 : ∀ i : grid1.Coords, EltTy.bits .f32 = 32 ∨ (Rect.block (s := S128x1x1) S128x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1x1.size a ≤ S128x1x1.size a
  hwx1_2 : ∀ i : grid1.Coords, EltTy.bits .f32 = 32 ∨ (Rect.block (s := S128x1x1) S128x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x34x34.size a ≤ S128x128x34x34.size a
  hwx1_3 : ∀ i : grid1.Coords, EltTy.bits .f32 = 32 ∨ (Rect.block (s := S128x128x34x34) S1x128x34x34.size (cc1_transform_3 i) (hinb1_3 i)).WholeWords (EltTy.packing .f32)

variable [Facts₀]

def dot_S64x64_S64x1152_S64x1152_1_0_0_1_n_n : DotDims S64x64 S64x1152 S64x1152 where
  lhsContracting := [1]
  rhsContracting := [0]
  lhsNonContracting := [0]
  rhsNonContracting := [1]
  lhsBatch := []
  rhsBatch := []
  wf := dot_S64x64_S64x1152_S64x1152_1_0_0_1_n_n_wf
def dot_S128x64_S64x1224_S128x1224_1_0_0_1_n_n : DotDims S128x64 S64x1224 S128x1224 where
  lhsContracting := [1]
  rhsContracting := [0]
  lhsNonContracting := [0]
  rhsNonContracting := [1]
  lhsBatch := []
  rhsBatch := []
  wf := dot_S128x64_S64x1224_S128x1224_1_0_0_1_n_n_wf

abbrev win0_0 : Pipeline.Window sig grid0 :=
  Pipeline.Window.ofSpec (Memref.whole main_v5) S1x64x1224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1224.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S1x128x1224.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S1x128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_2) S1x128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S1x128x34x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128x34x34.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KRegions.lean ====
/-
  The two kernel regions of `Kernel`'s @main, each at a PARAMETER `V` (the core's buffer contents when the region is
  entered), at any float instance.  Both bodies are straight-line: they read each input window's whole staging buffer,
  compute, and overwrite each output window's whole staging buffer once.  So after the body at grid point `t` every
  input buffer still holds its block of the entry array and every output buffer holds ONE function of the input blocks:
  the skeleton's payload for that store.  That is the pipeline's proof data (`dat0`, `dat1`) and its body obligation.
  Region 0 (the statistics pass) writes, per image, a channel's sum of the masked second convolution and the sum of its
  squares; region 1 (the output pass) writes the image's normalised result.
-/
import proofs.«135837_g2000304308963006_pallasbulk_990_2_alg».proof.Proof.Gen.Kernel.Launch
import proofs.«135837_g2000304308963006_pallasbulk_990_2_alg».proof.Proof.Gen.Kernel.Skeleton
import proofs.«135837_g2000304308963006_pallasbulk_990_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the statistics pass -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes. -/
abbrev r0_0 : Rect S1x64x32x32 := Rect.unit (s := S1x64x32x32) ![0, 0, 0, 0] S1x64x32x32.size inb_S1x64x32x32_S1x64x32x32_0_0_0_0
abbrev r0_1 : Rect S64x192 := Rect.unit (s := S64x192) ![0, 0] S64x192.size inb_S64x192_S64x192_0_0
abbrev r0_2 : Rect S128x192 := Rect.unit (s := S128x192) ![0, 0] S128x192.size inb_S128x192_S128x192_0_0
abbrev r0_3 : Rect S1x1224 := Rect.unit (s := S1x1224) ![0, 0] S1x1224.size inb_S1x1224_S1x1224_0_0
abbrev r0_4 : Rect S1x128x1 := Rect.unit (s := S1x128x1) ![0, 0, 0] S1x128x1.size inb_S1x128x1_S1x128x1_0_0_0

/-- Window 4's staging buffer after the body: the per-channel sums of the masked convolution, from the input blocks. -/
def out0_4 (x0 : Vec F S1x64x32x32 .f32) (x1 : Vec F S64x192 .bf16) (x2 : Vec F S128x192 .bf16) (x3 : Vec F S1x1224 .f32) : Vec F S1x128x1 .f32 :=
  View.canon [⟨r0_4, k0_pay3 (View.ld x0 r0_0) (View.ld x1 r0_1) (View.ld x2 r0_2) (View.ld x3 r0_3)⟩]
/-- Window 5's staging buffer after the body: the per-channel sums of its squares. -/
def out0_5 (x0 : Vec F S1x64x32x32 .f32) (x1 : Vec F S64x192 .bf16) (x2 : Vec F S128x192 .bf16) (x3 : Vec F S1x1224 .f32) : Vec F S1x128x1 .f32 :=
  View.canon [⟨r0_4, k0_pay1 (k0_pay2 (View.ld x0 r0_0) (View.ld x1 r0_1) (View.ld x2 r0_2) (View.ld x3 r0_3))⟩]

/-- One store of the whole block covers it. -/
theorem cover0_o (p0 : Vec F S1x128x1 .f32) (y : S1x128x1.Idx) :
    ∃ pc ∈ ([⟨r0_4, p0⟩] : List (View.Piece (Elt F) S1x128x1 .f32)), y ∈ pc.1.set :=
  View.cover_of_tiled [⟨r0_4, p0⟩] S1x128x1.size (by rfl) y

set_option maxHeartbeats 1000000 in
/-- The body on whole staging memrefs, the inputs' at read contents `xW` and the outputs' at anything, runs to the
    continuation holding the inputs' as they were and each output's at its function of the inputs'. -/
theorem sound_kernel0 (c : Dev nD) (E : Set ℕ) (i : grid0.Coords) (arg1 : Memref sig .tc .vmem S1x64x32x32 .f32) (harg1 : arg1.IsWhole) (arg2 : Memref sig .tc .vmem S64x192 .bf16) (harg2 : arg2.IsWhole) (arg3 : Memref sig .tc .vmem S128x192 .bf16) (harg3 : arg3.IsWhole) (arg4 : Memref sig .tc .vmem S1x1224 .f32) (harg4 : arg4.IsWhole) (arg5 : Memref sig .tc .vmem S1x128x1 .f32) (harg5 : arg5.IsWhole) (arg6 : Memref sig .tc .vmem S1x128x1 .f32) (harg6 : arg6.IsWhole)
    (x0 : Vec F S1x64x32x32 .f32) (x1 : Vec F S64x192 .bf16) (x2 : Vec F S128x192 .bf16) (x3 : Vec F S1x1224 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: the arrays as the region finds them; after the body at point `t` each
    input's buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the output pass -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_3 : Rect S128x1 := Rect.unit (s := S128x1) ![0, 0] S128x1.size inb_S128x1_S128x1_0_0
abbrev r1_4 : Rect S1x128x34x34 := Rect.unit (s := S1x128x34x34) ![0, 0, 0, 0] S1x128x34x34.size inb_S1x128x34x34_S1x128x34x34_0_0_0_0

/-- Window 4's staging buffer after the body: the image's result, from the input blocks. -/
def out1_4 (x0 : Vec F S1x64x32x32 .f32) (x1 : Vec F S64x192 .bf16) (x2 : Vec F S128x192 .bf16) (x3 : Vec F S128x1 .f32) : Vec F S1x128x34x34 .f32 :=
  View.canon [⟨r1_4, k1_pay1 (View.ld x0 r0_0) (View.ld x1 r0_1) (View.ld x2 r0_2) (View.ld x3 r1_3)⟩]

theorem cover1_4 (p0 : Vec F S1x128x34x34 .f32) (y : S1x128x34x34.Idx) :
    ∃ pc ∈ ([⟨r1_4, p0⟩] : List (View.Piece (Elt F) S1x128x34x34 .f32)), y ∈ pc.1.set :=
  View.cover_of_tiled [⟨r1_4, p0⟩] S1x128x34x34.size (by rfl) y

set_option maxHeartbeats 1000000 in
theorem sound_kernel1 (c : Dev nD) (E : Set ℕ) (i : grid1.Coords) (arg1 : Memref sig .tc .vmem S1x64x32x32 .f32) (harg1 : arg1.IsWhole) (arg2 : Memref sig .tc .vmem S64x192 .bf16) (harg2 : arg2.IsWhole) (arg3 : Memref sig .tc .vmem S128x192 .bf16) (harg3 : arg3.IsWhole) (arg4 : Memref sig .tc .vmem S128x1 .f32) (harg4 : arg4.IsWhole) (arg5 : Memref sig .tc .vmem S1x128x34x34 .f32) (harg5 : arg5.IsWhole)
    (x0 : Vec F S1x64x32x32 .f32) (x1 : Vec F S64x192 .bf16) (x2 : Vec F S128x192 .bf16) (x3 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__out_kernel i arg1 harg1 arg2 harg2 arg3 harg3 arg4 harg4 arg5 harg5) K := by
  simp only [cc1__out_kernel_eq_skeleton]; unfold cc1__out_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole run of `Kernel`'s @main at any float instance: three stretches of host operations, the statistics region, a
  stretch of host operations, the output region.  The buffer contents at each boundary are a fold from the launch memory
  (a stretch applies its operations; a region leaves its arrays at what its write-backs fold to and everything else as
  entered).  Every weakly fair execution terminates without a fault in a state whose unscoped buffers hold the last
  boundary's contents (`run_all`); no stretch and no region writes an argument, so the arguments end as launched
  (`frame`).
-/
import proofs.«135837_g2000304308963006_pallasbulk_990_2_alg».proof.Proof.KRegions
import proofs.«135837_g2000304308963006_pallasbulk_990_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the weights' taps laid side by side). -/
abbrev W1 : Dev nD → Valuation τ sig (Elt F) := fun c => StableHlo.after hostOps0 (W0 m ρ c)
/-- After the second (the flat column index modulo the row width). -/
abbrev W2 : Dev nD → Valuation τ sig (Elt F) := fun c => StableHlo.after hostOps0_1 (W1 m ρ c)
/-- After the third (the mask): region 0's entry. -/
abbrev W3 : Dev nD → Valuation τ sig (Elt F) := fun c => StableHlo.after hostOps0_2 (W2 m ρ c)
/-- The same read at the core's references. -/
abbrev En0 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (En0 m ρ) c).arrAt w cfg0.N
theorem W4_arr (c : Dev nD) (w : Fin cfg0.W) :
    W4 m ρ c (Proc.devRef .tc (Pipeline.arrRef spec0 w)) = (dat0 (En0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Ex0 : (c : Dev nD) → (b : Ref sig .tc) → Buf (Elt F) ((c : Thread nD τ).loc b) := fun c b => W4 m ρ c b
theorem hF0 (c : Dev nD) (w : Fin cfg0.W) : (dat0 (En0 m ρ) c).arrAt w cfg0.N = Ex0 m ρ c (Pipeline.arrRef spec0 w) :=
  (W4_arr m ρ c w).symm
theorem hrest0 (c : Dev nD) : ∀ b, b ∉ Finset.univ.image (Pipeline.arrRef spec0) → Ex0 m ρ c b = En0 m ρ c b :=
  fun b hb => W4_of_ne m ρ c b fun w e => hb (Finset.mem_image.mpr ⟨w, Finset.mem_univ _, e⟩)

/-- After the fourth stretch (the statistics folded into the second weights and the additive term): region 1's entry. -/
abbrev W5 : Dev nD → Valuation τ sig (Elt F) := fun c => StableHlo.after hostOps1 (W4 m ρ c)
abbrev En1 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (En1 m ρ) c).arrAt w cfg1.N
theorem W6_arr (c : Dev nD) (w : Fin cfg1.W) :
    W6 m ρ c (Proc.devRef .tc (Pipeline.arrRef spec1 w)) = (dat1 (En1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Ex1 : (c : Dev nD) → (b : Ref sig .tc) → Buf (Elt F) ((c : Thread nD τ).loc b) := fun c b => W6 m ρ c b
theorem hF1 (c : Dev nD) (w : Fin cfg1.W) : (dat1 (En1 m ρ) c).arrAt w cfg1.N = Ex1 m ρ c (Pipeline.arrRef spec1 w) :=
  (W6_arr m ρ c w).symm
theorem hrest1 (c : Dev nD) : ∀ b, b ∉ Finset.univ.image (Pipeline.arrRef spec1) → Ex1 m ρ c b = En1 m ρ c b :=
  fun b hb => W6_of_ne m ρ c b fun w e => hb (Finset.mem_image.mpr ⟨w, Finset.mem_univ _, e⟩)

/-- An input window's array is left as the region found it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (En0 m ρ) c).arrAt_in w hin cfg0.N).trans (A_eq0 (En0 m ρ) c w))
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (En1 m ρ) c).arrAt_in w hin cfg1.N).trans (A_eq1 (En1 m ρ) c w))

/-! ### The arguments end as launched (the image array is read by both regions through an input window; the weight
    arrays by no region) -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_in m ρ c 0 rfl
    _ = W4 m ρ c (Proc.devRef .tc main_arg0) := StableHlo.after_of_writes_sub hostOps1 _ hostOps1_writes (by decide)
    _ = W3 m ρ c (Proc.devRef .tc main_arg0) := W4_in m ρ c 0 rfl
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`.  Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`.  Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (msegs m ρ) := (main_chain c).trans (by chain_rfl)

set_option backward.isDefEq.respectTransparency.types false in
/-- THE RUN: from any memory with zero counters every weakly fair execution of @main terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.Kernel.Hand

end
-- ==== Proof.KIRegions.lean ====
/-
  The two kernel regions of `KernelIdeal`'s @main, each at a PARAMETER `V` (the core's buffer contents when the region is
  entered), at any float instance.  Both bodies are straight-line: they read each input window's whole staging buffer,
  compute, and overwrite each output window's whole staging buffer once.  So after the body at grid point `t` every
  input buffer still holds its block of the entry array and every output buffer holds ONE function of the input blocks:
  the skeleton's payload for that store.  That is the pipeline's proof data (`dat0`, `dat1`) and its body obligation.
  Region 0 (the statistics pass) writes, per image, a channel's sum of the masked second convolution and the sum of its
  squares; region 1 (the output pass) writes the image's normalised result.
-/
import proofs.«135837_g2000304308963006_pallasbulk_990_2_alg».proof.Proof.Gen.KernelIdeal.Launch
import proofs.«135837_g2000304308963006_pallasbulk_990_2_alg».proof.Proof.Gen.KernelIdeal.Skeleton
import proofs.«135837_g2000304308963006_pallasbulk_990_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the statistics pass -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes. -/
abbrev r0_0 : Rect S1x64x32x32 := Rect.unit (s := S1x64x32x32) ![0, 0, 0, 0] S1x64x32x32.size inb_S1x64x32x32_S1x64x32x32_0_0_0_0
abbrev r0_1 : Rect S64x192 := Rect.unit (s := S64x192) ![0, 0] S64x192.size inb_S64x192_S64x192_0_0
abbrev r0_2 : Rect S128x192 := Rect.unit (s := S128x192) ![0, 0] S128x192.size inb_S128x192_S128x192_0_0
abbrev r0_3 : Rect S1x1224 := Rect.unit (s := S1x1224) ![0, 0] S1x1224.size inb_S1x1224_S1x1224_0_0
abbrev r0_4 : Rect S1x128x1 := Rect.unit (s := S1x128x1) ![0, 0, 0] S1x128x1.size inb_S1x128x1_S1x128x1_0_0_0

/-- Window 4's staging buffer after the body: the per-channel sums of the masked convolution, from the input blocks. -/
def out0_4 (x0 : Vec F S1x64x32x32 .f32) (x1 : Vec F S64x192 .bf16) (x2 : Vec F S128x192 .bf16) (x3 : Vec F S1x1224 .f32) : Vec F S1x128x1 .f32 :=
  View.canon [⟨r0_4, k0_pay3 (View.ld x0 r0_0) (View.ld x1 r0_1) (View.ld x2 r0_2) (View.ld x3 r0_3)⟩]
/-- Window 5's staging buffer after the body: the per-channel sums of its squares. -/
def out0_5 (x0 : Vec F S1x64x32x32 .f32) (x1 : Vec F S64x192 .bf16) (x2 : Vec F S128x192 .bf16) (x3 : Vec F S1x1224 .f32) : Vec F S1x128x1 .f32 :=
  View.canon [⟨r0_4, k0_pay1 (k0_pay2 (View.ld x0 r0_0) (View.ld x1 r0_1) (View.ld x2 r0_2) (View.ld x3 r0_3))⟩]

/-- One store of the whole block covers it. -/
theorem cover0_o (p0 : Vec F S1x128x1 .f32) (y : S1x128x1.Idx) :
    ∃ pc ∈ ([⟨r0_4, p0⟩] : List (View.Piece (Elt F) S1x128x1 .f32)), y ∈ pc.1.set :=
  View.cover_of_tiled [⟨r0_4, p0⟩] S1x128x1.size (by rfl) y

set_option maxHeartbeats 1000000 in
/-- The body on whole staging memrefs, the inputs' at read contents `xW` and the outputs' at anything, runs to the
    continuation holding the inputs' as they were and each output's at its function of the inputs'. -/
theorem sound_kernel0 (c : Dev nD) (E : Set ℕ) (i : grid0.Coords) (arg1 : Memref sig .tc .vmem S1x64x32x32 .f32) (harg1 : arg1.IsWhole) (arg2 : Memref sig .tc .vmem S64x192 .bf16) (harg2 : arg2.IsWhole) (arg3 : Memref sig .tc .vmem S128x192 .bf16) (harg3 : arg3.IsWhole) (arg4 : Memref sig .tc .vmem S1x1224 .f32) (harg4 : arg4.IsWhole) (arg5 : Memref sig .tc .vmem S1x128x1 .f32) (harg5 : arg5.IsWhole) (arg6 : Memref sig .tc .vmem S1x128x1 .f32) (harg6 : arg6.IsWhole)
    (x0 : Vec F S1x64x32x32 .f32) (x1 : Vec F S64x192 .bf16) (x2 : Vec F S128x192 .bf16) (x3 : Vec F S1x1224 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: the arrays as the region finds them; after the body at point `t` each
    input's buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the output pass -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_3 : Rect S128x1 := Rect.unit (s := S128x1) ![0, 0] S128x1.size inb_S128x1_S128x1_0_0
abbrev r1_4 : Rect S1x128x34x34 := Rect.unit (s := S1x128x34x34) ![0, 0, 0, 0] S1x128x34x34.size inb_S1x128x34x34_S1x128x34x34_0_0_0_0

/-- Window 4's staging buffer after the body: the image's result, from the input blocks. -/
def out1_4 (x0 : Vec F S1x64x32x32 .f32) (x1 : Vec F S64x192 .bf16) (x2 : Vec F S128x192 .bf16) (x3 : Vec F S128x1 .f32) : Vec F S1x128x34x34 .f32 :=
  View.canon [⟨r1_4, k1_pay1 (View.ld x0 r0_0) (View.ld x1 r0_1) (View.ld x2 r0_2) (View.ld x3 r1_3)⟩]

theorem cover1_4 (p0 : Vec F S1x128x34x34 .f32) (y : S1x128x34x34.Idx) :
    ∃ pc ∈ ([⟨r1_4, p0⟩] : List (View.Piece (Elt F) S1x128x34x34 .f32)), y ∈ pc.1.set :=
  View.cover_of_tiled [⟨r1_4, p0⟩] S1x128x34x34.size (by rfl) y

set_option maxHeartbeats 1000000 in
theorem sound_kernel1 (c : Dev nD) (E : Set ℕ) (i : grid1.Coords) (arg1 : Memref sig .tc .vmem S1x64x32x32 .f32) (harg1 : arg1.IsWhole) (arg2 : Memref sig .tc .vmem S64x192 .bf16) (harg2 : arg2.IsWhole) (arg3 : Memref sig .tc .vmem S128x192 .bf16) (harg3 : arg3.IsWhole) (arg4 : Memref sig .tc .vmem S128x1 .f32) (harg4 : arg4.IsWhole) (arg5 : Memref sig .tc .vmem S1x128x34x34 .f32) (harg5 : arg5.IsWhole)
    (x0 : Vec F S1x64x32x32 .f32) (x1 : Vec F S64x192 .bf16) (x2 : Vec F S128x192 .bf16) (x3 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__out_kernel i arg1 harg1 arg2 harg2 arg3 harg3 arg4 harg4 arg5 harg5) K := by
  simp only [cc1__out_kernel_eq_skeleton]; unfold cc1__out_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole run of `KernelIdeal`'s @main at any float instance: three stretches of host operations, the statistics region, a
  stretch of host operations, the output region.  The buffer contents at each boundary are a fold from the launch memory
  (a stretch applies its operations; a region leaves its arrays at what its write-backs fold to and everything else as
  entered).  Every weakly fair execution terminates without a fault in a state whose unscoped buffers hold the last
  boundary's contents (`run_all`); no stretch and no region writes an argument, so the arguments end as launched
  (`frame`).
-/
import proofs.«135837_g2000304308963006_pallasbulk_990_2_alg».proof.Proof.KIRegions
import proofs.«135837_g2000304308963006_pallasbulk_990_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the weights' taps laid side by side). -/
abbrev W1 : Dev nD → Valuation τ sig (Elt F) := fun c => StableHlo.after hostOps0 (W0 m ρ c)
/-- After the second (the flat column index modulo the row width). -/
abbrev W2 : Dev nD → Valuation τ sig (Elt F) := fun c => StableHlo.after hostOps0_1 (W1 m ρ c)
/-- After the third (the mask): region 0's entry. -/
abbrev W3 : Dev nD → Valuation τ sig (Elt F) := fun c => StableHlo.after hostOps0_2 (W2 m ρ c)
/-- The same read at the core's references. -/
abbrev En0 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (En0 m ρ) c).arrAt w cfg0.N
theorem W4_arr (c : Dev nD) (w : Fin cfg0.W) :
    W4 m ρ c (Proc.devRef .tc (Pipeline.arrRef spec0 w)) = (dat0 (En0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Ex0 : (c : Dev nD) → (b : Ref sig .tc) → Buf (Elt F) ((c : Thread nD τ).loc b) := fun c b => W4 m ρ c b
theorem hF0 (c : Dev nD) (w : Fin cfg0.W) : (dat0 (En0 m ρ) c).arrAt w cfg0.N = Ex0 m ρ c (Pipeline.arrRef spec0 w) :=
  (W4_arr m ρ c w).symm
theorem hrest0 (c : Dev nD) : ∀ b, b ∉ Finset.univ.image (Pipeline.arrRef spec0) → Ex0 m ρ c b = En0 m ρ c b :=
  fun b hb => W4_of_ne m ρ c b fun w e => hb (Finset.mem_image.mpr ⟨w, Finset.mem_univ _, e⟩)

/-- After the fourth stretch (the statistics folded into the second weights and the additive term): region 1's entry. -/
abbrev W5 : Dev nD → Valuation τ sig (Elt F) := fun c => StableHlo.after hostOps1 (W4 m ρ c)
abbrev En1 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (En1 m ρ) c).arrAt w cfg1.N
theorem W6_arr (c : Dev nD) (w : Fin cfg1.W) :
    W6 m ρ c (Proc.devRef .tc (Pipeline.arrRef spec1 w)) = (dat1 (En1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Ex1 : (c : Dev nD) → (b : Ref sig .tc) → Buf (Elt F) ((c : Thread nD τ).loc b) := fun c b => W6 m ρ c b
theorem hF1 (c : Dev nD) (w : Fin cfg1.W) : (dat1 (En1 m ρ) c).arrAt w cfg1.N = Ex1 m ρ c (Pipeline.arrRef spec1 w) :=
  (W6_arr m ρ c w).symm
theorem hrest1 (c : Dev nD) : ∀ b, b ∉ Finset.univ.image (Pipeline.arrRef spec1) → Ex1 m ρ c b = En1 m ρ c b :=
  fun b hb => W6_of_ne m ρ c b fun w e => hb (Finset.mem_image.mpr ⟨w, Finset.mem_univ _, e⟩)

/-- An input window's array is left as the region found it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (En0 m ρ) c).arrAt_in w hin cfg0.N).trans (A_eq0 (En0 m ρ) c w))
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (En1 m ρ) c).arrAt_in w hin cfg1.N).trans (A_eq1 (En1 m ρ) c w))

/-! ### The arguments end as launched (the image array is read by both regions through an input window; the weight
    arrays by no region) -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_in m ρ c 0 rfl
    _ = W4 m ρ c (Proc.devRef .tc main_arg0) := StableHlo.after_of_writes_sub hostOps1 _ hostOps1_writes (by decide)
    _ = W3 m ρ c (Proc.devRef .tc main_arg0) := W4_in m ρ c 0 rfl
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`.  Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`.  Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (msegs m ρ) := (main_chain c).trans (by chain_rfl)

set_option backward.isDefEq.respectTransparency.types false in
/-- THE RUN: from any memory with zero counters every weakly fair execution of @main terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Hand

end
-- ==== Proof.KIArr.lean ====
/-
  From blocks to arrays, for the kernel program's two regions at any float instance.  Both grids have one point per image
  and every output window's block at point `n` is image `n`'s slab of its array, written whole by the body; so the array
  the pipeline leaves holds, at image `n`, the body's payload of image `n`'s input blocks — the image's slab of the batch,
  and the three whole small arrays (the same at every point).
-/
import proofs.«135837_g2000304308963006_pallasbulk_990_2_alg».proof.Proof.KIRegions
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Image `n`'s slab of the batch, as the block a point loads. -/
abbrev xblk (c : Dev nD) (n : Fin 128) : Vec F S1x64x32x32 .f32 :=
  fun y => (V c main_arg0 : Vec F S128x64x32x32 .f32) (ix4 n (y 1) (y 2) (y 3))

/-! ## The zero offsets of a whole-buffer rectangle, and the printed index maps decided over the grid -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! # Region 0 -/

/-- At point `t` the image window and both result windows are at block `t` on the image axis and block 0 elsewhere;
    the three small windows are at block 0. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Window 0's block at point `t` is image `t`'s slab of the batch. -/
theorem iblk0_0_eq (c : Dev nD) (t : Fin cfg0.N) :
    (iblk0 V c 0 t : Vec F S1x64x32x32 .f32) = xblk V c ⟨t.val, t.isLt⟩ := by
  funext y
  unfold iblk0
  rw [View.read_apply]
  show (V c main_arg0 : Vec F S128x64x32x32 .f32) _
    = (V c main_arg0 : Vec F S128x64x32x32 .f32) (ix4 ⟨t.val, t.isLt⟩ (y 1) (y 2) (y 3))
  obtain ⟨e0, e1, e2, e3, -⟩ := idx_facts0 t
  congr 1
  funext a
  apply Fin.ext
  match a with
  | ⟨0, _⟩ =>
    show win0_0.index t (0 : Fin 4) * 1 + 1 * (y 0).val = t.val
    have hy : (y 0).val < 1 := (y 0).isLt
    omega
  | ⟨1, _⟩ =>
    show win0_0.index t (1 : Fin 4) * 64 + 1 * (y 1).val = (y 1).val
    omega
  | ⟨2, _⟩ =>
    show win0_0.index t (2 : Fin 4) * 32 + 1 * (y 2).val = (y 2).val
    omega
  | ⟨3, _⟩ =>
    show win0_0.index t (3 : Fin 4) * 32 + 1 * (y 3).val = (y 3).val
    omega

theorem iblk0_1_eq (c : Dev nD) (t : Fin cfg0.N) :
    (iblk0 V c 1 t : Vec F S64x192 .bf16) = (V c main_v7 : Vec F S64x192 .bf16) := by
  funext y
  unfold iblk0
  rw [View.read_apply]
  show (V c main_v7 : Vec F S64x192 .bf16) _ = (V c main_v7 : Vec F S64x192 .bf16) y
  obtain ⟨-, -, -, -, e0, e1, -⟩ := idx_facts0 t
  congr 1
  funext a
  apply Fin.ext
  match a with
  | ⟨0, _⟩ =>
    show win0_1.index t (0 : Fin 2) * 64 + 1 * (y 0).val = (y 0).val
    omega
  | ⟨1, _⟩ =>
    show win0_1.index t (1 : Fin 2) * 192 + 1 * (y 1).val = (y 1).val
    omega

theorem iblk0_2_eq (c : Dev nD) (t : Fin cfg0.N) :
    (iblk0 V c 2 t : Vec F S128x192 .bf16) = (V c main_v21 : Vec F S128x192 .bf16) := by
  funext y
  unfold iblk0
  rw [View.read_apply]
  show (V c main_v21 : Vec F S128x192 .bf16) _ = (V c main_v21 : Vec F S128x192 .bf16) y
  obtain ⟨-, -, -, -, -, -, e0, e1, -⟩ := idx_facts0 t
  congr 1
  funext a
  apply Fin.ext
  match a with
  | ⟨0, _⟩ =>
    show win0_2.index t (0 : Fin 2) * 128 + 1 * (y 0).val = (y 0).val
    omega
  | ⟨1, _⟩ =>
    show win0_2.index t (1 : Fin 2) * 192 + 1 * (y 1).val = (y 1).val
    omega

theorem iblk0_3_eq (c : Dev nD) (t : Fin cfg0.N) :
    (iblk0 V c 3 t : Vec F S1x1224 .f32) = (V c main_v20 : Vec F S1x1224 .f32) := by
  funext y
  unfold iblk0
  rw [View.read_apply]
  show (V c main_v20 : Vec F S1x1224 .f32) _ = (V c main_v20 : Vec F S1x1224 .f32) y
  obtain ⟨-, -, -, -, -, -, -, -, e0, e1, -⟩ := idx_facts0 t
  congr 1
  funext a
  apply Fin.ext
  match a with
  | ⟨0, _⟩ =>
    show win0_3.index t (0 : Fin 2) * 1 + 1 * (y 0).val = (y 0).val
    omega
  | ⟨1, _⟩ =>
    show win0_3.index t (1 : Fin 2) * 1224 + 1 * (y 1).val = (y 1).val
    omega

/-- Window 4's array after the run, as one function of the region's entry arrays. -/
abbrev G0_4 (c : Dev nD) : Vec F S128x128x1 .f32 := fun i =>
  k0_pay3 (xblk V c (i 0)) (V c main_v7 : Vec F S64x192 .bf16) (V c main_v21 : Vec F S128x192 .bf16) (V c main_v20 : Vec F S1x1224 .f32) (ix3 (0 : Fin 1) (i 1) (i 2))

/-- That function at an index of image `n`'s slab is the payload of image `n`'s blocks at the index inside the slab. -/
theorem G0_4_at (c : Dev nD) (n : Fin 128) (i : S128x128x1.Idx) (y : S1x128x1.Idx)
    (h0 : (i 0).val = n.val) (h1 : (i 1).val = (y 1).val) (h2 : (i 2).val = (y 2).val) :
    G0_4 V c i = k0_pay3 (xblk V c n) (V c main_v7 : Vec F S64x192 .bf16) (V c main_v21 : Vec F S128x192 .bf16) (V c main_v20 : Vec F S1x1224 .f32) y := by
  have e0 : i 0 = n := Fin.ext h0
  have ey : ix3 (0 : Fin 1) (i 1) (i 2) = y := by
    funext a
    apply Fin.ext
    match a with
    | ⟨0, _⟩ =>
      show (0 : ℕ) = (y 0).val
      have hy : (y 0).val < 1 := (y 0).isLt
      omega
    | ⟨1, _⟩ => exact h1
    | ⟨2, _⟩ => exact h2
  subst e0
  subst ey
  rfl

/-- What point `t` writes back of window 4 is block `t` of that function. -/
theorem flushed0_4_eq (c : Dev nD) (t : Fin cfg0.N) :
    (dat0 V c).flushed 4 t = ((cfg0.win 4).blk t).view.read (Elt F) (G0_4 V c) := by
  show (cfg0.win 4).cut (grid0.coords t) ((dat0 V c).after 4 t) = _
  rw [after0_4]
  unfold out0_4
  rw [View.canon_unit_zero hz3]
  simp only [View.ld_unit_zero (S := S1x64x32x32) hz4, View.ld_unit_zero (S := S64x192) hz2,
    View.ld_unit_zero (S := S128x192) hz2, View.ld_unit_zero (S := S1x1224) hz2]
  rw [iblk0_0_eq V c t, iblk0_1_eq V c t, iblk0_2_eq V c t, iblk0_3_eq V c t]
  obtain ⟨-, -, -, -, -, -, -, -, -, -, e0, e1, e2, -⟩ := idx_facts0 t
  funext y
  rw [View.read_apply]
  show _ = G0_4 V c (((cfg0.win 4).blk t).view.emb y)
  refine (G0_4_at V c ⟨t.val, t.isLt⟩ _ _ ?_ ?_ ?_).symm
  · show win0_4.index t (0 : Fin 3) * 1 + 1 * (y 0).val = t.val
    have hy : (y 0).val < 1 := (y 0).isLt
    omega
  · show win0_4.index t (1 : Fin 3) * 128 + 1 * (y 1).val = (y 1).val
    omega
  · show win0_4.index t (2 : Fin 3) * 1 + 1 * (y 2).val = (y 2).val
    omega

/-- Every index of window 4's array is in the block of the point its image coordinate names. -/
theorem covered0_4 (i : S128x128x1.Idx) :
    ∃ t : Fin cfg0.N, (cfg0.win 4).flush t = true ∧ i ∈ ((cfg0.win 4).blk t).view.set := by
  refine ⟨⟨(i 0).val, (i 0).isLt⟩, flush0_4 _, ?_⟩
  obtain ⟨-, -, -, -, -, -, -, -, -, -, e0, e1, e2, -⟩ := idx_facts0 ⟨(i 0).val, (i 0).isLt⟩
  have e0' : win0_4.index ⟨(i 0).val, (i 0).isLt⟩ (0 : Fin 3) = (i 0).val := e0
  show i ∈ ((View.whole main_v22_0).slice (win0_4.rect ⟨(i 0).val, (i 0).isLt⟩)).set
  rw [View.set_slice_whole, Rect.mem_set_unit]
  intro a
  have h1 : (i 1).val < 128 := (i 1).isLt
  have h2 : (i 2).val < 1 := (i 2).isLt
  match a with
  | ⟨0, _⟩ =>
    show win0_4.index ⟨(i 0).val, (i 0).isLt⟩ (0 : Fin 3) * 1 ≤ (i 0).val
      ∧ (i 0).val < win0_4.index ⟨(i 0).val, (i 0).isLt⟩ (0 : Fin 3) * 1 + 1
    omega
  | ⟨1, _⟩ =>
    show win0_4.index ⟨(i 0).val, (i 0).isLt⟩ (1 : Fin 3) * 128 ≤ (i 1).val
      ∧ (i 1).val < win0_4.index ⟨(i 0).val, (i 0).isLt⟩ (1 : Fin 3) * 128 + 128
    omega
  | ⟨2, _⟩ =>
    show win0_4.index ⟨(i 0).val, (i 0).isLt⟩ (2 : Fin 3) * 1 ≤ (i 2).val
      ∧ (i 2).val < win0_4.index ⟨(i 0).val, (i 0).isLt⟩ (2 : Fin 3) * 1 + 1
    omega

/-- So window 4's array ends holding that function. -/
theorem final0_4 (c : Dev nD) : ((dat0 V c).arrAt 4 cfg0.N : Vec F S128x128x1 .f32) = G0_4 V c :=
  (dat0 V c).arrAt_eq_of_cover 4 (G0_4 V c) (fun t _ => flushed0_4_eq V c t) covered0_4

/-- Window 5's array after the run, as one function of the region's entry arrays. -/
abbrev G0_5 (c : Dev nD) : Vec F S128x128x1 .f32 := fun i =>
  k0_pay1 (k0_pay2 (xblk V c (i 0)) (V c main_v7 : Vec F S64x192 .bf16) (V c main_v21 : Vec F S128x192 .bf16) (V c main_v20 : Vec F S1x1224 .f32)) (ix3 (0 : Fin 1) (i 1) (i 2))

/-- That function at an index of image `n`'s slab is the payload of image `n`'s blocks at the index inside the slab. -/
theorem G0_5_at (c : Dev nD) (n : Fin 128) (i : S128x128x1.Idx) (y : S1x128x1.Idx)
    (h0 : (i 0).val = n.val) (h1 : (i 1).val = (y 1).val) (h2 : (i 2).val = (y 2).val) :
    G0_5 V c i = k0_pay1 (k0_pay2 (xblk V c n) (V c main_v7 : Vec F S64x192 .bf16) (V c main_v21 : Vec F S128x192 .bf16) (V c main_v20 : Vec F S1x1224 .f32)) y := by
  have e0 : i 0 = n := Fin.ext h0
  have ey : ix3 (0 : Fin 1) (i 1) (i 2) = y := by
    funext a
    apply Fin.ext
    match a with
    | ⟨0, _⟩ =>
      show (0 : ℕ) = (y 0).val
      have hy : (y 0).val < 1 := (y 0).isLt
      omega
    | ⟨1, _⟩ => exact h1
    | ⟨2, _⟩ => exact h2
  subst e0
  subst ey
  rfl

/-- What point `t` writes back of window 5 is block `t` of that function. -/
theorem flushed0_5_eq (c : Dev nD) (t : Fin cfg0.N) :
    (dat0 V c).flushed 5 t = ((cfg0.win 5).blk t).view.read (Elt F) (G0_5 V c) := by
  show (cfg0.win 5).cut (grid0.coords t) ((dat0 V c).after 5 t) = _
  rw [after0_5]
  unfold out0_5
  rw [View.canon_unit_zero hz3]
  simp only [View.ld_unit_zero (S := S1x64x32x32) hz4, View.ld_unit_zero (S := S64x192) hz2,
    View.ld_unit_zero (S := S128x192) hz2, View.ld_unit_zero (S := S1x1224) hz2]
  rw [iblk0_0_eq V c t, iblk0_1_eq V c t, iblk0_2_eq V c t, iblk0_3_eq V c t]
  obtain ⟨-, -, -, -, -, -, -, -, -, -, -, -, -, e0, e1, e2⟩ := idx_facts0 t
  funext y
  rw [View.read_apply]
  show _ = G0_5 V c (((cfg0.win 5).blk t).view.emb y)
  refine (G0_5_at V c ⟨t.val, t.isLt⟩ _ _ ?_ ?_ ?_).symm
  · show win0_5.index t (0 : Fin 3) * 1 + 1 * (y 0).val = t.val
    have hy : (y 0).val < 1 := (y 0).isLt
    omega
  · show win0_5.index t (1 : Fin 3) * 128 + 1 * (y 1).val = (y 1).val
    omega
  · show win0_5.index t (2 : Fin 3) * 1 + 1 * (y 2).val = (y 2).val
    omega

/-- Every index of window 5's array is in the block of the point its image coordinate names. -/
theorem covered0_5 (i : S128x128x1.Idx) :
    ∃ t : Fin cfg0.N, (cfg0.win 5).flush t = true ∧ i ∈ ((cfg0.win 5).blk t).view.set := by
  refine ⟨⟨(i 0).val, (i 0).isLt⟩, flush0_5 _, ?_⟩
  obtain ⟨-, -, -, -, -, -, -, -, -, -, -, -, -, e0, e1, e2⟩ := idx_facts0 ⟨(i 0).val, (i 0).isLt⟩
  have e0' : win0_5.index ⟨(i 0).val, (i 0).isLt⟩ (0 : Fin 3) = (i 0).val := e0
  show i ∈ ((View.whole main_v22_1).slice (win0_5.rect ⟨(i 0).val, (i 0).isLt⟩)).set
  rw [View.set_slice_whole, Rect.mem_set_unit]
  intro a
  have h1 : (i 1).val < 128 := (i 1).isLt
  have h2 : (i 2).val < 1 := (i 2).isLt
  match a with
  | ⟨0, _⟩ =>
    show win0_5.index ⟨(i 0).val, (i 0).isLt⟩ (0 : Fin 3) * 1 ≤ (i 0).val
      ∧ (i 0).val < win0_5.index ⟨(i 0).val, (i 0).isLt⟩ (0 : Fin 3) * 1 + 1
    omega
  | ⟨1, _⟩ =>
    show win0_5.index ⟨(i 0).val, (i 0).isLt⟩ (1 : Fin 3) * 128 ≤ (i 1).val
      ∧ (i 1).val < win0_5.index ⟨(i 0).val, (i 0).isLt⟩ (1 : Fin 3) * 128 + 128
    omega
  | ⟨2, _⟩ =>
    show win0_5.index ⟨(i 0).val, (i 0).isLt⟩ (2 : Fin 3) * 1 ≤ (i 2).val
      ∧ (i 2).val < win0_5.index ⟨(i 0).val, (i 0).isLt⟩ (2 : Fin 3) * 1 + 1
    omega

/-- So window 5's array ends holding that function. -/
theorem final0_5 (c : Dev nD) : ((dat0 V c).arrAt 5 cfg0.N : Vec F S128x128x1 .f32) = G0_5 V c :=
  (dat0 V c).arrAt_eq_of_cover 5 (G0_5 V c) (fun t _ => flushed0_5_eq V c t) covered0_5

/-- The statistics region leaves image `n`'s per-channel sums at row `n` of its first result … -/
theorem arr0_4_apply (c : Dev nD) (n co : Fin 128) :
    ((dat0 V c).arrAt 4 cfg0.N : Vec F S128x128x1 .f32) (ix3 n co 0)
      = k0_pay3 (xblk V c n) (V c main_v7 : Vec F S64x192 .bf16) (V c main_v21 : Vec F S128x192 .bf16) (V c main_v20 : Vec F S1x1224 .f32) (ix3 0 co 0) := by
  rw [final0_4]

/-- … and the sums of squares at row `n` of its second. -/
theorem arr0_5_apply (c : Dev nD) (n co : Fin 128) :
    ((dat0 V c).arrAt 5 cfg0.N : Vec F S128x128x1 .f32) (ix3 n co 0)
      = k0_pay1 (k0_pay2 (xblk V c n) (V c main_v7 : Vec F S64x192 .bf16) (V c main_v21 : Vec F S128x192 .bf16) (V c main_v20 : Vec F S1x1224 .f32)) (ix3 0 co 0) := by
  rw [final0_5]

/-! # Region 1 -/

/-- At point `t` the image window and the result window are at block `t` on the image axis and block 0 elsewhere;
    the three small windows are at block 0. -/
theorem idx_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 4) = t.val ∧ win1_4.index t (1 : Fin 4) = 0 ∧ win1_4.index t (2 : Fin 4) = 0 ∧ win1_4.index t (3 : Fin 4) = 0 :=
  (by decide +kernel : ∀ t : Fin grid1.N, _)

/-- Window 0's block at point `t` is image `t`'s slab of the batch. -/
theorem iblk1_0_eq (c : Dev nD) (t : Fin cfg1.N) :
    (iblk1 V c 0 t : Vec F S1x64x32x32 .f32) = xblk V c ⟨t.val, t.isLt⟩ := by
  funext y
  unfold iblk1
  rw [View.read_apply]
  show (V c main_arg0 : Vec F S128x64x32x32 .f32) _
    = (V c main_arg0 : Vec F S128x64x32x32 .f32) (ix4 ⟨t.val, t.isLt⟩ (y 1) (y 2) (y 3))
  obtain ⟨e0, e1, e2, e3, -⟩ := idx_facts1 t
  congr 1
  funext a
  apply Fin.ext
  match a with
  | ⟨0, _⟩ =>
    show win1_0.index t (0 : Fin 4) * 1 + 1 * (y 0).val = t.val
    have hy : (y 0).val < 1 := (y 0).isLt
    omega
  | ⟨1, _⟩ =>
    show win1_0.index t (1 : Fin 4) * 64 + 1 * (y 1).val = (y 1).val
    omega
  | ⟨2, _⟩ =>
    show win1_0.index t (2 : Fin 4) * 32 + 1 * (y 2).val = (y 2).val
    omega
  | ⟨3, _⟩ =>
    show win1_0.index t (3 : Fin 4) * 32 + 1 * (y 3).val = (y 3).val
    omega

theorem iblk1_1_eq (c : Dev nD) (t : Fin cfg1.N) :
    (iblk1 V c 1 t : Vec F S64x192 .bf16) = (V c main_v7 : Vec F S64x192 .bf16) := by
  funext y
  unfold iblk1
  rw [View.read_apply]
  show (V c main_v7 : Vec F S64x192 .bf16) _ = (V c main_v7 : Vec F S64x192 .bf16) y
  obtain ⟨-, -, -, -, e0, e1, -⟩ := idx_facts1 t
  congr 1
  funext a
  apply Fin.ext
  match a with
  | ⟨0, _⟩ =>
    show win1_1.index t (0 : Fin 2) * 64 + 1 * (y 0).val = (y 0).val
    omega
  | ⟨1, _⟩ =>
    show win1_1.index t (1 : Fin 2) * 192 + 1 * (y 1).val = (y 1).val
    omega

theorem iblk1_2_eq (c : Dev nD) (t : Fin cfg1.N) :
    (iblk1 V c 2 t : Vec F S128x192 .bf16) = (V c main_v36 : Vec F S128x192 .bf16) := by
  funext y
  unfold iblk1
  rw [View.read_apply]
  show (V c main_v36 : Vec F S128x192 .bf16) _ = (V c main_v36 : Vec F S128x192 .bf16) y
  obtain ⟨-, -, -, -, -, -, e0, e1, -⟩ := idx_facts1 t
  congr 1
  funext a
  apply Fin.ext
  match a with
  | ⟨0, _⟩ =>
    show win1_2.index t (0 : Fin 2) * 128 + 1 * (y 0).val = (y 0).val
    omega
  | ⟨1, _⟩ =>
    show win1_2.index t (1 : Fin 2) * 192 + 1 * (y 1).val = (y 1).val
    omega

theorem iblk1_3_eq (c : Dev nD) (t : Fin cfg1.N) :
    (iblk1 V c 3 t : Vec F S128x1 .f32) = (V c main_v38 : Vec F S128x1 .f32) := by
  funext y
  unfold iblk1
  rw [View.read_apply]
  show (V c main_v38 : Vec F S128x1 .f32) _ = (V c main_v38 : Vec F S128x1 .f32) y
  obtain ⟨-, -, -, -, -, -, -, -, e0, e1, -⟩ := idx_facts1 t
  congr 1
  funext a
  apply Fin.ext
  match a with
  | ⟨0, _⟩ =>
    show win1_3.index t (0 : Fin 2) * 128 + 1 * (y 0).val = (y 0).val
    omega
  | ⟨1, _⟩ =>
    show win1_3.index t (1 : Fin 2) * 1 + 1 * (y 1).val = (y 1).val
    omega

/-- The result array after the run, as one function of the region's entry arrays. -/
abbrev G1_4 (c : Dev nD) : Vec F S128x128x34x34 .f32 := fun i =>
  k1_pay1 (xblk V c (i 0)) (V c main_v7 : Vec F S64x192 .bf16) (V c main_v36 : Vec F S128x192 .bf16) (V c main_v38 : Vec F S128x1 .f32) (ix4 (0 : Fin 1) (i 1) (i 2) (i 3))

/-- That function at an index of image `n`'s slab is the payload of image `n`'s blocks at the index inside the slab. -/
theorem G1_4_at (c : Dev nD) (n : Fin 128) (i : S128x128x34x34.Idx) (y : S1x128x34x34.Idx)
    (h0 : (i 0).val = n.val) (h1 : (i 1).val = (y 1).val) (h2 : (i 2).val = (y 2).val) (h3 : (i 3).val = (y 3).val) :
    G1_4 V c i = k1_pay1 (xblk V c n) (V c main_v7 : Vec F S64x192 .bf16) (V c main_v36 : Vec F S128x192 .bf16) (V c main_v38 : Vec F S128x1 .f32) y := by
  have e0 : i 0 = n := Fin.ext h0
  have ey : ix4 (0 : Fin 1) (i 1) (i 2) (i 3) = y := by
    funext a
    apply Fin.ext
    match a with
    | ⟨0, _⟩ =>
      show (0 : ℕ) = (y 0).val
      have hy : (y 0).val < 1 := (y 0).isLt
      omega
    | ⟨1, _⟩ => exact h1
    | ⟨2, _⟩ => exact h2
    | ⟨3, _⟩ => exact h3
  subst e0
  subst ey
  rfl

/-- What point `t` writes back of the result window is block `t` of that function. -/
theorem flushed1_4_eq (c : Dev nD) (t : Fin cfg1.N) :
    (dat1 V c).flushed 4 t = ((cfg1.win 4).blk t).view.read (Elt F) (G1_4 V c) := by
  show (cfg1.win 4).cut (grid1.coords t) ((dat1 V c).after 4 t) = _
  rw [after1_4]
  unfold out1_4
  rw [View.canon_unit_zero hz4]
  simp only [View.ld_unit_zero (S := S1x64x32x32) hz4, View.ld_unit_zero (S := S64x192) hz2,
    View.ld_unit_zero (S := S128x192) hz2, View.ld_unit_zero (S := S128x1) hz2]
  rw [iblk1_0_eq V c t, iblk1_1_eq V c t, iblk1_2_eq V c t, iblk1_3_eq V c t]
  obtain ⟨-, -, -, -, -, -, -, -, -, -, e0, e1, e2, e3⟩ := idx_facts1 t
  funext y
  rw [View.read_apply]
  show _ = G1_4 V c (((cfg1.win 4).blk t).view.emb y)
  refine (G1_4_at V c ⟨t.val, t.isLt⟩ _ _ ?_ ?_ ?_ ?_).symm
  · show win1_4.index t (0 : Fin 4) * 1 + 1 * (y 0).val = t.val
    have hy : (y 0).val < 1 := (y 0).isLt
    omega
  · show win1_4.index t (1 : Fin 4) * 128 + 1 * (y 1).val = (y 1).val
    omega
  · show win1_4.index t (2 : Fin 4) * 34 + 1 * (y 2).val = (y 2).val
    omega
  · show win1_4.index t (3 : Fin 4) * 34 + 1 * (y 3).val = (y 3).val
    omega

/-- Every index of the result array is in the block of the point its image coordinate names. -/
theorem covered1_4 (i : S128x128x34x34.Idx) :
    ∃ t : Fin cfg1.N, (cfg1.win 4).flush t = true ∧ i ∈ ((cfg1.win 4).blk t).view.set := by
  refine ⟨⟨(i 0).val, (i 0).isLt⟩, flush1_4 _, ?_⟩
  obtain ⟨-, -, -, -, -, -, -, -, -, -, e0, e1, e2, e3⟩ := idx_facts1 ⟨(i 0).val, (i 0).isLt⟩
  have e0' : win1_4.index ⟨(i 0).val, (i 0).isLt⟩ (0 : Fin 4) = (i 0).val := e0
  show i ∈ ((View.whole main_v39).slice (win1_4.rect ⟨(i 0).val, (i 0).isLt⟩)).set
  rw [View.set_slice_whole, Rect.mem_set_unit]
  intro a
  have h1 : (i 1).val < 128 := (i 1).isLt
  have h2 : (i 2).val < 34 := (i 2).isLt
  have h3 : (i 3).val < 34 := (i 3).isLt
  match a with
  | ⟨0, _⟩ =>
    show win1_4.index ⟨(i 0).val, (i 0).isLt⟩ (0 : Fin 4) * 1 ≤ (i 0).val
      ∧ (i 0).val < win1_4.index ⟨(i 0).val, (i 0).isLt⟩ (0 : Fin 4) * 1 + 1
    omega
  | ⟨1, _⟩ =>
    show win1_4.index ⟨(i 0).val, (i 0).isLt⟩ (1 : Fin 4) * 128 ≤ (i 1).val
      ∧ (i 1).val < win1_4.index ⟨(i 0).val, (i 0).isLt⟩ (1 : Fin 4) * 128 + 128
    omega
  | ⟨2, _⟩ =>
    show win1_4.index ⟨(i 0).val, (i 0).isLt⟩ (2 : Fin 4) * 34 ≤ (i 2).val
      ∧ (i 2).val < win1_4.index ⟨(i 0).val, (i 0).isLt⟩ (2 : Fin 4) * 34 + 34
    omega
  | ⟨3, _⟩ =>
    show win1_4.index ⟨(i 0).val, (i 0).isLt⟩ (3 : Fin 4) * 34 ≤ (i 3).val
      ∧ (i 3).val < win1_4.index ⟨(i 0).val, (i 0).isLt⟩ (3 : Fin 4) * 34 + 34
    omega

/-- So the result array ends holding that function. -/
theorem final1_4 (c : Dev nD) : ((dat1 V c).arrAt 4 cfg1.N : Vec F S128x128x34x34 .f32) = G1_4 V c :=
  (dat1 V c).arrAt_eq_of_cover 4 (G1_4 V c) (fun t _ => flushed1_4_eq V c t) covered1_4

/-- The output region leaves image `n`'s result at slab `n` of the program's result. -/
theorem arr1_4_apply (c : Dev nD) (n co : Fin 128) (r q : Fin 34) :
    ((dat1 V c).arrAt 4 cfg1.N : Vec F S128x128x34x34 .f32) (ix4 n co r q)
      = k1_pay1 (xblk V c n) (V c main_v7 : Vec F S64x192 .bf16) (V c main_v36 : Vec F S128x192 .bf16) (V c main_v38 : Vec F S128x1 .f32) (ix4 0 co r q) := by
  rw [final1_4]

end Cert.KernelIdeal.Hand

end
-- ==== Proof.Spec.lean ====
/-
  The mathematics both programs compute, stated once over extended-real arrays with plain `Fin` coordinates and a flat
  natural-number column index (row width 36), free of any program text.

  One image `x : [64, 32, 32]` is rectified, zero-padded by one row above and below and two columns left and right
  (`xp`), convolved along rows by the three taps of `A` (a tap is a shift by one padded row, 36 columns: `c1`), placed
  inside a zero border (`y1`), convolved along columns by the three taps of `B` (a tap is a shift by one column: `c2`),
  and masked to the 34 valid columns of every flat row (`am`).  Per output channel the masked values are summed, and
  their squares, over the image (`ps`, `pq`) and then over the batch; mean, biased variance and inverse standard
  deviation follow (`meanE`, `varE`, `rstdE`).  One program normalises the stored masked values (`outR`); the other
  recomputes the second convolution with its weights scaled by the inverse deviation and adds `-mean * rstd` (`outK`),
  its taps laid side by side along one contraction axis of length 192 (`c1K`, `c2K`).
-/
import Idealize.ShloMosaic.PureOps.Ideal

noncomputable section

open scoped BigOperators

namespace Cert.Spec

open Idealize.ShloMosaic

/-- One image: channel, row, column. -/
abbrev Img := Fin 64 → Fin 32 → Fin 32 → EReal
/-- First convolution's weights: output channel, input channel, tap. -/
abbrev Wt1 := Fin 64 → Fin 64 → Fin 3 → EReal
/-- Second convolution's weights: output channel, input channel, tap. -/
abbrev Wt2 := Fin 128 → Fin 64 → Fin 3 → EReal

/-- Flat column `j` (row `j / 36`, column `j % 36`) lies inside the padded image's interior. -/
abbrev Inside (j : ℕ) : Prop := (1 ≤ j / 36 ∧ j / 36 ≤ 32) ∧ (2 ≤ j % 36 ∧ j % 36 ≤ 33)

/-- The zero-padded image, flat: rows 1..32 and columns 2..33 hold the image. -/
def pad0 (x : Img) (ci : Fin 64) (j : ℕ) : EReal :=
  if h : Inside j then x ci ⟨j / 36 - 1, by obtain ⟨⟨_, _⟩, _⟩ := h; omega⟩ ⟨j % 36 - 2, by obtain ⟨_, ⟨_, _⟩⟩ := h; omega⟩ else 0

/-- Padded, then rectified. -/
def xp (x : Img) (ci : Fin 64) (j : ℕ) : EReal := max (pad0 x ci j) 0

/-- Rectified, then padded: the same array (`xpK_eq_xp`). -/
def xpK (x : Img) (ci : Fin 64) (j : ℕ) : EReal :=
  if h : Inside j then max (x ci ⟨j / 36 - 1, by obtain ⟨⟨_, _⟩, _⟩ := h; omega⟩ ⟨j % 36 - 2, by obtain ⟨_, ⟨_, _⟩⟩ := h; omega⟩) 0 else 0

/-- First convolution (three row taps), at flat column `j < 1152`. -/
def c1 (x : Img) (A : Wt1) (cm : Fin 64) (j : ℕ) : EReal :=
  ∑ t : Fin 3, ∑ ci : Fin 64, A cm ci t * xp x ci (t.val * 36 + j)

/-- The first convolution's result inside a zero border: columns 36..1187 of 1226. -/
def y1 (x : Img) (A : Wt1) (cm : Fin 64) (j : ℕ) : EReal :=
  if 36 ≤ j ∧ j < 1188 then c1 x A cm (j - 36) else 0

/-- Second convolution (three column taps), at flat column `j < 1224`. -/
def c2 (x : Img) (A : Wt1) (B : Wt2) (co : Fin 128) (j : ℕ) : EReal :=
  ∑ t : Fin 3, ∑ cm : Fin 64, B co cm t * y1 x A cm (t.val + j)

/-- One on the 34 valid columns of every flat row of 36, zero on the other two. -/
def msk (j : ℕ) : EReal := if j % 36 < 34 then 1 else 0

/-- The masked second convolution. -/
def am (x : Img) (A : Wt1) (B : Wt2) (co : Fin 128) (j : ℕ) : EReal := c2 x A B co j * msk j

/-- One image's sum of the masked values of a channel. -/
def ps (x : Img) (A : Wt1) (B : Wt2) (co : Fin 128) : EReal := ∑ j : Fin 1224, am x A B co j.val
/-- One image's sum of their squares. -/
def pq (x : Img) (A : Wt1) (B : Wt2) (co : Fin 128) : EReal := ∑ j : Fin 1224, am x A B co j.val * am x A B co j.val

/-! ## The taps side by side along one contraction axis -/

/-- A weight array with its three taps laid side by side: column `k` is input channel `k % 64` of tap `k / 64`. -/
abbrev cat1 (A : Wt1) : Fin 64 → Fin 192 → EReal :=
  fun cm k => A cm ⟨k.val % 64, Nat.mod_lt _ (by decide)⟩ ⟨k.val / 64, by have := k.isLt; omega⟩
abbrev cat2 (B : Wt2) : Fin 128 → Fin 192 → EReal :=
  fun co k => B co ⟨k.val % 64, Nat.mod_lt _ (by decide)⟩ ⟨k.val / 64, by have := k.isLt; omega⟩

/-- First convolution as ONE contraction of length 192 over side-by-side weights `a`. -/
def c1K (x : Img) (a : Fin 64 → Fin 192 → EReal) (cm : Fin 64) (j : ℕ) : EReal :=
  ∑ k : Fin 192, a cm k * xpK x ⟨k.val % 64, Nat.mod_lt _ (by decide)⟩ (k.val / 64 * 36 + j)

def y1K (x : Img) (a : Fin 64 → Fin 192 → EReal) (cm : Fin 64) (j : ℕ) : EReal :=
  if 36 ≤ j ∧ j < 1188 then c1K x a cm (j - 36) else 0

/-- Second convolution as ONE contraction of length 192 over side-by-side weights `b`. -/
def c2K (x : Img) (a : Fin 64 → Fin 192 → EReal) (b : Fin 128 → Fin 192 → EReal) (co : Fin 128) (j : ℕ) : EReal :=
  ∑ k : Fin 192, b co k * y1K x a ⟨k.val % 64, Nat.mod_lt _ (by decide)⟩ (k.val / 64 + j)

/-! ## Batch statistics -/

/-- The number of values a channel's statistics run over, 128 · 34 · 34, as the programs write it. -/
def cntE : EReal := Ideal.ofBits .f32 0x48108000#32
/-- The variance's guard, as the programs write it. -/
def epsE : EReal := Ideal.ofBits .f32 0x3727C5AC#32

/-- A channel's mean from its per-image sums. -/
def meanE (P : Fin 128 → EReal) : EReal := Ideal.div (∑ n : Fin 128, P n) cntE
/-- Its biased variance from the per-image sums and sums of squares. -/
def varE (P Q : Fin 128 → EReal) : EReal := Ideal.div (∑ n : Fin 128, Q n) cntE - meanE P * meanE P
/-- Its inverse standard deviation. -/
def rstdE (P Q : Fin 128 → EReal) : EReal := Ideal.rsqrt (varE P Q + epsE)

/-! ## The two results -/

/-- A channel's per-image sums over a batch `X`. -/
abbrev PS (X : Fin 128 → Img) (A : Wt1) (B : Wt2) (co : Fin 128) : Fin 128 → EReal := fun n => ps (X n) A B co
abbrev PQ (X : Fin 128 → Img) (A : Wt1) (B : Wt2) (co : Fin 128) : Fin 128 → EReal := fun n => pq (X n) A B co

/-- Normalise the masked values: `(y - mean) * rstd` on the valid columns. -/
def outR (X : Fin 128 → Img) (A : Wt1) (B : Wt2) (n : Fin 128) (co : Fin 128) (r q : Fin 34) : EReal :=
  (am (X n) A B co (r.val * 36 + q.val) - meanE (PS X A B co)) * rstdE (PS X A B co) (PQ X A B co)

/-- Recompute with the second weights scaled by `rstd`, then add `-mean * rstd`. -/
def outK (X : Fin 128 → Img) (A : Wt1) (B : Wt2) (n : Fin 128) (co : Fin 128) (r q : Fin 34) : EReal :=
  c2K (X n) (cat1 A) (fun co' k => cat2 B co' k * rstdE (PS X A B co') (PQ X A B co')) co (r.val * 36 + q.val)
    + (-(meanE (PS X A B co))) * rstdE (PS X A B co) (PQ X A B co)

end Cert.Spec

end
-- ==== Proof.KIPay.lean ====
/-
  The idealized kernel's payloads read at an index, at the extended reals: what one grid point computes from its loaded
  blocks, as the specification's contraction of length 192 (`Cert.Spec.c2K`).  Both kernel functions build the same
  chain — rectify, zero-pad by concatenation, flatten, three row-shifted slices stacked on the contraction axis, one matrix
  product, a zero border by concatenation, three column-shifted slices stacked, one matrix product — and then differ:
  the statistics kernel masks and reduces along the flat axis; the output kernel reshapes to rows of 36, keeps the first
  34 columns and adds a per-channel term.  Format changes are the identity here.
-/
import proofs.«135837_g2000304308963006_pallasbulk_990_2_alg».proof.Proof.Gen.KernelIdeal.Skeleton
import proofs.«135837_g2000304308963006_pallasbulk_990_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Pay

open Idealize.ShloMosaic Idealize.ShloMosaic.ValueIdx Cert.KernelIdeal Cert.KernelIdeal.Gen

/-- One loaded image block as the specification's image. -/
abbrev img (v0 : Vec Ideal S1x64x32x32 .f32) : Cert.Spec.Img := fun ci h w => v0 (ix4 0 ci h w)
/-- A loaded rank-2 weight block by coordinates. -/
abbrev mat1 (v2 : Vec Ideal S64x192 .bf16) : Fin 64 → Fin 192 → EReal := fun cm k => v2 (ix2 cm k)
abbrev mat2 (v4 : Vec Ideal S128x192 .bf16) : Fin 128 → Fin 192 → EReal := fun co k => v4 (ix2 co k)

/-! ## The common chain, stage by stage -/

/-- The zero array of a shape, as the programs splat it. -/
abbrev zeros (s : Shape) : FVec Ideal s .bf16 := broadcast s (Scalar.ofBits .bf16 0x0000#16)

/-- Rectify: the block without its unit axis, maximum with zero, format change. -/
def rect (v0 : Vec Ideal S1x64x32x32 .f32) : FVec Ideal S64x32x32 .bf16 :=
  truncf .bf16 (maximumf (shapeCast S64x32x32 v0 shapeCasts_S1x64x32x32_S64x32x32)
    (broadcast S64x32x32 (Scalar.ofBits .f32 0x00000000#32))) bitsLt_bf16_f32

/-- One zero row above and below. -/
def padRows (x : FVec Ideal S64x32x32 .bf16) : FVec Ideal S64x34x32 .bf16 :=
  concatenate S64x34x32 1 [⟨S64x1x32, zeros S64x1x32⟩, ⟨S64x32x32, x⟩,
    ⟨S64x1x32, zeros S64x1x32⟩] concatenates_S64x1x32_S64x32x32_S64x1x32_S64x34x32_d1

/-- Two zero columns left and right. -/
def padCols (x : FVec Ideal S64x34x32 .bf16) : FVec Ideal S64x34x36 .bf16 :=
  concatenate S64x34x36 2 [⟨S64x34x2, zeros S64x34x2⟩, ⟨S64x34x32, x⟩,
    ⟨S64x34x2, zeros S64x34x2⟩] concatenates_S64x34x2_S64x34x32_S64x34x2_S64x34x36_d2

/-- Rows of 36 laid end to end. -/
def flat (x : FVec Ideal S64x34x36 .bf16) : FVec Ideal S64x1224 .bf16 :=
  shapeCast S64x1224 x shapeCasts_S64x34x36_S64x1224

/-- Three slices shifted by one padded row each, stacked along the contraction axis. -/
def rowTaps (x : FVec Ideal S64x1224 .bf16) : FVec Ideal S192x1152 .bf16 :=
  concatenate S192x1152 0 [⟨S64x1152, extractStridedSlice S64x1152 ![0, 0] x slices_S64x1224_o0_0_S64x1152⟩,
    ⟨S64x1152, extractStridedSlice S64x1152 ![0, 36] x slices_S64x1224_o0_36_S64x1152⟩,
    ⟨S64x1152, extractStridedSlice S64x1152 ![0, 72] x slices_S64x1224_o0_72_S64x1152⟩]
    concatenates_S64x1152_S64x1152_S64x1152_S192x1152_d0

/-- The first matrix product, into a zero accumulator. -/
def prod1 (a : FVec Ideal S64x192 .bf16) (x : FVec Ideal S192x1152 .bf16) : FVec Ideal S64x1152 .f32 :=
  matmul dot_S64x192_S192x1152_S64x1152_1_0_0_1_n_n none a x (constant S64x1152 .f32 0x00000000#32)

/-- A zero border of 36 columns before and 38 after. -/
def border (y : FVec Ideal S64x1152 .f32) : FVec Ideal S64x1226 .bf16 :=
  concatenate S64x1226 1 [⟨S64x36, zeros S64x36⟩,
    ⟨S64x1152, truncf .bf16 y bitsLt_bf16_f32⟩,
    ⟨S64x38, zeros S64x38⟩] concatenates_S64x36_S64x1152_S64x38_S64x1226_d1

/-- Three slices shifted by one column each, stacked along the contraction axis. -/
def colTaps (y : FVec Ideal S64x1226 .bf16) : FVec Ideal S192x1224 .bf16 :=
  concatenate S192x1224 0 [⟨S64x1224, extractStridedSlice S64x1224 ![0, 0] y slices_S64x1226_o0_0_S64x1224⟩,
    ⟨S64x1224, extractStridedSlice S64x1224 ![0, 1] y slices_S64x1226_o0_1_S64x1224⟩,
    ⟨S64x1224, extractStridedSlice S64x1224 ![0, 2] y slices_S64x1226_o0_2_S64x1224⟩]
    concatenates_S64x1224_S64x1224_S64x1224_S192x1224_d0

/-- The second matrix product, into a zero accumulator. -/
def prod2 (b : FVec Ideal S128x192 .bf16) (y : FVec Ideal S192x1224 .bf16) : FVec Ideal S128x1224 .f32 :=
  matmul dot_S128x192_S192x1224_S128x1224_1_0_0_1_n_n none b y (constant S128x1224 .f32 0x00000000#32)

/-- The whole chain from the three loaded blocks to the wide second convolution. -/
def acc2 (v0 : Vec Ideal S1x64x32x32 .f32) (v2 : Vec Ideal S64x192 .bf16) (v4 : Vec Ideal S128x192 .bf16) :
    FVec Ideal S128x1224 .f32 :=
  prod2 (shapeCast S128x192 v4 shapeCasts_S128x192_S128x192)
    (colTaps (border (prod1 (shapeCast S64x192 v2 shapeCasts_S64x192_S64x192)
      (rowTaps (flat (padCols (padRows (rect v0))))))))

/-- The statistics kernel's payload is the chain times the broadcast mask row. -/
theorem k0_pay2_eq (v0 : Vec Ideal S1x64x32x32 .f32) (v2 : Vec Ideal S64x192 .bf16) (v4 : Vec Ideal S128x192 .bf16)
    (v28 : Vec Ideal S1x1224 .f32) :
    k0_pay2 (F := Ideal) v0 v2 v4 v28
      = mulf (acc2 v0 v2 v4) (broadcastTo S128x1224 (shapeCast S1x1224 v28 shapeCasts_S1x1224_S1x1224) broadcasts_S1x1224_S128x1224) := rfl

/-- The output kernel's payload is the chain reshaped, cut to 34 columns, plus the broadcast per-channel term. -/
theorem k1_pay1_eq (v0 : Vec Ideal S1x64x32x32 .f32) (v2 : Vec Ideal S64x192 .bf16) (v4 : Vec Ideal S128x192 .bf16)
    (v30 : Vec Ideal S128x1 .f32) :
    k1_pay1 (F := Ideal) v0 v2 v4 v30
      = shapeCast S1x128x34x34
          (addf (extractStridedSlice S128x34x34 ![0, 0, 0]
              (shapeCast S128x34x36 (acc2 v0 v2 v4) shapeCasts_S128x1224_S128x34x36) slices_S128x34x36_o0_0_0_S128x34x34)
            (broadcastTo S128x34x34 (shapeCast S128x1x1 (shapeCast S128x1 v30 shapeCasts_S128x1_S128x1) shapeCasts_S128x1_S128x1x1)
              broadcasts_S128x1x1_S128x34x34))
          shapeCasts_S128x34x34_S1x128x34x34 := rfl

/-! ## Each stage read at explicit coordinates -/

theorem rect_apply (v0 : Vec Ideal S1x64x32x32 .f32) (ci : Fin 64) (h w : Fin 32) :
    rect v0 (ix3 ci h w) = max (v0 (ix4 0 ci h w)) 0 := by
  unfold rect
  rw [truncf_apply, maximumf_apply, broadcast_apply, shapeCast_1abc_abc_apply]
  show max _ (Ideal.ofBits .f32 0x00000000#32) = _
  rw [Ideal.ofBits_zero_f32]

/-- The 16-bit zero word is the extended real zero. -/
theorem zero16 : (Scalar.ofBits (F := Ideal) .bf16 0x0000#16 : EReal) = 0 := by
  show Ideal.ofBits .bf16 0x0000#16 = 0
  exact Ideal.ofBits_zero_bf16

theorem padRows_apply (x : FVec Ideal S64x32x32 .bf16) (ci : Fin 64) (r : Fin 34) (w : Fin 32) :
    padRows x (ix3 ci r w)
      = if h : 1 ≤ r.val ∧ r.val ≤ 32 then x (ix3 ci ⟨r.val - 1, by omega⟩ w) else 0 := by
  unfold padRows
  by_cases h : 1 ≤ r.val ∧ r.val ≤ 32
  · rw [dif_pos h]
    refine concatenate_apply_piece _ _ _ _ 1 ?_ S64x32x32 x ?_ ?_ 1 ?_ (ix3 ci ⟨r.val - 1, by omega⟩ w) ?_ ?_
    · exact (by decide : (1 : ℕ) < 3)
    · rfl
    · rfl
    · rfl
    · intro b hb
      match b with
      | ⟨0, _⟩ => rfl
      | ⟨1, _⟩ => exact absurd rfl hb
      | ⟨2, _⟩ => rfl
    · show 1 + (r.val - 1) = r.val
      omega
  · rw [dif_neg h]
    by_cases h0 : r.val = 0
    · refine (concatenate_apply_piece _ _ _ _ 0 ?_ S64x1x32 (zeros S64x1x32) ?_ ?_ 0 ?_ (ix3 ci 0 w) ?_ ?_).trans ?_
      · exact (by decide : (0 : ℕ) < 3)
      · rfl
      · rfl
      · rfl
      · intro b hb
        match b with
        | ⟨0, _⟩ => rfl
        | ⟨1, _⟩ => exact absurd rfl hb
        | ⟨2, _⟩ => rfl
      · show 0 + 0 = r.val
        omega
      · exact zero16
    · refine (concatenate_apply_piece _ _ _ _ 2 ?_ S64x1x32 (zeros S64x1x32) ?_ ?_ 33 ?_ (ix3 ci 0 w) ?_ ?_).trans ?_
      · exact (by decide : (2 : ℕ) < 3)
      · rfl
      · rfl
      · rfl
      · intro b hb
        match b with
        | ⟨0, _⟩ => rfl
        | ⟨1, _⟩ => exact absurd rfl hb
        | ⟨2, _⟩ => rfl
      · show 33 + 0 = r.val
        have := r.isLt
        omega
      · exact zero16

theorem padCols_apply (x : FVec Ideal S64x34x32 .bf16) (ci : Fin 64) (r : Fin 34) (c : Fin 36) :
    padCols x (ix3 ci r c)
      = if h : 2 ≤ c.val ∧ c.val ≤ 33 then x (ix3 ci r ⟨c.val - 2, by omega⟩) else 0 := by
  unfold padCols
  have hc := c.isLt
  by_cases h : 2 ≤ c.val ∧ c.val ≤ 33
  · rw [dif_pos h]
    refine concatenate_apply_piece _ _ _ _ 1 ?_ S64x34x32 x ?_ ?_ 2 ?_ (ix3 ci r ⟨c.val - 2, by omega⟩) ?_ ?_
    · exact (by decide : (1 : ℕ) < 3)
    · rfl
    · rfl
    · rfl
    · intro b hb
      match b with
      | ⟨0, _⟩ => rfl
      | ⟨1, _⟩ => rfl
      | ⟨2, _⟩ => exact absurd rfl hb
    · show 2 + (c.val - 2) = c.val
      omega
  · rw [dif_neg h]
    by_cases h0 : c.val < 2
    · refine (concatenate_apply_piece _ _ _ _ 0 ?_ S64x34x2 (zeros S64x34x2) ?_ ?_ 0 ?_ (ix3 ci r ⟨c.val, h0⟩) ?_ ?_).trans ?_
      · exact (by decide : (0 : ℕ) < 3)
      · rfl
      · rfl
      · rfl
      · intro b hb
        match b with
        | ⟨0, _⟩ => rfl
        | ⟨1, _⟩ => rfl
        | ⟨2, _⟩ => exact absurd rfl hb
      · show 0 + c.val = c.val
        omega
      · exact zero16
    · refine (concatenate_apply_piece _ _ _ _ 2 ?_ S64x34x2 (zeros S64x34x2) ?_ ?_ 34 ?_ (ix3 ci r ⟨c.val - 34, by omega⟩) ?_ ?_).trans ?_
      · exact (by decide : (2 : ℕ) < 3)
      · rfl
      · rfl
      · rfl
      · intro b hb
        match b with
        | ⟨0, _⟩ => rfl
        | ⟨1, _⟩ => rfl
        | ⟨2, _⟩ => exact absurd rfl hb
      · show 34 + (c.val - 34) = c.val
        omega
      · exact zero16

theorem flat_apply (x : FVec Ideal S64x34x36 .bf16) (ci : Fin 64) (j : Fin 1224) :
    flat x (ix2 ci j)
      = x (ix3 ci ⟨j.val / 36, by have := j.isLt; omega⟩ ⟨j.val % 36, Nat.mod_lt _ (by decide)⟩) := by
  unfold flat
  refine shapeCast_apply x _ _ _ ?_
  rw [Shape.rowMajor_val_three, Shape.rowMajor_val_two]
  show (ci.val * 34 + j.val / 36) * 36 + j.val % 36 = ci.val * 1224 + j.val
  omega

/-- The rectified image, zero-padded and flattened, is the specification's padded image. -/
theorem xflat_apply (v0 : Vec Ideal S1x64x32x32 .f32) (ci : Fin 64) (j : Fin 1224) :
    flat (padCols (padRows (rect v0))) (ix2 ci j) = Cert.Spec.xpK (img v0) ci j.val := by
  rw [flat_apply, padCols_apply]
  unfold Cert.Spec.xpK
  by_cases hc : 2 ≤ j.val % 36 ∧ j.val % 36 ≤ 33
  · rw [dif_pos hc, padRows_apply]
    by_cases hr : 1 ≤ j.val / 36 ∧ j.val / 36 ≤ 32
    · rw [dif_pos hr, dif_pos ⟨hr, hc⟩, rect_apply]
    · rw [dif_neg hr, dif_neg (fun h => hr h.1)]
  · rw [dif_neg hc, dif_neg (fun h => hc h.2)]

theorem rowTaps_apply (x : FVec Ideal S64x1224 .bf16) (k : Fin 192) (j : Fin 1152) :
    rowTaps x (ix2 k j)
      = x (ix2 ⟨k.val % 64, Nat.mod_lt _ (by decide)⟩
          ⟨k.val / 64 * 36 + j.val, by have := k.isLt; have := j.isLt; omega⟩) := by
  unfold rowTaps
  have hk := k.isLt
  have hj := j.isLt
  rcases (by omega : k.val / 64 = 0 ∨ k.val / 64 = 1 ∨ k.val / 64 = 2) with h0 | h0 | h0
  · refine (concatenate_apply_piece _ _ _ _ 0 ?_ S64x1152
      (extractStridedSlice S64x1152 ![0, 0] x slices_S64x1224_o0_0_S64x1152) ?_ ?_ 0 ?_
      (ix2 ⟨k.val % 64, Nat.mod_lt _ (by decide)⟩ j) ?_ ?_).trans ?_
    · exact (by decide : (0 : ℕ) < 3)
    · rfl
    · rfl
    · rfl
    · intro b hb
      match b with
      | ⟨0, _⟩ => exact absurd rfl hb
      | ⟨1, _⟩ => rfl
    · show 0 + k.val % 64 = k.val
      omega
    · refine slice2_axis1_apply 0 x _ _ _ _ ?_
      show k.val / 64 * 36 + j.val = 0 + j.val
      omega
  · refine (concatenate_apply_piece _ _ _ _ 1 ?_ S64x1152
      (extractStridedSlice S64x1152 ![0, 36] x slices_S64x1224_o0_36_S64x1152) ?_ ?_ 64 ?_
      (ix2 ⟨k.val % 64, Nat.mod_lt _ (by decide)⟩ j) ?_ ?_).trans ?_
    · exact (by decide : (1 : ℕ) < 3)
    · rfl
    · rfl
    · rfl
    · intro b hb
      match b with
      | ⟨0, _⟩ => exact absurd rfl hb
      | ⟨1, _⟩ => rfl
    · show 64 + k.val % 64 = k.val
      omega
    · refine slice2_axis1_apply 36 x _ _ _ _ ?_
      show k.val / 64 * 36 + j.val = 36 + j.val
      omega
  · refine (concatenate_apply_piece _ _ _ _ 2 ?_ S64x1152
      (extractStridedSlice S64x1152 ![0, 72] x slices_S64x1224_o0_72_S64x1152) ?_ ?_ 128 ?_
      (ix2 ⟨k.val % 64, Nat.mod_lt _ (by decide)⟩ j) ?_ ?_).trans ?_
    · exact (by decide : (2 : ℕ) < 3)
    · rfl
    · rfl
    · rfl
    · intro b hb
      match b with
      | ⟨0, _⟩ => exact absurd rfl hb
      | ⟨1, _⟩ => rfl
    · show 128 + k.val % 64 = k.val
      omega
    · refine slice2_axis1_apply 72 x _ _ _ _ ?_
      show k.val / 64 * 36 + j.val = 72 + j.val
      omega

/-! The operand indices of the first product, axis by axis. -/

theorem lhs1_0 (j : S64x1152.Idx) (k : dot_S64x192_S192x1152_S64x1152_1_0_0_1_n_n.contr.Idx) :
    (dot_S64x192_S192x1152_S64x1152_1_0_0_1_n_n.lhsIdx j k 0).val = (j 0).val := by
  unfold DotDims.lhsIdx
  rw [dif_neg (show ¬(0 : Fin S64x192.rank) ∈ dot_S64x192_S192x1152_S64x1152_1_0_0_1_n_n.lhsBatch by decide),
    dif_pos (show (0 : Fin S64x192.rank) ∈ dot_S64x192_S192x1152_S64x1152_1_0_0_1_n_n.lhsNonContracting by decide)]
  rfl

theorem lhs1_1 (j : S64x1152.Idx) (k : dot_S64x192_S192x1152_S64x1152_1_0_0_1_n_n.contr.Idx) :
    (dot_S64x192_S192x1152_S64x1152_1_0_0_1_n_n.lhsIdx j k 1).val = (k ⟨0, by decide⟩).val :=
  DotDims.lhsIdx_val_of_single dot_S64x192_S192x1152_S64x1152_1_0_0_1_n_n rfl j k

theorem rhs1_0 (j : S64x1152.Idx) (k : dot_S64x192_S192x1152_S64x1152_1_0_0_1_n_n.contr.Idx) :
    (dot_S64x192_S192x1152_S64x1152_1_0_0_1_n_n.rhsIdx j k 0).val = (k ⟨0, by decide⟩).val :=
  DotDims.rhsIdx_val_of_single dot_S64x192_S192x1152_S64x1152_1_0_0_1_n_n rfl j k

theorem rhs1_1 (j : S64x1152.Idx) (k : dot_S64x192_S192x1152_S64x1152_1_0_0_1_n_n.contr.Idx) :
    (dot_S64x192_S192x1152_S64x1152_1_0_0_1_n_n.rhsIdx j k 1).val = (j 1).val := by
  unfold DotDims.rhsIdx
  rw [dif_neg (show ¬(1 : Fin S192x1152.rank) ∈ dot_S64x192_S192x1152_S64x1152_1_0_0_1_n_n.rhsBatch by decide),
    dif_pos (show (1 : Fin S192x1152.rank) ∈ dot_S64x192_S192x1152_S64x1152_1_0_0_1_n_n.rhsNonContracting by decide)]
  rfl

/-- The first product at (row, column): the sum over the 192 contraction positions. -/
theorem prod1_apply (a : FVec Ideal S64x192 .bf16) (x : FVec Ideal S192x1152 .bf16) (cm : Fin 64) (j : Fin 1152) :
    prod1 a x (ix2 cm j) = ∑ k : Fin 192, a (ix2 cm k) * x (ix2 k j) := by
  unfold prod1
  show FloatOps.matmul dot_S64x192_S192x1152_S64x1152_1_0_0_1_n_n none a x (constant S64x1152 .f32 0x00000000#32) (ix2 cm j) = _
  rw [Ideal.matmul_constant_zero_apply,
    ← Equiv.sum_comp (contrEquiv1 dot_S64x192_S192x1152_S64x1152_1_0_0_1_n_n 192 rfl rfl).symm]
  refine Finset.sum_congr rfl fun c _ => ?_
  have c2 := contrEquiv1_symm_val dot_S64x192_S192x1152_S64x1152_1_0_0_1_n_n 192 rfl rfl c
  have l2 : dot_S64x192_S192x1152_S64x1152_1_0_0_1_n_n.lhsIdx (ix2 cm j)
      ((contrEquiv1 dot_S64x192_S192x1152_S64x1152_1_0_0_1_n_n 192 rfl rfl).symm c) = ix2 cm c := by
    funext ax; apply Fin.ext
    match ax with
    | ⟨0, _⟩ => exact lhs1_0 _ _
    | ⟨1, _⟩ => exact (lhs1_1 _ _).trans c2
  have r2 : dot_S64x192_S192x1152_S64x1152_1_0_0_1_n_n.rhsIdx (ix2 cm j)
      ((contrEquiv1 dot_S64x192_S192x1152_S64x1152_1_0_0_1_n_n 192 rfl rfl).symm c) = ix2 c j := by
    funext ax; apply Fin.ext
    match ax with
    | ⟨0, _⟩ => exact (rhs1_0 _ _).trans c2
    | ⟨1, _⟩ => exact rhs1_1 _ _
  rw [l2, r2]

/-- The first product of the chain is the specification's first contraction. -/
theorem c1_apply (v0 : Vec Ideal S1x64x32x32 .f32) (v2 : Vec Ideal S64x192 .bf16) (cm : Fin 64) (j : Fin 1152) :
    prod1 (shapeCast S64x192 v2 shapeCasts_S64x192_S64x192) (rowTaps (flat (padCols (padRows (rect v0))))) (ix2 cm j)
      = Cert.Spec.c1K (img v0) (mat1 v2) cm j.val := by
  rw [prod1_apply]
  unfold Cert.Spec.c1K
  refine Finset.sum_congr rfl fun k _ => ?_
  rw [shapeCast_self, rowTaps_apply, xflat_apply]

theorem border_apply (y : FVec Ideal S64x1152 .f32) (cm : Fin 64) (j : Fin 1226) :
    border y (ix2 cm j)
      = if h : 36 ≤ j.val ∧ j.val < 1188 then y (ix2 cm ⟨j.val - 36, by omega⟩) else 0 := by
  unfold border
  have hj := j.isLt
  by_cases h : 36 ≤ j.val ∧ j.val < 1188
  · rw [dif_pos h]
    refine (concatenate_apply_piece _ _ _ _ 1 ?_ S64x1152 (truncf .bf16 y bitsLt_bf16_f32) ?_ ?_ 36 ?_
      (ix2 cm ⟨j.val - 36, by omega⟩) ?_ ?_).trans ?_
    · exact (by decide : (1 : ℕ) < 3)
    · rfl
    · rfl
    · rfl
    · intro b hb
      match b with
      | ⟨0, _⟩ => rfl
      | ⟨1, _⟩ => exact absurd rfl hb
    · show 36 + (j.val - 36) = j.val
      omega
    · rfl
  · rw [dif_neg h]
    by_cases h0 : j.val < 36
    · refine (concatenate_apply_piece _ _ _ _ 0 ?_ S64x36 (zeros S64x36) ?_ ?_ 0 ?_ (ix2 cm ⟨j.val, h0⟩) ?_ ?_).trans ?_
      · exact (by decide : (0 : ℕ) < 3)
      · rfl
      · rfl
      · rfl
      · intro b hb
        match b with
        | ⟨0, _⟩ => rfl
        | ⟨1, _⟩ => exact absurd rfl hb
      · show 0 + j.val = j.val
        omega
      · exact zero16
    · refine (concatenate_apply_piece _ _ _ _ 2 ?_ S64x38 (zeros S64x38) ?_ ?_ 1188 ?_
        (ix2 cm ⟨j.val - 1188, by omega⟩) ?_ ?_).trans ?_
      · exact (by decide : (2 : ℕ) < 3)
      · rfl
      · rfl
      · rfl
      · intro b hb
        match b with
        | ⟨0, _⟩ => rfl
        | ⟨1, _⟩ => exact absurd rfl hb
      · show 1188 + (j.val - 1188) = j.val
        omega
      · exact zero16

/-- The first product inside its zero border is the specification's bordered array. -/
theorem y1_apply (v0 : Vec Ideal S1x64x32x32 .f32) (v2 : Vec Ideal S64x192 .bf16) (cm : Fin 64) (j : Fin 1226) :
    border (prod1 (shapeCast S64x192 v2 shapeCasts_S64x192_S64x192) (rowTaps (flat (padCols (padRows (rect v0)))))) (ix2 cm j)
      = Cert.Spec.y1K (img v0) (mat1 v2) cm j.val := by
  rw [border_apply]
  unfold Cert.Spec.y1K
  by_cases h : 36 ≤ j.val ∧ j.val < 1188
  · rw [dif_pos h, if_pos h, c1_apply]
  · rw [dif_neg h, if_neg h]

theorem colTaps_apply (x : FVec Ideal S64x1226 .bf16) (k : Fin 192) (j : Fin 1224) :
    colTaps x (ix2 k j)
      = x (ix2 ⟨k.val % 64, Nat.mod_lt _ (by decide)⟩
          ⟨k.val / 64 + j.val, by have := k.isLt; have := j.isLt; omega⟩) := by
  unfold colTaps
  have hk := k.isLt
  have hj := j.isLt
  rcases (by omega : k.val / 64 = 0 ∨ k.val / 64 = 1 ∨ k.val / 64 = 2) with h0 | h0 | h0
  · refine (concatenate_apply_piece _ _ _ _ 0 ?_ S64x1224
      (extractStridedSlice S64x1224 ![0, 0] x slices_S64x1226_o0_0_S64x1224) ?_ ?_ 0 ?_
      (ix2 ⟨k.val % 64, Nat.mod_lt _ (by decide)⟩ j) ?_ ?_).trans ?_
    · exact (by decide : (0 : ℕ) < 3)
    · rfl
    · rfl
    · rfl
    · intro b hb
      match b with
      | ⟨0, _⟩ => exact absurd rfl hb
      | ⟨1, _⟩ => rfl
    · show 0 + k.val % 64 = k.val
      omega
    · refine slice2_axis1_apply 0 x _ _ _ _ ?_
      show k.val / 64 + j.val = 0 + j.val
      omega
  · refine (concatenate_apply_piece _ _ _ _ 1 ?_ S64x1224
      (extractStridedSlice S64x1224 ![0, 1] x slices_S64x1226_o0_1_S64x1224) ?_ ?_ 64 ?_
      (ix2 ⟨k.val % 64, Nat.mod_lt _ (by decide)⟩ j) ?_ ?_).trans ?_
    · exact (by decide : (1 : ℕ) < 3)
    · rfl
    · rfl
    · rfl
    · intro b hb
      match b with
      | ⟨0, _⟩ => exact absurd rfl hb
      | ⟨1, _⟩ => rfl
    · show 64 + k.val % 64 = k.val
      omega
    · refine slice2_axis1_apply 1 x _ _ _ _ ?_
      show k.val / 64 + j.val = 1 + j.val
      omega
  · refine (concatenate_apply_piece _ _ _ _ 2 ?_ S64x1224
      (extractStridedSlice S64x1224 ![0, 2] x slices_S64x1226_o0_2_S64x1224) ?_ ?_ 128 ?_
      (ix2 ⟨k.val % 64, Nat.mod_lt _ (by decide)⟩ j) ?_ ?_).trans ?_
    · exact (by decide : (2 : ℕ) < 3)
    · rfl
    · rfl
    · rfl
    · intro b hb
      match b with
      | ⟨0, _⟩ => exact absurd rfl hb
      | ⟨1, _⟩ => rfl
    · show 128 + k.val % 64 = k.val
      omega
    · refine slice2_axis1_apply 2 x _ _ _ _ ?_
      show k.val / 64 + j.val = 2 + j.val
      omega

/-! The operand indices of the second product, axis by axis. -/

theorem lhs2_0 (j : S128x1224.Idx) (k : dot_S128x192_S192x1224_S128x1224_1_0_0_1_n_n.contr.Idx) :
    (dot_S128x192_S192x1224_S128x1224_1_0_0_1_n_n.lhsIdx j k 0).val = (j 0).val := by
  unfold DotDims.lhsIdx
  rw [dif_neg (show ¬(0 : Fin S128x192.rank) ∈ dot_S128x192_S192x1224_S128x1224_1_0_0_1_n_n.lhsBatch by decide),
    dif_pos (show (0 : Fin S128x192.rank) ∈ dot_S128x192_S192x1224_S128x1224_1_0_0_1_n_n.lhsNonContracting by decide)]
  rfl

theorem lhs2_1 (j : S128x1224.Idx) (k : dot_S128x192_S192x1224_S128x1224_1_0_0_1_n_n.contr.Idx) :
    (dot_S128x192_S192x1224_S128x1224_1_0_0_1_n_n.lhsIdx j k 1).val = (k ⟨0, by decide⟩).val :=
  DotDims.lhsIdx_val_of_single dot_S128x192_S192x1224_S128x1224_1_0_0_1_n_n rfl j k

theorem rhs2_0 (j : S128x1224.Idx) (k : dot_S128x192_S192x1224_S128x1224_1_0_0_1_n_n.contr.Idx) :
    (dot_S128x192_S192x1224_S128x1224_1_0_0_1_n_n.rhsIdx j k 0).val = (k ⟨0, by decide⟩).val :=
  DotDims.rhsIdx_val_of_single dot_S128x192_S192x1224_S128x1224_1_0_0_1_n_n rfl j k

theorem rhs2_1 (j : S128x1224.Idx) (k : dot_S128x192_S192x1224_S128x1224_1_0_0_1_n_n.contr.Idx) :
    (dot_S128x192_S192x1224_S128x1224_1_0_0_1_n_n.rhsIdx j k 1).val = (j 1).val := by
  unfold DotDims.rhsIdx
  rw [dif_neg (show ¬(1 : Fin S192x1224.rank) ∈ dot_S128x192_S192x1224_S128x1224_1_0_0_1_n_n.rhsBatch by decide),
    dif_pos (show (1 : Fin S192x1224.rank) ∈ dot_S128x192_S192x1224_S128x1224_1_0_0_1_n_n.rhsNonContracting by decide)]
  rfl

/-- The second product at (row, column): the sum over the 192 contraction positions. -/
theorem prod2_apply (a : FVec Ideal S128x192 .bf16) (x : FVec Ideal S192x1224 .bf16) (cm : Fin 128) (j : Fin 1224) :
    prod2 a x (ix2 cm j) = ∑ k : Fin 192, a (ix2 cm k) * x (ix2 k j) := by
  unfold prod2
  show FloatOps.matmul dot_S128x192_S192x1224_S128x1224_1_0_0_1_n_n none a x (constant S128x1224 .f32 0x00000000#32) (ix2 cm j) = _
  rw [Ideal.matmul_constant_zero_apply,
    ← Equiv.sum_comp (contrEquiv1 dot_S128x192_S192x1224_S128x1224_1_0_0_1_n_n 192 rfl rfl).symm]
  refine Finset.sum_congr rfl fun c _ => ?_
  have c2 := contrEquiv1_symm_val dot_S128x192_S192x1224_S128x1224_1_0_0_1_n_n 192 rfl rfl c
  have l2 : dot_S128x192_S192x1224_S128x1224_1_0_0_1_n_n.lhsIdx (ix2 cm j)
      ((contrEquiv1 dot_S128x192_S192x1224_S128x1224_1_0_0_1_n_n 192 rfl rfl).symm c) = ix2 cm c := by
    funext ax; apply Fin.ext
    match ax with
    | ⟨0, _⟩ => exact lhs2_0 _ _
    | ⟨1, _⟩ => exact (lhs2_1 _ _).trans c2
  have r2 : dot_S128x192_S192x1224_S128x1224_1_0_0_1_n_n.rhsIdx (ix2 cm j)
      ((contrEquiv1 dot_S128x192_S192x1224_S128x1224_1_0_0_1_n_n 192 rfl rfl).symm c) = ix2 c j := by
    funext ax; apply Fin.ext
    match ax with
    | ⟨0, _⟩ => exact (rhs2_0 _ _).trans c2
    | ⟨1, _⟩ => exact rhs2_1 _ _
  rw [l2, r2]

/-- The whole chain at (channel, flat column) is the specification's second contraction. -/
theorem acc2_apply (v0 : Vec Ideal S1x64x32x32 .f32) (v2 : Vec Ideal S64x192 .bf16) (v4 : Vec Ideal S128x192 .bf16)
    (co : Fin 128) (j : Fin 1224) :
    acc2 v0 v2 v4 (ix2 co j) = Cert.Spec.c2K (img v0) (mat1 v2) (mat2 v4) co j.val := by
  unfold acc2
  rw [prod2_apply]
  unfold Cert.Spec.c2K
  refine Finset.sum_congr rfl fun k _ => ?_
  rw [shapeCast_self, colTaps_apply, y1_apply]

/-- A sum along the flat axis kept as a unit column, then given a leading unit axis, read at (0, channel, 0). -/
theorem colsum_apply (x : FVec Ideal S128x1224 .f32) (co : Fin 128) :
    shapeCast S1x128x1
        (shapeCast S128x1
          (multiReduction (F := Ideal) .add [1] S128 x 0x00000000#32 reduces_S128x1224_S128 (.inl rfl) rfl)
          shapeCasts_S128_S128x1)
        shapeCasts_S128x1_S1x128x1 (ix3 0 co 0)
      = ∑ j : Fin 1224, x (ix2 co j) := by
  rw [shapeCast_ab_1ab_apply]
  refine (shapeCast_apply _ shapeCasts_S128_S128x1 (ix2 co 0) (ix1 co) ?_).trans ?_
  · rw [Shape.rowMajor_val_one, Shape.rowMajor_val_two]
    show co.val = co.val * 1 + 0
    omega
  · refine (Ideal.multiReduction_add_single x 0x00000000#32 reduces_S128x1224_S128 (.inl rfl) rfl (ix1 co)).trans ?_
    refine Finset.sum_congr rfl fun j _ => ?_
    congr 1
    funext a
    apply Fin.ext
    match a with
    | ⟨0, _⟩ => rfl
    | ⟨1, _⟩ => rfl

/-- The statistics kernel's masked second convolution at channel `co`, flat column `j`. -/
theorem k0_pay2_apply (v0 : Vec Ideal S1x64x32x32 .f32) (v2 : Vec Ideal S64x192 .bf16) (v4 : Vec Ideal S128x192 .bf16)
    (v28 : Vec Ideal S1x1224 .f32) (co : Fin 128) (j : Fin 1224) :
    k0_pay2 (F := Ideal) v0 v2 v4 v28 (ix2 co j)
      = Cert.Spec.c2K (img v0) (mat1 v2) (mat2 v4) co j.val * v28 (ix2 0 j) := by
  rw [k0_pay2_eq, mulf_apply, acc2_apply]
  congr 1
  refine (broadcastTo_apply _ _ (ix2 co j) (ix2 0 j) fun a => ?_).trans ?_
  · match a with
    | ⟨0, _⟩ => rfl
    | ⟨1, _⟩ => rfl
  · rw [shapeCast_self]

/-- Its sum along the flat axis. -/
theorem k0_pay3_apply (v0 : Vec Ideal S1x64x32x32 .f32) (v2 : Vec Ideal S64x192 .bf16) (v4 : Vec Ideal S128x192 .bf16)
    (v28 : Vec Ideal S1x1224 .f32) (co : Fin 128) :
    k0_pay3 (F := Ideal) v0 v2 v4 v28 (ix3 0 co 0)
      = ∑ j : Fin 1224, k0_pay2 (F := Ideal) v0 v2 v4 v28 (ix2 co j) :=
  colsum_apply (k0_pay2 (F := Ideal) v0 v2 v4 v28) co

/-- The sum of squares along the flat axis. -/
theorem k0_pay1_apply (v31 : FVec Ideal S128x1224 .f32) (co : Fin 128) :
    k0_pay1 (F := Ideal) v31 (ix3 0 co 0) = ∑ j : Fin 1224, v31 (ix2 co j) * v31 (ix2 co j) :=
  colsum_apply (mulf v31 v31) co

/-- The output kernel at channel `co`, row `r`, column `q` of the 34 × 34 result. -/
theorem k1_pay1_apply (v0 : Vec Ideal S1x64x32x32 .f32) (v2 : Vec Ideal S64x192 .bf16) (v4 : Vec Ideal S128x192 .bf16)
    (v30 : Vec Ideal S128x1 .f32) (co : Fin 128) (r q : Fin 34) :
    k1_pay1 (F := Ideal) v0 v2 v4 v30 (ix4 0 co r q)
      = Cert.Spec.c2K (img v0) (mat1 v2) (mat2 v4) co (r.val * 36 + q.val) + v30 (ix2 co 0) := by
  have hr := r.isLt
  have hq := q.isLt
  rw [k1_pay1_eq, shapeCast_abc_1abc_apply, addf_apply]
  congr 1
  · refine (extractStridedSlice_apply _ _ _ (ix3 co r q) (ix3 co r ⟨q.val, by omega⟩) fun a => ?_).trans ?_
    · match a with
      | ⟨0, _⟩ => exact (Nat.zero_add _).symm
      | ⟨1, _⟩ => exact (Nat.zero_add _).symm
      | ⟨2, _⟩ => exact (Nat.zero_add _).symm
    · refine (shapeCast_apply _ _ (ix3 co r ⟨q.val, by omega⟩) (ix2 co ⟨r.val * 36 + q.val, by omega⟩) ?_).trans ?_
      · rw [Shape.rowMajor_val_two, Shape.rowMajor_val_three]
        show co.val * 1224 + (r.val * 36 + q.val) = (co.val * 34 + r.val) * 36 + q.val
        omega
      · exact acc2_apply v0 v2 v4 co ⟨r.val * 36 + q.val, by omega⟩
  · refine (broadcastTo_apply _ _ (ix3 co r q) (ix3 co 0 0) fun a => ?_).trans ?_
    · match a with
      | ⟨0, _⟩ => rfl
      | ⟨1, _⟩ => rfl
      | ⟨2, _⟩ => rfl
    · refine (shapeCast_apply _ _ (ix3 co 0 0) (ix2 co 0) ?_).trans ?_
      · rw [Shape.rowMajor_val_two, Shape.rowMajor_val_three]
        show co.val * 1 + 0 = (co.val * 1 + 0) * 1 + 0
        omega
      · rw [shapeCast_self]

end Cert.KernelIdeal.Pay

end
-- ==== Proof.KIHost.lean ====
/-
  What the idealized kernel program's host operations compute, at the extended reals, read at an index.  Before the
  statistics region: each weight array's three taps are sliced out, flattened and laid side by side along the contraction
  axis (format changes are the identity), and the 0/1 mask of the valid columns is built from the flat column index modulo
  the row width.  Between the regions: each channel's per-image sums are added over the batch and divided by the count,
  giving mean, biased variance and inverse deviation; the second weights are scaled by the inverse deviation and the
  additive term is minus the mean times the inverse deviation.
-/
import proofs.«135837_g2000304308963006_pallasbulk_990_2_alg».proof.Proof.Gen.KernelIdeal.Launch
import proofs.«135837_g2000304308963006_pallasbulk_990_2_alg».proof.Proof.Gen.KernelIdeal.Regions
import proofs.«135837_g2000304308963006_pallasbulk_990_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

noncomputable section

open scoped BigOperators

namespace Cert.KernelIdeal.HostVal

open Idealize.ShloMosaic Idealize.ShloMosaic.TcCoe Idealize.ShloMosaic.ValueIdx Cert.KernelIdeal Cert.KernelIdeal.Gen

/-- A host operation over a literal family of three operands holds, at its result, its function of the three operands'
    contents, each at its own reference. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

section Layout

variable {α : Type}

/-- An array with two trailing unit axes read without them. -/
theorem cast_RC11_apply {R C : Nat} (x : (⟨4, ![R, C, 1, 1]⟩ : Shape).Idx → α)
    (h : (⟨4, ![R, C, 1, 1]⟩ : Shape).ShapeCasts ⟨2, ![R, C]⟩) (r : Fin R) (c : Fin C) :
    shapeCast ⟨2, ![R, C]⟩ x h (ix2 r c) = x (ix4 r c 0 0) := by
  refine shapeCast_apply x h (ix2 r c) (ix4 r c 0 0) ?_
  rw [Shape.rowMajor_val_four, Shape.rowMajor_val_two]
  show ((r.val * C + c.val) * 1 + 0) * 1 + 0 = r.val * C + c.val
  omega

/-- The unit block at offsets `(0, 0, o2, o3)` of a rank-4 array, read at its one position per row and column. -/
theorem slice_RC11_apply {R C n2 n3 : Nat} (A : (⟨4, ![R, C, n2, n3]⟩ : Shape).Idx → α) (o2 o3 : Nat)
    (hs : (⟨4, ![R, C, n2, n3]⟩ : Shape).Slices ![0, 0, o2, o3] ⟨4, ![R, C, 1, 1]⟩) (r : Fin R) (c : Fin C)
    (t2 : Fin n2) (t3 : Fin n3) (h2 : t2.val = o2) (h3 : t3.val = o3) :
    extractStridedSlice ⟨4, ![R, C, 1, 1]⟩ ![0, 0, o2, o3] A hs (ix4 r c 0 0) = A (ix4 r c t2 t3) := by
  refine extractStridedSlice_apply _ A hs _ _ (fun a => ?_)
  match a with
  | ⟨0, _⟩ => exact (Nat.zero_add _).symm
  | ⟨1, _⟩ => exact (Nat.zero_add _).symm
  | ⟨2, _⟩ => show t2.val = o2 + 0; omega
  | ⟨3, _⟩ => show t3.val = o3 + 0; omega

/-- Three pieces of 64 columns side by side: column `k` is column `k % 64` of piece `k / 64`. -/
theorem cat3_apply {R : Nat} (p : Fin 3 → (⟨2, ![R, 64]⟩ : Shape).Idx → α)
    (h : Shape.Concatenates [(⟨2, ![R, 64]⟩ : Shape), ⟨2, ![R, 64]⟩, ⟨2, ![R, 64]⟩] ⟨2, ![R, 192]⟩ 1) (r : Fin R) (k : Fin 192) :
    concatenate ⟨2, ![R, 192]⟩ 1 [⟨⟨2, ![R, 64]⟩, p 0⟩, ⟨⟨2, ![R, 64]⟩, p 1⟩, ⟨⟨2, ![R, 64]⟩, p 2⟩] h (ix2 r k)
      = p ⟨k.val / 64, by have := k.isLt; omega⟩ (ix2 r ⟨k.val % 64, Nat.mod_lt _ (by decide)⟩) :=
  concatenate_ofFn_apply (t := ⟨2, ![R, 192]⟩) (s₁ := ⟨2, ![R, 64]⟩) 1 p h rfl 64 rfl (ix2 r k)
    ⟨k.val / 64, by have := k.isLt; omega⟩ rfl (ix2 r ⟨k.val % 64, Nat.mod_lt _ (by decide)⟩) rfl
    (fun b hb => by match b with | ⟨0, _⟩ => rfl | ⟨1, _⟩ => exact absurd rfl hb)

/-- The first weights' three taps, each flattened, side by side: column `k` holds input channel `k % 64` of tap
    `k / 64`. -/
theorem taps1_read (A : S64x64x3x1.Idx → α)
    (hs : ∀ t : Fin 3, S64x64x3x1.Slices ![0, 0, t.val, 0] S64x64x1x1) (hc : S64x64x1x1.ShapeCasts S64x64)
    (hcat : Shape.Concatenates [S64x64, S64x64, S64x64] S64x192 1) (r : Fin 64) (k : Fin 192) :
    concatenate S64x192 1
        [⟨S64x64, shapeCast S64x64 (extractStridedSlice S64x64x1x1 ![0, 0, 0, 0] A (hs 0)) hc⟩,
         ⟨S64x64, shapeCast S64x64 (extractStridedSlice S64x64x1x1 ![0, 0, 1, 0] A (hs 1)) hc⟩,
         ⟨S64x64, shapeCast S64x64 (extractStridedSlice S64x64x1x1 ![0, 0, 2, 0] A (hs 2)) hc⟩] hcat (ix2 r k)
      = A (ix4 r ⟨k.val % 64, Nat.mod_lt _ (by decide)⟩ ⟨k.val / 64, by have := k.isLt; omega⟩ 0) := by
  refine (cat3_apply (fun t : Fin 3 => shapeCast S64x64 (extractStridedSlice S64x64x1x1 ![0, 0, t.val, 0] A (hs t)) hc)
    hcat r k).trans ?_
  rw [cast_RC11_apply]
  exact slice_RC11_apply A _ 0 (hs _) r _ _ 0 rfl rfl

/-- The second weights' three taps likewise. -/
theorem taps2_read (B : S128x64x1x3.Idx → α)
    (hs : ∀ t : Fin 3, S128x64x1x3.Slices ![0, 0, 0, t.val] S128x64x1x1) (hc : S128x64x1x1.ShapeCasts S128x64)
    (hcat : Shape.Concatenates [S128x64, S128x64, S128x64] S128x192 1) (r : Fin 128) (k : Fin 192) :
    concatenate S128x192 1
        [⟨S128x64, shapeCast S128x64 (extractStridedSlice S128x64x1x1 ![0, 0, 0, 0] B (hs 0)) hc⟩,
         ⟨S128x64, shapeCast S128x64 (extractStridedSlice S128x64x1x1 ![0, 0, 0, 1] B (hs 1)) hc⟩,
         ⟨S128x64, shapeCast S128x64 (extractStridedSlice S128x64x1x1 ![0, 0, 0, 2] B (hs 2)) hc⟩] hcat (ix2 r k)
      = B (ix4 r ⟨k.val % 64, Nat.mod_lt _ (by decide)⟩ 0 ⟨k.val / 64, by have := k.isLt; omega⟩) := by
  refine (cat3_apply (fun t : Fin 3 => shapeCast S128x64 (extractStridedSlice S128x64x1x1 ![0, 0, 0, t.val] B (hs t)) hc)
    hcat r k).trans ?_
  rw [cast_RC11_apply]
  exact slice_RC11_apply B 0 _ (hs _) r _ 0 _ rfl rfl

end Layout

section Stats

/-- The host's sum over the batch axis, from a zero initial value, at a channel. -/
theorem batchSum_read (X : S128x128x1.Idx → EReal) (h' : S128x128x1.ReducesTo [0] S128x1) (hu : 0 < S_.numel)
    (co : Fin 128) (z : Fin 1) :
    Host.reduceAdd (F := Ideal) (φ := .f32) X (constant (F := Ideal) S_ .f32 0x00000000#32) h' hu (ix2 co z)
      = ∑ n : Fin 128, X (ix3 n co 0) := by
  rw [hostReduceAdd_apply, Ideal.hostReduceAdd_single h' (by decide) X _ (ix2 co z), constant_apply,
    Ideal.ofBits_zero_f32, zero_add]
  refine Finset.sum_congr rfl fun n _ => congrArg X ?_
  funext a
  match a with
  | ⟨0, _⟩ => rfl
  | ⟨1, _⟩ => rfl
  | ⟨2, _⟩ => exact Subsingleton.elim (α := Fin 1) _ _

/-- The per-channel array of batch sums divided by the count. -/
abbrev meanArr (X : S128x128x1.Idx → EReal) (h' : S128x128x1.ReducesTo [0] S128x1) (hu : 0 < S_.numel)
    (hb : S_.BroadcastsInDim S128x1 (![] : Fin 0 → Fin S128x1.rank)) : FVec Ideal S128x1 .f32 :=
  Host.divf (Host.reduceAdd (F := Ideal) (φ := .f32) X (constant (F := Ideal) S_ .f32 0x00000000#32) h' hu)
    (broadcastInDim S128x1 ![] hb (constant (F := Ideal) S_ .f32 0x48108000#32))

theorem meanArr_read (X : S128x128x1.Idx → EReal) (h' : S128x128x1.ReducesTo [0] S128x1) (hu : 0 < S_.numel)
    (hb : S_.BroadcastsInDim S128x1 (![] : Fin 0 → Fin S128x1.rank)) (co : Fin 128) (z : Fin 1) :
    meanArr X h' hu hb (ix2 co z) = Cert.Spec.meanE (fun n => X (ix3 n co 0)) := by
  show Ideal.div (Host.reduceAdd (F := Ideal) (φ := .f32) X (constant (F := Ideal) S_ .f32 0x00000000#32) h' hu (ix2 co z))
    (broadcastInDim S128x1 ![] hb (constant (F := Ideal) S_ .f32 0x48108000#32) (ix2 co z)) = _
  rw [batchSum_read, broadcastInDim_scalar_apply, constant_apply]
  rfl

/-- The per-channel array of inverse deviations: the sums of squares over the count, minus the squared mean, plus the
    guard, under the inverse square root. -/
abbrev rstdArr (X Y : S128x128x1.Idx → EReal) (h' : S128x128x1.ReducesTo [0] S128x1) (hu : 0 < S_.numel)
    (hb : S_.BroadcastsInDim S128x1 (![] : Fin 0 → Fin S128x1.rank)) : FVec Ideal S128x1 .f32 :=
  Host.rsqrt (addf (subf (meanArr Y h' hu hb) (mulf (meanArr X h' hu hb) (meanArr X h' hu hb)))
    (broadcastInDim S128x1 ![] hb (constant (F := Ideal) S_ .f32 0x3727C5AC#32)))

theorem rstdArr_read (X Y : S128x128x1.Idx → EReal) (h' : S128x128x1.ReducesTo [0] S128x1) (hu : 0 < S_.numel)
    (hb : S_.BroadcastsInDim S128x1 (![] : Fin 0 → Fin S128x1.rank)) (co : Fin 128) (z : Fin 1) :
    rstdArr X Y h' hu hb (ix2 co z) = Cert.Spec.rstdE (fun n => X (ix3 n co 0)) (fun n => Y (ix3 n co 0)) := by
  show Ideal.rsqrt ((meanArr Y h' hu hb (ix2 co z) - meanArr X h' hu hb (ix2 co z) * meanArr X h' hu hb (ix2 co z))
    + broadcastInDim S128x1 ![] hb (constant (F := Ideal) S_ .f32 0x3727C5AC#32) (ix2 co z)) = _
  rw [meanArr_read, meanArr_read, broadcastInDim_scalar_apply, constant_apply]
  rfl

end Stats

open Idealize.ShloMosaic.StableHlo in
/-- Each operation's result at its own result reference is its function's value, and at any other reference what was
    there: rewritten outermost first until none applies. -/
macro "kernel_host_results" : tactic =>
  `(tactic| (repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- The first weights of a valuation, by output channel, input channel, tap. -/
abbrev Aof (V : Valuation τ sig (Elt Ideal)) : Cert.Spec.Wt1 := fun cm ci t => (V (Proc.devRef .tc main_arg1) : S64x64x3x1.Idx → EReal) (ix4 cm ci t 0)
/-- The second weights of a valuation. -/
abbrev Bof (V : Valuation τ sig (Elt Ideal)) : Cert.Spec.Wt2 := fun co cm t => (V (Proc.devRef .tc main_arg2) : S128x64x1x3.Idx → EReal) (ix4 co cm 0 t)

/-- The buffers when the statistics region is entered, from the launch contents `V`. -/
abbrev H3 (V : Valuation τ sig (Elt Ideal)) : Valuation τ sig (Elt Ideal) :=
  StableHlo.after hostOps0_2 (StableHlo.after hostOps0_1 (StableHlo.after hostOps0 V))

/-- The first weights with their taps side by side. -/
theorem v7_val (V : Valuation τ sig (Elt Ideal)) :
    (H3 V (Proc.devRef .tc main_v7) : S64x192.Idx → EReal) = fun i => Cert.Spec.cat1 (Aof V) (i 0) (i 1) := by
  show (StableHlo.after hostOps0_2 (StableHlo.after hostOps0_1 (StableHlo.after hostOps0 V)) (Proc.devRef .tc main_v7) : S64x192.Idx → EReal) = _
  rw [StableHlo.after_of_writes_sub hostOps0_2 _ hostOps0_2_writes (by decide),
    StableHlo.after_of_writes_sub hostOps0_1 _ hostOps0_1_writes (by decide)]
  simp only [StableHlo.after_cons, StableHlo.after_nil]
  kernel_host_results
  funext i
  obtain ⟨r, k, rfl⟩ : ∃ r k, i = ix2 r k := ⟨i 0, i 1, eq_ix2 i⟩
  exact taps1_read (V (Proc.devRef .tc main_arg1))
    (fun t => match t with
      | ⟨0, _⟩ => slices_S64x64x3x1_S64x64x1x1_0_0_0_0
      | ⟨1, _⟩ => slices_S64x64x3x1_S64x64x1x1_0_0_1_0
      | ⟨2, _⟩ => slices_S64x64x3x1_S64x64x1x1_0_0_2_0)
    shapeCasts_S64x64x1x1_S64x64 concatenates_S64x64_S64x64_S64x64_S64x192_d1 r k

/-- The second weights with their taps side by side, before and after the format change. -/
theorem v14_val (V : Valuation τ sig (Elt Ideal)) :
    (H3 V (Proc.devRef .tc main_v14) : S128x192.Idx → EReal) = fun i => Cert.Spec.cat2 (Bof V) (i 0) (i 1) := by
  show (StableHlo.after hostOps0_2 (StableHlo.after hostOps0_1 (StableHlo.after hostOps0 V)) (Proc.devRef .tc main_v14) : S128x192.Idx → EReal) = _
  rw [StableHlo.after_of_writes_sub hostOps0_2 _ hostOps0_2_writes (by decide),
    StableHlo.after_of_writes_sub hostOps0_1 _ hostOps0_1_writes (by decide)]
  simp only [StableHlo.after_cons, StableHlo.after_nil]
  kernel_host_results
  funext i
  obtain ⟨r, k, rfl⟩ : ∃ r k, i = ix2 r k := ⟨i 0, i 1, eq_ix2 i⟩
  exact taps2_read (V (Proc.devRef .tc main_arg2))
    (fun t => match t with
      | ⟨0, _⟩ => slices_S128x64x1x3_S128x64x1x1_0_0_0_0
      | ⟨1, _⟩ => slices_S128x64x1x3_S128x64x1x1_0_0_0_1
      | ⟨2, _⟩ => slices_S128x64x1x3_S128x64x1x1_0_0_0_2)
    shapeCasts_S128x64x1x1_S128x64 concatenates_S128x64_S128x64_S128x64_S128x192_d1 r k
theorem v21_val (V : Valuation τ sig (Elt Ideal)) :
    (H3 V (Proc.devRef .tc main_v21) : S128x192.Idx → EReal) = fun i => Cert.Spec.cat2 (Bof V) (i 0) (i 1) := by
  have e : (H3 V (Proc.devRef .tc main_v21) : S128x192.Idx → EReal)
      = (H3 V (Proc.devRef .tc main_v14) : S128x192.Idx → EReal) := by
    show (StableHlo.after hostOps0_2 (StableHlo.after hostOps0_1 (StableHlo.after hostOps0 V)) (Proc.devRef .tc main_v21) : S128x192.Idx → EReal)
      = (StableHlo.after hostOps0_2 (StableHlo.after hostOps0_1 (StableHlo.after hostOps0 V)) (Proc.devRef .tc main_v14) : S128x192.Idx → EReal)
    rw [StableHlo.after_of_writes_sub hostOps0_2 _ hostOps0_2_writes (r := main_v14) (by decide)]
    generalize StableHlo.after hostOps0_1 (StableHlo.after hostOps0 V) = W
    simp only [StableHlo.after_cons, StableHlo.after_nil]
    kernel_host_results
    rfl
  exact e.trans (v14_val V)

/-- The image array is not written. -/
theorem arg0_val (V : Valuation τ sig (Elt Ideal)) : H3 V (Proc.devRef .tc main_arg0) = V (Proc.devRef .tc main_arg0) := by
  show StableHlo.after hostOps0_2 (StableHlo.after hostOps0_1 (StableHlo.after hostOps0 V)) (Proc.devRef .tc main_arg0) = _
  rw [StableHlo.after_of_writes_sub hostOps0_2 _ hostOps0_2_writes (by decide),
    StableHlo.after_of_writes_sub hostOps0_1 _ hostOps0_1_writes (by decide),
    StableHlo.after_of_writes_sub hostOps0 _ hostOps0_writes (by decide)]

/-- Between the regions, from the contents `U` the statistics region leaves: a channel's per-image sums and sums of
    squares are columns of its two results. -/
abbrev Pof (U : Valuation τ sig (Elt Ideal)) (co : Fin 128) : Fin 128 → EReal := fun n => (U (Proc.devRef .tc main_v22_0) : S128x128x1.Idx → EReal) (ix3 n co 0)
abbrev Qof (U : Valuation τ sig (Elt Ideal)) (co : Fin 128) : Fin 128 → EReal := fun n => (U (Proc.devRef .tc main_v22_1) : S128x128x1.Idx → EReal) (ix3 n co 0)

/-- The side-by-side second weights as the statistics region leaves them, by coordinates. -/
abbrev w14 (U : Valuation τ sig (Elt Ideal)) : Fin 128 → Fin 192 → EReal := fun co k => (U (Proc.devRef .tc main_v14) : S128x192.Idx → EReal) (ix2 co k)

/-- The second weights scaled by the inverse deviation. -/
theorem v36_val (U : Valuation τ sig (Elt Ideal)) :
    (StableHlo.after hostOps1 U (Proc.devRef .tc main_v36) : S128x192.Idx → EReal)
      = fun i => w14 U (i 0) (i 1) * Cert.Spec.rstdE (Pof U (i 0)) (Qof U (i 0)) := by
  after_results_simp
  funext i
  obtain ⟨co, k, rfl⟩ : ∃ co k, i = ix2 co k := ⟨i 0, i 1, eq_ix2 i⟩
  show w14 U co k * broadcastInDim S128x192 ![0, 1] bcast_S128x1_S128x192_0_1
      (rstdArr (U (Proc.devRef .tc main_v22_0)) (U (Proc.devRef .tc main_v22_1)) reducesTo_S128x128x1_S128x1_d0 h_S_
        bcast_S_S128x1) (ix2 co k) = _
  rw [broadcastInDim_apply ![0, 1] bcast_S128x1_S128x192_0_1 _ (ix2 co k) (ix2 co 0)
    (fun a => match a with | ⟨0, _⟩ => rfl | ⟨1, _⟩ => rfl), rstdArr_read]
  rfl

/-- The additive term: minus the mean times the inverse deviation. -/
theorem v38_val (U : Valuation τ sig (Elt Ideal)) :
    (StableHlo.after hostOps1 U (Proc.devRef .tc main_v38) : S128x1.Idx → EReal)
      = fun i => (-(Cert.Spec.meanE (Pof U (i 0)))) * Cert.Spec.rstdE (Pof U (i 0)) (Qof U (i 0)) := by
  after_results_simp
  funext i
  obtain ⟨co, z, rfl⟩ : ∃ co z, i = ix2 co z := ⟨i 0, i 1, eq_ix2 i⟩
  show -(meanArr (U (Proc.devRef .tc main_v22_0)) reducesTo_S128x128x1_S128x1_d0 h_S_ bcast_S_S128x1 (ix2 co z))
      * rstdArr (U (Proc.devRef .tc main_v22_0)) (U (Proc.devRef .tc main_v22_1)) reducesTo_S128x128x1_S128x1_d0 h_S_
          bcast_S_S128x1 (ix2 co z) = _
  rw [meanArr_read, rstdArr_read]
  rfl

/-- The fourth stretch writes neither the image array nor the first weights' side-by-side form. -/
theorem hostOps1_keeps (U : Valuation τ sig (Elt Ideal)) (r : Ref sig .tc) (h : r ∉ hostOps1_W) :
    StableHlo.after hostOps1 U (Proc.devRef .tc r) = U (Proc.devRef .tc r) :=
  StableHlo.after_of_writes_sub hostOps1 _ hostOps1_writes h

end Cert.KernelIdeal.HostVal

end
-- ==== Proof.MaskWord.lean ====
/-
  Word arithmetic behind the valid-column mask, free of any program: for a flat column index `j < 1224` held in a 32-bit
  word, the signed remainder by 36 is `j % 36` (both are non-negative and small), it is never negative, so the sign
  correction leaves it alone, and it is below 34 exactly on the valid columns.
-/
import Idealize.ShloMosaic.PureOps.Ideal
import Idealize.ShloMosaic.Lib.StableHlo.Predicate
import proofs.«135837_g2000304308963006_pallasbulk_990_2_alg».proof.Proof.Spec

noncomputable section

namespace Cert.MaskWord

open Idealize.ShloMosaic

/-! ## Small non-negative words -/

/-- The word of a natural number below 2³² has that number as its value. -/
theorem toNat_ofNat32 (a : ℕ) (ha : a < 2 ^ 32) : (BitVec.ofNat 32 a).toNat = a := by
  rw [BitVec.toNat_ofNat]; exact Nat.mod_eq_of_lt ha

/-- The word of a number below 2³¹ has its sign bit clear. -/
theorem msb_ofNat32 (a : ℕ) (ha : a < 2 ^ 31) : (BitVec.ofNat 32 a).msb = false :=
  BitVec.msb_eq_false_iff_two_mul_lt.mpr (by rw [toNat_ofNat32 a (by omega)]; omega)

/-- The signed remainder of two small non-negative words, the divisor positive, meets no corner and is the remainder of
    the numbers: both signs are clear, so the remainder of the dividend's sign is the unsigned one. On any unit. -/
theorem remsi_ofNat (u : ArithUnit) (a b : ℕ) (ha : a < 2 ^ 31) (hb0 : 0 < b) (hb : b < 2 ^ 31) :
    IntOp.remsi u (BitVec.ofNat 32 a) (BitVec.ofNat 32 b) = BitVec.ofNat 32 (a % b) := by
  have hA := toNat_ofNat32 a (by omega)
  have hB := toNat_ofNat32 b (by omega)
  have hcorner : ¬ IntOp.SDivCorner (BitVec.ofNat 32 a) (BitVec.ofNat 32 b) := by
    rintro (h | ⟨_, h⟩)
    · have h' := congrArg BitVec.toNat h
      rw [hB] at h'
      have h0 : (0 : BitVec 32).toNat = 0 := rfl
      omega
    · have h' := congrArg BitVec.toNat h
      rw [hB] at h'
      have h1 : (-1 : BitVec 32).toNat = 4294967295 := by decide
      omega
  have hlt : a % b < b := Nat.mod_lt _ hb0
  unfold IntOp.remsi
  rw [if_neg hcorner, BitVec.srem_eq, msb_ofNat32 a ha, msb_ofNat32 b hb]
  apply BitVec.eq_of_toNat_eq
  show (BitVec.ofNat 32 a % BitVec.ofNat 32 b).toNat = _
  rw [BitVec.toNat_umod, hA, hB, toNat_ofNat32 (a % b) (by omega)]

/-- A small non-negative word is not below zero, read signed. -/
theorem slt_zero_ofNat (a : ℕ) (ha : a < 2 ^ 31) : IntOp.cmpi .slt (BitVec.ofNat 32 a) 0#32 = 0#1 := by
  have h := StableHlo.Predicate.slt_ofNat_iff a 0 ha (by omega)
  unfold IntOp.cmpi
  rcases hc : (BitVec.ofNat 32 a).slt (BitVec.ofNat 32 0) with _ | _
  · rfl
  · rw [hc] at h
    exact absurd (h.mp rfl) (Nat.not_lt_zero a)

/-- Two small non-negative words compare, read signed, as their numbers. -/
theorem slt_ofNat (a b : ℕ) (ha : a < 2 ^ 31) (hb : b < 2 ^ 31) :
    IntOp.cmpi .slt (BitVec.ofNat 32 a) (BitVec.ofNat 32 b) = BitVec.ofBool (decide (a < b)) := by
  have h := StableHlo.Predicate.slt_ofNat_iff a b ha hb
  unfold IntOp.cmpi
  rcases hc : (BitVec.ofNat 32 a).slt (BitVec.ofNat 32 b) with _ | _
  · rw [hc] at h
    have : ¬ a < b := fun hab => absurd (h.mpr hab) (by decide)
    rw [decide_eq_false this]
  · rw [hc] at h
    rw [decide_eq_true (h.mp rfl)]

/-! ## The mask bit of one column -/

/-- The bit the mask's chain of word operations computes at flat column `j`: the divisor 36 guarded against zero
    (`d`), the remainder of the dividend's sign (`r`), corrected to the divisor's sign where the two signs differ
    and the remainder is not zero, compared below 34. -/
def colBit (j : ℕ) : BitVec 1 :=
  let d : BitVec 32 := Scalar.select (IntOp.cmpi .eq 36#32 0#32) 1#32 36#32
  let r : BitVec 32 := IntOp.remsi .host (BitVec.ofNat 32 j) d
  IntOp.cmpi .slt
    (Scalar.select
      (IntOp.andi (IntOp.cmpi .ne (IntOp.cmpi .slt r 0#32) (IntOp.cmpi .slt d 0#32)) (IntOp.cmpi .ne r 0#32))
      (IntOp.addi r d) r)
    34#32

/-- The guarded divisor is 36. -/
theorem guard_36 : Scalar.select (IntOp.cmpi .eq 36#32 0#32) 1#32 36#32 = 36#32 := by decide

/-- For `j < 1224` the bit is set exactly when `j % 36 < 34`: the remainder is `j % 36`, neither it nor 36 is
    negative, so no correction is made. -/
theorem colBit_eq (j : ℕ) (hj : j < 1224) : colBit j = BitVec.ofBool (decide (j % 36 < 34)) := by
  have hm : j % 36 < 36 := Nat.mod_lt _ (by omega)
  have hr : IntOp.remsi .host (BitVec.ofNat 32 j) 36#32 = BitVec.ofNat 32 (j % 36) :=
    remsi_ofNat .host j 36 (by omega) (by omega) (by omega)
  have hneg : IntOp.cmpi .slt (BitVec.ofNat 32 (j % 36)) 0#32 = 0#1 := slt_zero_ofNat _ (by omega)
  have hdneg : IntOp.cmpi .slt 36#32 0#32 = 0#1 := by decide
  have hne : IntOp.cmpi .ne (0#1) (0#1) = 0#1 := by decide
  have hand : ∀ b : BitVec 1, IntOp.andi 0#1 b = 0#1 := by decide
  have hsel : ∀ a b : BitVec 32, Scalar.select 0#1 a b = b := fun a b => if_neg (by decide)
  unfold colBit
  simp only [guard_36, hr, hneg, hdneg, hne, hand, hsel]
  exact slt_ofNat (j % 36) 34 (by omega) (by omega)

/-- Widened to an extended real, the bit is the mask: one on the 34 valid columns of every flat row, zero on the other
    two. -/
theorem uitofp_colBit (j : ℕ) (hj : j < 1224) :
    (FloatOps.uitofp (F := Ideal) .f32 (colBit j) : EReal) = Cert.Spec.msk j := by
  rw [colBit_eq j hj]
  unfold Cert.Spec.msk
  show (((BitVec.ofBool (decide (j % 36 < 34))).toNat : ℝ) : EReal) = _
  by_cases h : j % 36 < 34
  · rw [decide_eq_true h, if_pos h]
    show (((1 : ℕ) : ℝ) : EReal) = 1
    rw [Nat.cast_one, EReal.coe_one]
  · rw [decide_eq_false h, if_neg h]
    show (((0 : ℕ) : ℝ) : EReal) = 0
    rw [Nat.cast_zero, EReal.coe_zero]

end Cert.MaskWord

end
-- ==== Proof.KIMask.lean ====
/-
  The mask of the valid columns, as the idealized kernel program's host operations build it: the flat column index
  `j < 1224`, its remainder modulo the row width 36 (the remainder of the divisor's sign, then corrected — the dividend is
  never negative, so the correction never fires), compared below 34, widened to a float: one on the 34 valid columns of
  every flat row, zero on the other two.
-/
import proofs.«135837_g2000304308963006_pallasbulk_990_2_alg».proof.Proof.Gen.KernelIdeal.Launch
import proofs.«135837_g2000304308963006_pallasbulk_990_2_alg».proof.Proof.Spec
import proofs.«135837_g2000304308963006_pallasbulk_990_2_alg».proof.Proof.MaskWord
import Idealize.ShloMosaic.Lib.ValueIdx
import Idealize.ShloMosaic.Lib.Pipeline.Value
import Idealize.ShloMosaic.Lib.StableHlo.Run
import Idealize.ShloMosaic.Lib.IdealHost

noncomputable section

namespace Cert.KernelIdeal.HostVal

open Idealize.ShloMosaic Idealize.ShloMosaic.TcCoe Idealize.ShloMosaic.ValueIdx Cert.KernelIdeal Cert.KernelIdeal.Gen

theorem v20_val (V : Valuation τ sig (Elt Ideal)) :
    (StableHlo.after hostOps0_2 (StableHlo.after hostOps0_1 (StableHlo.after hostOps0 V)) (Proc.devRef .tc main_v20) : S1x1224.Idx → EReal)
      = fun i => Cert.Spec.msk (i 1).val := by
  show StableHlo.after _ _ _ = _
  -- the buffer's contents as one composed term of the host operations
  after_results_simp
  funext i
  -- an index of the [1, 1224] result has row 0, so its row-major position is its column: the reshape reads column (i 1)
  have hi0 : (i 0).val = 0 := by have := (i 0).isLt; change (i 0).val < 1 at this; omega
  refine (shapeCast_apply (s := S1224) (t := S1x1224) _ shapeCasts_S1224_S1x1224 i (ix1 (i 1)) ?_).trans ?_
  · rw [Shape.rowMajor_val_one, Shape.rowMajor_val_two]
    show (i 1).val = (i 0).val * 1224 + (i 1).val
    omega
  -- at column j the chain is the word arithmetic of the mask bit (iota reads the word of j, every broadcast of a
  -- scalar reads the scalar), widened
  · exact Cert.MaskWord.uitofp_colBit (i 1).val (i 1).isLt

end Cert.KernelIdeal.HostVal

end
-- ==== Proof.SpecRegroup.lean ====
/-
  The contraction of length 192 over side-by-side taps is the double sum over three taps and 64 channels, and rectifying
  commutes with zero padding: sums are only regrouped and reindexed (commutativity and associativity of `+`), so nothing
  here needs the values to be finite.
-/
import proofs.«135837_g2000304308963006_pallasbulk_990_2_alg».proof.Proof.Spec
import Mathlib.Data.Fintype.BigOperators
import Mathlib.Algebra.BigOperators.Group.Finset.Defs
import Mathlib.Logic.Equiv.Defs

noncomputable section

open scoped BigOperators

namespace Cert.Spec

/-- A flat index `k < 192` is a pair of a tap `k / 64` and a channel `k % 64`, with `k = tap * 64 + channel`. -/
def tapChan : Fin 192 ≃ Fin 3 × Fin 64 where
  toFun k := (⟨k.val / 64, by have := k.isLt; omega⟩, ⟨k.val % 64, Nat.mod_lt _ (by decide)⟩)
  invFun p := ⟨p.1.val * 64 + p.2.val, by have := p.1.isLt; have := p.2.isLt; omega⟩
  left_inv k := by
    apply Fin.ext
    show k.val / 64 * 64 + k.val % 64 = k.val
    omega
  right_inv p := by
    obtain ⟨t, ci⟩ := p
    have ht := t.isLt
    have hc := ci.isLt
    refine Prod.ext (Fin.ext ?_) (Fin.ext ?_)
    · show (t.val * 64 + ci.val) / 64 = t.val
      omega
    · show (t.val * 64 + ci.val) % 64 = ci.val
      omega

/-- A sum over the flat index, its summand read through tap and channel, is the double sum over taps and channels:
    the terms are the same, only their order and grouping change. -/
theorem sum_tapChan (F : Fin 3 → Fin 64 → EReal) :
    ∑ k : Fin 192, F ⟨k.val / 64, by have := k.isLt; omega⟩ ⟨k.val % 64, Nat.mod_lt _ (by decide)⟩
      = ∑ t : Fin 3, ∑ ci : Fin 64, F t ci := by
  rw [← Fintype.sum_prod_type']
  exact Fintype.sum_equiv tapChan _ _ (fun _ => rfl)

/-- Rectifying commutes with zero padding (`max 0 0 = 0`). -/
theorem xpK_eq_xp (x : Img) (ci : Fin 64) (j : ℕ) : xpK x ci j = xp x ci j := by
  unfold xpK xp pad0
  by_cases h : Inside j
  · rw [dif_pos h, dif_pos h]
  · rw [dif_neg h, dif_neg h, max_self]

/-- Regrouping the contraction of length 192 as three taps of 64 channels. -/
theorem c1K_cat (x : Img) (A : Wt1) (cm : Fin 64) (j : ℕ) : c1K x (cat1 A) cm j = c1 x A cm j := by
  unfold c1K c1
  simp only [xpK_eq_xp]
  exact sum_tapChan (fun t ci => A cm ci t * xp x ci (t.val * 36 + j))

theorem y1K_cat (x : Img) (A : Wt1) (cm : Fin 64) (j : ℕ) : y1K x (cat1 A) cm j = y1 x A cm j := by
  unfold y1K y1
  rw [c1K_cat]

theorem c2K_cat (x : Img) (A : Wt1) (B : Wt2) (co : Fin 128) (j : ℕ) : c2K x (cat1 A) (cat2 B) co j = c2 x A B co j := by
  unfold c2K c2
  simp only [y1K_cat]
  exact sum_tapChan (fun t cm => B co cm t * y1 x A cm (t.val + j))

end Cert.Spec

end
-- ==== Proof.KIChain.lean ====
/-
  The idealized kernel program's result as ONE function of the launch arrays: the last boundary's contents at the result
  buffer are, at image n, channel co, row r, column q, the specification's `outK` — the second convolution recomputed
  with its weights scaled by the inverse deviation, plus minus the mean times the inverse deviation — of the batch and
  the two weight arrays the program was launched with.  The chain: what the statistics region is entered with (the
  weights' taps side by side, the mask, the batch untouched); what it leaves (per image and channel, the sum of the
  masked second convolution and the sum of its squares); what the host makes of that (the scaled weights and the additive
  term); and the output region's payload of those.
-/
import proofs.«135837_g2000304308963006_pallasbulk_990_2_alg».proof.Proof.KIRun
import proofs.«135837_g2000304308963006_pallasbulk_990_2_alg».proof.Proof.KIArr
import proofs.«135837_g2000304308963006_pallasbulk_990_2_alg».proof.Proof.KIPay
import proofs.«135837_g2000304308963006_pallasbulk_990_2_alg».proof.Proof.KIHost
import proofs.«135837_g2000304308963006_pallasbulk_990_2_alg».proof.Proof.KIMask
import proofs.«135837_g2000304308963006_pallasbulk_990_2_alg».proof.Proof.Spec
import proofs.«135837_g2000304308963006_pallasbulk_990_2_alg».proof.Proof.SpecRegroup
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

/-- The launch memory's image batch, first weights and second weights on core `c`, by coordinates. -/
abbrev Xm (c : Dev nD) : Fin 128 → Cert.Spec.Img := fun n ci h w => (m ((c : Thread nD τ).loc main_arg0) : S128x64x32x32.Idx → EReal) (ix4 n ci h w)
abbrev Am (c : Dev nD) : Cert.Spec.Wt1 := fun cm ci t => (m ((c : Thread nD τ).loc main_arg1) : S64x64x3x1.Idx → EReal) (ix4 cm ci t 0)
abbrev Bm (c : Dev nD) : Cert.Spec.Wt2 := fun co cm t => (m ((c : Thread nD τ).loc main_arg2) : S128x64x1x3.Idx → EReal) (ix4 co cm 0 t)

open Cert.KernelIdeal.HostVal Cert.KernelIdeal.Pay

/-! ## What the statistics region is entered with -/

theorem En0_arg0 (c : Dev nD) :
    (En0 m ρ c main_arg0 : S128x64x32x32.Idx → EReal) = m ((c : Thread nD τ).loc main_arg0) :=
  arg0_val (W0 m ρ c)

theorem En0_v7 (c : Dev nD) : (En0 m ρ c main_v7 : S64x192.Idx → EReal) = fun i => Cert.Spec.cat1 (Am m c) (i 0) (i 1) :=
  v7_val (W0 m ρ c)

theorem En0_v14 (c : Dev nD) : (En0 m ρ c main_v14 : S128x192.Idx → EReal) = fun i => Cert.Spec.cat2 (Bm m c) (i 0) (i 1) :=
  v14_val (W0 m ρ c)

theorem En0_v21 (c : Dev nD) : (En0 m ρ c main_v21 : S128x192.Idx → EReal) = fun i => Cert.Spec.cat2 (Bm m c) (i 0) (i 1) :=
  v21_val (W0 m ρ c)

theorem En0_v20 (c : Dev nD) : (En0 m ρ c main_v20 : S1x1224.Idx → EReal) = fun i => Cert.Spec.msk (i 1).val :=
  v20_val (W0 m ρ c)

/-- Image `n`'s loaded block is image `n` of the launch batch. -/
theorem img_En0 (c : Dev nD) (n : Fin 128) : img (xblk (En0 m ρ) c n) = Xm m c n := by
  funext ci h w
  exact congrFun (En0_arg0 m ρ c) (ix4 n ci h w)

theorem mat1_En0 (c : Dev nD) : mat1 (En0 m ρ c main_v7 : Vec Ideal S64x192 .bf16) = Cert.Spec.cat1 (Am m c) := by
  funext cm k
  exact congrFun (En0_v7 m ρ c) (ix2 cm k)

theorem mat2_En0 (c : Dev nD) : mat2 (En0 m ρ c main_v21 : Vec Ideal S128x192 .bf16) = Cert.Spec.cat2 (Bm m c) := by
  funext co k
  exact congrFun (En0_v21 m ρ c) (ix2 co k)

/-- The statistics kernel's masked convolution of image `n` is the specification's. -/
theorem pay2_En0 (c : Dev nD) (n co : Fin 128) (j : Fin 1224) :
    k0_pay2 (F := Ideal) (xblk (En0 m ρ) c n) (En0 m ρ c main_v7 : Vec Ideal S64x192 .bf16)
        (En0 m ρ c main_v21 : Vec Ideal S128x192 .bf16) (En0 m ρ c main_v20 : Vec Ideal S1x1224 .f32) (ix2 co j)
      = Cert.Spec.am (Xm m c n) (Am m c) (Bm m c) co j.val := by
  rw [k0_pay2_apply, img_En0, mat1_En0, mat2_En0, Cert.Spec.c2K_cat]
  rw [show (En0 m ρ c main_v20 : Vec Ideal S1x1224 .f32) (ix2 0 j) = Cert.Spec.msk j.val from congrFun (En0_v20 m ρ c) (ix2 0 j)]
  rfl

/-! ## What the statistics region leaves -/

theorem W4_v22_0 (c : Dev nD) (n co : Fin 128) :
    (W4 m ρ c (Proc.devRef .tc main_v22_0) : S128x128x1.Idx → EReal) (ix3 n co 0) = Cert.Spec.ps (Xm m c n) (Am m c) (Bm m c) co := by
  rw [show W4 m ρ c (Proc.devRef .tc main_v22_0) = (dat0 (En0 m ρ) c).arrAt 4 cfg0.N from W4_arr m ρ c 4]
  rw [arr0_4_apply, k0_pay3_apply]
  unfold Cert.Spec.ps
  show (∑ j : Fin 1224, (_ : EReal)) = ∑ j : Fin 1224, (_ : EReal)
  exact Finset.sum_congr rfl fun j _ => pay2_En0 m ρ c n co j

theorem W4_v22_1 (c : Dev nD) (n co : Fin 128) :
    (W4 m ρ c (Proc.devRef .tc main_v22_1) : S128x128x1.Idx → EReal) (ix3 n co 0) = Cert.Spec.pq (Xm m c n) (Am m c) (Bm m c) co := by
  rw [show W4 m ρ c (Proc.devRef .tc main_v22_1) = (dat0 (En0 m ρ) c).arrAt 5 cfg0.N from W4_arr m ρ c 5]
  rw [arr0_5_apply, k0_pay1_apply]
  unfold Cert.Spec.pq
  show (∑ j : Fin 1224, (_ : EReal)) = ∑ j : Fin 1224, (_ : EReal)
  exact Finset.sum_congr rfl fun j _ => by rw [pay2_En0]

theorem Pof_W4 (c : Dev nD) (co : Fin 128) : Pof (W4 m ρ c) co = Cert.Spec.PS (Xm m c) (Am m c) (Bm m c) co := by
  funext n; exact W4_v22_0 m ρ c n co

theorem Qof_W4 (c : Dev nD) (co : Fin 128) : Qof (W4 m ρ c) co = Cert.Spec.PQ (Xm m c) (Am m c) (Bm m c) co := by
  funext n; exact W4_v22_1 m ρ c n co

/-- The statistics region changes neither the batch, nor the first weights' side-by-side form, nor the second's. -/
theorem W4_arg0 (c : Dev nD) : W4 m ρ c (Proc.devRef .tc main_arg0) = W3 m ρ c (Proc.devRef .tc main_arg0) := W4_in m ρ c 0 rfl
theorem W4_v7 (c : Dev nD) : W4 m ρ c (Proc.devRef .tc main_v7) = W3 m ρ c (Proc.devRef .tc main_v7) := W4_in m ρ c 1 rfl
theorem W4_v14 (c : Dev nD) : W4 m ρ c (Proc.devRef .tc main_v14) = W3 m ρ c (Proc.devRef .tc main_v14) := W4_of_ne m ρ c main_v14 (by decide)

/-! ## What the output region is entered with -/

theorem En1_arg0 (c : Dev nD) :
    (En1 m ρ c main_arg0 : S128x64x32x32.Idx → EReal) = m ((c : Thread nD τ).loc main_arg0) :=
  (hostOps1_keeps (W4 m ρ c) main_arg0 (by decide)).trans ((W4_arg0 m ρ c).trans (En0_arg0 m ρ c))

theorem En1_v7 (c : Dev nD) : (En1 m ρ c main_v7 : S64x192.Idx → EReal) = fun i => Cert.Spec.cat1 (Am m c) (i 0) (i 1) :=
  (hostOps1_keeps (W4 m ρ c) main_v7 (by decide)).trans ((W4_v7 m ρ c).trans (En0_v7 m ρ c))

theorem w14_W4 (c : Dev nD) : w14 (W4 m ρ c) = Cert.Spec.cat2 (Bm m c) := by
  funext co k
  exact (congrFun (W4_v14 m ρ c) (ix2 co k)).trans (congrFun (En0_v14 m ρ c) (ix2 co k))

theorem En1_v36 (c : Dev nD) : (En1 m ρ c main_v36 : S128x192.Idx → EReal)
    = fun i => Cert.Spec.cat2 (Bm m c) (i 0) (i 1)
        * Cert.Spec.rstdE (Cert.Spec.PS (Xm m c) (Am m c) (Bm m c) (i 0)) (Cert.Spec.PQ (Xm m c) (Am m c) (Bm m c) (i 0)) := by
  refine (v36_val (W4 m ρ c)).trans ?_
  funext i
  obtain ⟨co, k, rfl⟩ : ∃ (co : Fin 128) (k : Fin 192), i = ix2 co k := ⟨i 0, i 1, eq_ix2 i⟩
  show w14 (W4 m ρ c) co k * Cert.Spec.rstdE (Pof (W4 m ρ c) co) (Qof (W4 m ρ c) co) = Cert.Spec.cat2 (Bm m c) co k * _
  rw [w14_W4, Pof_W4, Qof_W4]
  rfl

theorem En1_v38 (c : Dev nD) : (En1 m ρ c main_v38 : S128x1.Idx → EReal)
    = fun i => (-(Cert.Spec.meanE (Cert.Spec.PS (Xm m c) (Am m c) (Bm m c) (i 0))))
        * Cert.Spec.rstdE (Cert.Spec.PS (Xm m c) (Am m c) (Bm m c) (i 0)) (Cert.Spec.PQ (Xm m c) (Am m c) (Bm m c) (i 0)) := by
  refine (v38_val (W4 m ρ c)).trans ?_
  funext i
  obtain ⟨co, u, rfl⟩ : ∃ (co : Fin 128) (u : Fin 1), i = ix2 co u := ⟨i 0, i 1, eq_ix2 i⟩
  show (-(Cert.Spec.meanE (Pof (W4 m ρ c) co))) * Cert.Spec.rstdE (Pof (W4 m ρ c) co) (Qof (W4 m ρ c) co) = _
  rw [Pof_W4, Qof_W4]
  rfl

theorem img_En1 (c : Dev nD) (n : Fin 128) : img (xblk (En1 m ρ) c n) = Xm m c n := by
  funext ci h w
  exact congrFun (En1_arg0 m ρ c) (ix4 n ci h w)

theorem mat1_En1 (c : Dev nD) : mat1 (En1 m ρ c main_v7 : Vec Ideal S64x192 .bf16) = Cert.Spec.cat1 (Am m c) := by
  funext cm k
  exact congrFun (En1_v7 m ρ c) (ix2 cm k)

theorem mat2_En1 (c : Dev nD) : mat2 (En1 m ρ c main_v36 : Vec Ideal S128x192 .bf16)
    = fun co' k => Cert.Spec.cat2 (Bm m c) co' k
        * Cert.Spec.rstdE (Cert.Spec.PS (Xm m c) (Am m c) (Bm m c) co') (Cert.Spec.PQ (Xm m c) (Am m c) (Bm m c) co') := by
  funext co' k
  exact congrFun (En1_v36 m ρ c) (ix2 co' k)

/-! ## The result -/

theorem result_val (c : Dev nD) :
    (W6 m ρ c (Proc.devRef .tc main_v39) : S128x128x34x34.Idx → EReal)
      = fun i => Cert.Spec.outK (Xm m c) (Am m c) (Bm m c) (i 0) (i 1) (i 2) (i 3) := by
  funext i
  obtain ⟨n, co, r, q, rfl⟩ : ∃ (n co : Fin 128) (r q : Fin 34), i = ix4 n co r q := ⟨i 0, i 1, i 2, i 3, eq_ix4 i⟩
  rw [show W6 m ρ c (Proc.devRef .tc main_v39) = (dat1 (En1 m ρ) c).arrAt 4 cfg1.N from W6_arr m ρ c 4]
  rw [arr1_4_apply, k1_pay1_apply, img_En1, mat1_En1, mat2_En1]
  rw [show (En1 m ρ c main_v38 : Vec Ideal S128x1 .f32) (ix2 co 0) = _ from congrFun (En1_v38 m ρ c) (ix2 co 0)]
  rfl

end Cert.KernelIdeal.Hand

end
-- ==== Proof.RArr0.lean ====
/-
  From blocks to arrays, for the reference program's two regions at any float instance.  Both grids have one point per
  image.  The fused region keeps a scratch buffer: the body fills it with zeros, overwrites columns 36..1187 with the first
  convolution and reads it back whole, so what the second convolution sees is the first convolution inside a zero border
  (`y1blk`); the region then leaves, at image `n`, the masked second convolution of image `n`'s padded slab, its sum and
  its sum of squares.  The normalising region leaves, at image `n`, its payload of image `n`'s slab of the wide result and
  the two per-channel columns.
-/
import proofs.«135837_g2000304308963006_pallasbulk_990_2_alg».proof.Proof.Gen.ReferenceIdeal.Frame
import Idealize.ShloMosaic.Lib.ValueIdx
import Idealize.ShloMosaic.Lib.Pipeline.Value

set_option maxRecDepth 16384

noncomputable section

namespace Cert.ReferenceIdeal.Hand

open Idealize.ShloMosaic Idealize.ShloMosaic.TcCoe Idealize.ShloMosaic.ValueIdx
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

/-- Image `n`'s slab of the padded flat batch, as the block a point loads. -/
abbrev xfblk (c : Dev nD) (n : Fin 128) : Vec F S1x64x1224 .f32 :=
  fun y => (V c main_v5 : Vec F S128x64x1224 .f32) (ix3 n (y 1) (y 2))
/-- Tap `t` of a tap-major weight array, as the sub-block a load takes. -/
abbrev tap1 (w : Vec F S3x64x64 .f32) (t : Fin 3) : Vec F S1x64x64 .f32 := fun y => w (ix3 t (y 1) (y 2))
abbrev tap2 (w : Vec F S3x128x64 .f32) (t : Fin 3) : Vec F S1x128x64 .f32 := fun y => w (ix3 t (y 1) (y 2))

/-- The scratch buffer as it is read back: the first convolution in columns 36..1187, the zero fill elsewhere. -/
def y1blk (x0 : Vec F S1x64x1224 .f32) (w : Vec F S3x64x64 .f32) : Vec F S64x1226 .f32 :=
  fun i => if h : 36 ≤ (i 1).val ∧ (i 1).val < 1188
    then k0_pay6 x0 (tap1 w 0) (tap1 w 1) (tap1 w 2) (ix2 (i 0) ⟨(i 1).val - 36, by omega⟩)
    else k0_pay5 (F := F) i

/-! ## What one grid point leaves in each result block -/

/-- The zero offset vector is the function that is zero on every axis. -/
theorem r0_hz2 : (![0, 0] : Fin 2 → Nat) = fun _ => 0 := funext fun a => by fin_cases a <;> rfl
theorem r0_hz3 : (![0, 0, 0] : Fin 3 → Nat) = fun _ => 0 := funext fun a => by fin_cases a <;> rfl

/-- A load of tap `t`'s sub-block of a tap-major 3 × 64 × 64 array reads that tap. -/
theorem r0_ld_tap1 (w : Vec F S3x64x64 .f32) (o : ℕ) (t : Fin 3) (ht : t.val = o)
    (inb : ∀ a, (![o, 0, 0] : Fin 3 → ℕ) a + S1x64x64.size a ≤ S3x64x64.size a) :
    View.ld w (Rect.unit ![o, 0, 0] S1x64x64.size inb) = tap1 w t := by
  funext y
  refine congrArg w (funext fun a => Fin.ext ?_)
  match a with
  | ⟨0, _⟩ => have := (y 0).isLt; show o + 1 * (y 0).val = t.val; rw [ht]; have : (y 0).val < 1 := (y 0).isLt; omega
  | ⟨1, _⟩ => show 0 + 1 * (y 1).val = (y 1).val; omega
  | ⟨2, _⟩ => show 0 + 1 * (y 2).val = (y 2).val; omega

/-- A load of tap `t`'s sub-block of a tap-major 3 × 128 × 64 array reads that tap. -/
theorem r0_ld_tap2 (w : Vec F S3x128x64 .f32) (o : ℕ) (t : Fin 3) (ht : t.val = o)
    (inb : ∀ a, (![o, 0, 0] : Fin 3 → ℕ) a + S1x128x64.size a ≤ S3x128x64.size a) :
    View.ld w (Rect.unit ![o, 0, 0] S1x128x64.size inb) = tap2 w t := by
  funext y
  refine congrArg w (funext fun a => Fin.ext ?_)
  match a with
  | ⟨0, _⟩ => show o + 1 * (y 0).val = t.val; rw [ht]; have : (y 0).val < 1 := (y 0).isLt; omega
  | ⟨1, _⟩ => show 0 + 1 * (y 1).val = (y 1).val; omega
  | ⟨2, _⟩ => show 0 + 1 * (y 2).val = (y 2).val; omega

/-- Column `j` of the stored rectangle sits at column `36 + j` of the buffer. -/
theorem r0_emb36 (i : S64x1226.Idx) (h : 36 ≤ (i 1).val ∧ (i 1).val < 1188) :
    (Rect.unit (s := S64x1226) ![0, 36] S64x1152.size inb_S64x1226_S64x1152_0_36).emb
      (ix2 (i 0) ⟨(i 1).val - 36, by omega⟩ : S64x1152.Idx) = i :=
  funext fun a => Fin.ext (by
    match a with
    | ⟨0, _⟩ => show 0 + 1 * (i 0).val = (i 0).val; omega
    | ⟨1, _⟩ => show 36 + 1 * ((i 1).val - 36) = (i 1).val; omega)

/-- An index outside columns 36..1187 is not in the stored rectangle. -/
theorem r0_not_mem36 (i : S64x1226.Idx) (h : ¬(36 ≤ (i 1).val ∧ (i 1).val < 1188)) :
    i ∉ (Rect.unit (s := S64x1226) ![0, 36] S64x1152.size inb_S64x1226_S64x1152_0_36).set := by
  rw [Rect.mem_set_unit]
  intro hm
  have h1 : 36 ≤ (i 1).val ∧ (i 1).val < 36 + 1152 := hm 1
  omega

/-- The whole-buffer load box reads every index where it is. -/
theorem r0_idx_whole (i : S64x1226.Idx) :
    (Rect.unit (s := S64x1226) ![0, 0] S64x1226.size inb_S64x1226_S64x1226_0_0).toLoadRect.idx i = i :=
  funext fun a => Fin.ext (by
    match a with
    | ⟨0, _⟩ => show 0 + 1 * (i 0).val = (i 0).val; omega
    | ⟨1, _⟩ => show 0 + 1 * (i 1).val = (i 1).val; omega)

/-- What the two stores leave, index by index. -/
theorem r0_canon2 (P : Vec F S64x1152 .f32) (Z : Vec F S64x1226 .f32) (i : S64x1226.Idx) :
    View.canon [(⟨Rect.unit (s := S64x1226) ![0, 36] S64x1152.size inb_S64x1226_S64x1152_0_36, P⟩ : View.Piece (Elt F) S64x1226 .f32),
        ⟨Rect.unit (s := S64x1226) ![0, 0] S64x1226.size inb_S64x1226_S64x1226_0_0, Z⟩] i
      = if h : 36 ≤ (i 1).val ∧ (i 1).val < 1188 then P (ix2 (i 0) ⟨(i 1).val - 36, by omega⟩) else Z i := by
  by_cases h : 36 ≤ (i 1).val ∧ (i 1).val < 1188
  · rw [dif_pos h]
    have hc := View.canon_cons_emb (Val := Elt F) (Rect.unit (s := S64x1226) ![0, 36] S64x1152.size inb_S64x1226_S64x1152_0_36) P
      [⟨Rect.unit (s := S64x1226) ![0, 0] S64x1226.size inb_S64x1226_S64x1226_0_0, Z⟩]
      (ix2 (i 0) ⟨(i 1).val - 36, by omega⟩ : S64x1152.Idx)
    rw [r0_emb36 i h] at hc
    exact hc
  · rw [dif_neg h]
    exact (View.canon_cons_of_not_mem (Val := Elt F)
      (⟨Rect.unit (s := S64x1226) ![0, 36] S64x1152.size inb_S64x1226_S64x1152_0_36, P⟩ : View.Piece (Elt F) S64x1226 .f32)
      [⟨Rect.unit (s := S64x1226) ![0, 0] S64x1226.size inb_S64x1226_S64x1226_0_0, Z⟩] (r0_not_mem36 i h)).trans
      (congrFun (View.canon_unit_zero (Val := Elt F) r0_hz2 inb_S64x1226_S64x1226_0_0 Z) i)

/-- The scratch buffer read back whole after the zero fill and the store of `P` into columns 36..1187: `P` there, the
    fill elsewhere. -/
theorem r0_scratch_read {sig' : RefSig} {κ : Kind} {sp : Space} (v : View sig' κ sp S64x1226 .f32)
    (P : Vec F S64x1152 .f32) (Z : Vec F S64x1226 .f32) :
    v.readCov [(⟨Rect.unit (s := S64x1226) ![0, 36] S64x1152.size inb_S64x1226_S64x1152_0_36, P⟩ : View.Piece (Elt F) S64x1226 .f32),
        ⟨Rect.unit (s := S64x1226) ![0, 0] S64x1226.size inb_S64x1226_S64x1226_0_0, Z⟩]
      (Rect.unit (s := S64x1226) ![0, 0] S64x1226.size inb_S64x1226_S64x1226_0_0).toLoadRect
      = fun i => if h : 36 ≤ (i 1).val ∧ (i 1).val < 1188 then P (ix2 (i 0) ⟨(i 1).val - 36, by omega⟩) else Z i := by
  rw [View.readCov_eq_canon']
  funext i
  rw [r0_idx_whole i]
  exact r0_canon2 P Z i

/-- One grid point's first result block: the masked second convolution of its image block, the scratch buffer read back as
    the bordered first convolution, each weight load one tap. -/
theorem r0_out4_eq (c : Dev nD) (i : grid0.Coords) (arg1 : Memref sig .tc .vmem S1x64x1224 .f32) (harg1 : arg1.IsWhole) (arg2 : Memref sig .tc .vmem S3x64x64 .f32) (harg2 : arg2.IsWhole) (arg3 : Memref sig .tc .vmem S3x128x64 .f32) (harg3 : arg3.IsWhole) (arg4 : Memref sig .tc .vmem S1x1224 .f32) (harg4 : arg4.IsWhole) (arg5 : Memref sig .tc .vmem S1x128x1224 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S64x1226 .f32) (harg8 : arg8.IsWhole)
    (x0 : Vec F S1x64x1224 .f32) (x1 : Vec F S3x64x64 .f32) (x2 : Vec F S3x128x64 .f32) (x3 : Vec F S1x1224 .f32) :
    out0_A_4 c i arg1 harg1 arg2 harg2 arg3 harg3 arg4 harg4 arg5 harg5 arg6 harg6 arg7 harg7 arg8 harg8 x0 x1 x2 x3
      = k0_pay2 (y1blk x0 x1) (k0_pay7 (F := F)) (tap2 x2 0) (tap2 x2 1) (tap2 x2 2) x3 := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero r0_hz3]
  simp only [View.readAt_eq_ld, harg1.read_unread, harg2.read_unread, harg3.read_unread, harg4.read_unread,
    View.ld_unit_zero (S := S1x64x1224) r0_hz3, View.ld_unit_zero (S := S1x1224) r0_hz2]
  rw [r0_ld_tap1 x1 0 0 rfl, r0_ld_tap1 x1 1 1 rfl, r0_ld_tap1 x1 2 2 rfl,
    r0_ld_tap2 x2 0 0 rfl, r0_ld_tap2 x2 1 1 rfl, r0_ld_tap2 x2 2 2 rfl, r0_scratch_read]
  rfl

/-- One grid point's second result block: that convolution's sums along the flat axis. -/
theorem r0_out5_eq (c : Dev nD) (i : grid0.Coords) (arg1 : Memref sig .tc .vmem S1x64x1224 .f32) (harg1 : arg1.IsWhole) (arg2 : Memref sig .tc .vmem S3x64x64 .f32) (harg2 : arg2.IsWhole) (arg3 : Memref sig .tc .vmem S3x128x64 .f32) (harg3 : arg3.IsWhole) (arg4 : Memref sig .tc .vmem S1x1224 .f32) (harg4 : arg4.IsWhole) (arg5 : Memref sig .tc .vmem S1x128x1224 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S64x1226 .f32) (harg8 : arg8.IsWhole)
    (x0 : Vec F S1x64x1224 .f32) (x1 : Vec F S3x64x64 .f32) (x2 : Vec F S3x128x64 .f32) (x3 : Vec F S1x1224 .f32) :
    out0_A_5 c i arg1 harg1 arg2 harg2 arg3 harg3 arg4 harg4 arg5 harg5 arg6 harg6 arg7 harg7 arg8 harg8 x0 x1 x2 x3
      = k0_pay3 (y1blk x0 x1) (k0_pay7 (F := F)) (tap2 x2 0) (tap2 x2 1) (tap2 x2 2) x3 := by
  unfold out0_A_5
  rw [View.read_writes_eq_canon _ _ _ (cover0_A_5 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero r0_hz3]
  simp only [View.readAt_eq_ld, harg1.read_unread, harg2.read_unread, harg3.read_unread, harg4.read_unread,
    View.ld_unit_zero (S := S1x64x1224) r0_hz3, View.ld_unit_zero (S := S1x1224) r0_hz2]
  rw [r0_ld_tap1 x1 0 0 rfl, r0_ld_tap1 x1 1 1 rfl, r0_ld_tap1 x1 2 2 rfl,
    r0_ld_tap2 x2 0 0 rfl, r0_ld_tap2 x2 1 1 rfl, r0_ld_tap2 x2 2 2 rfl, r0_scratch_read]
  rfl

/-- One grid point's third result block: the sums of its squares along the flat axis. -/
theorem r0_out6_eq (c : Dev nD) (i : grid0.Coords) (arg1 : Memref sig .tc .vmem S1x64x1224 .f32) (harg1 : arg1.IsWhole) (arg2 : Memref sig .tc .vmem S3x64x64 .f32) (harg2 : arg2.IsWhole) (arg3 : Memref sig .tc .vmem S3x128x64 .f32) (harg3 : arg3.IsWhole) (arg4 : Memref sig .tc .vmem S1x1224 .f32) (harg4 : arg4.IsWhole) (arg5 : Memref sig .tc .vmem S1x128x1224 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S64x1226 .f32) (harg8 : arg8.IsWhole)
    (x0 : Vec F S1x64x1224 .f32) (x1 : Vec F S3x64x64 .f32) (x2 : Vec F S3x128x64 .f32) (x3 : Vec F S1x1224 .f32) :
    out0_A_6 c i arg1 harg1 arg2 harg2 arg3 harg3 arg4 harg4 arg5 harg5 arg6 harg6 arg7 harg7 arg8 harg8 x0 x1 x2 x3
      = k0_pay4 (y1blk x0 x1) (k0_pay7 (F := F)) (tap2 x2 0) (tap2 x2 1) (tap2 x2 2) x3 := by
  unfold out0_A_6
  rw [View.read_writes_eq_canon _ _ _ (cover0_A_6 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero r0_hz3]
  simp only [View.readAt_eq_ld, harg1.read_unread, harg2.read_unread, harg3.read_unread, harg4.read_unread,
    View.ld_unit_zero (S := S1x64x1224) r0_hz3, View.ld_unit_zero (S := S1x1224) r0_hz2]
  rw [r0_ld_tap1 x1 0 0 rfl, r0_ld_tap1 x1 1 1 rfl, r0_ld_tap1 x1 2 2 rfl,
    r0_ld_tap2 x2 0 0 rfl, r0_ld_tap2 x2 1 1 rfl, r0_ld_tap2 x2 2 2 rfl, r0_scratch_read]
  rfl

/-! ## From blocks to arrays -/

/-- The windows' block indices at point `t`: the image window and the three result windows sit at block `t` along
    their leading axis, the weight and mask windows at block 0. -/
theorem r0_idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- A point of the grid as an image number. -/
abbrev r0_img (t : Fin cfg0.N) : Fin 128 := ⟨t.val, Nat.lt_of_lt_of_eq t.isLt N_0⟩

/-- The image window's block at point `t` is image `t`'s slab. -/
theorem r0_iblk0 (c : Dev nD) (t : Fin cfg0.N) : (iblk0 V c 0 t : Vec F S1x64x1224 .f32) = xfblk V c (r0_img t) := by
  obtain ⟨e0, e1, e2, -⟩ := r0_idx_facts t
  funext y
  show (V c main_v5 : Vec F S128x64x1224 .f32) (((cfg0.win 0).blk t).view.emb y) = (V c main_v5 : Vec F S128x64x1224 .f32) (ix3 (r0_img t) (y 1) (y 2))
  refine congrArg (V c main_v5 : Vec F S128x64x1224 .f32) (funext fun a => Fin.ext ?_)
  match a with
  | ⟨0, _⟩ => show win0_0.index t (0 : Fin 3) * 1 + 1 * (y 0).val = t.val; have : (y 0).val < 1 := (y 0).isLt; omega
  | ⟨1, _⟩ => show win0_0.index t (1 : Fin 3) * 64 + 1 * (y 1).val = (y 1).val; omega
  | ⟨2, _⟩ => show win0_0.index t (2 : Fin 3) * 1224 + 1 * (y 2).val = (y 2).val; omega

/-- The first weight window's block is its whole array at every point. -/
theorem r0_iblk1 (c : Dev nD) (t : Fin cfg0.N) : (iblk0 V c 1 t : Vec F S3x64x64 .f32) = (V c main_v1 : Vec F S3x64x64 .f32) := by
  obtain ⟨-, -, -, e0, e1, e2, -⟩ := r0_idx_facts t
  funext y
  show (V c main_v1 : Vec F S3x64x64 .f32) (((cfg0.win 1).blk t).view.emb y) = (V c main_v1 : Vec F S3x64x64 .f32) y
  refine congrArg (V c main_v1 : Vec F S3x64x64 .f32) (funext fun a => Fin.ext ?_)
  match a with
  | ⟨0, _⟩ => show win0_1.index t (0 : Fin 3) * 3 + 1 * (y 0).val = (y 0).val; omega
  | ⟨1, _⟩ => show win0_1.index t (1 : Fin 3) * 64 + 1 * (y 1).val = (y 1).val; omega
  | ⟨2, _⟩ => show win0_1.index t (2 : Fin 3) * 64 + 1 * (y 2).val = (y 2).val; omega

/-- The second weight window's block is its whole array at every point. -/
theorem r0_iblk2 (c : Dev nD) (t : Fin cfg0.N) : (iblk0 V c 2 t : Vec F S3x128x64 .f32) = (V c main_v3 : Vec F S3x128x64 .f32) := by
  obtain ⟨-, -, -, -, -, -, e0, e1, e2, -⟩ := r0_idx_facts t
  funext y
  show (V c main_v3 : Vec F S3x128x64 .f32) (((cfg0.win 2).blk t).view.emb y) = (V c main_v3 : Vec F S3x128x64 .f32) y
  refine congrArg (V c main_v3 : Vec F S3x128x64 .f32) (funext fun a => Fin.ext ?_)
  match a with
  | ⟨0, _⟩ => show win0_2.index t (0 : Fin 3) * 3 + 1 * (y 0).val = (y 0).val; omega
  | ⟨1, _⟩ => show win0_2.index t (1 : Fin 3) * 128 + 1 * (y 1).val = (y 1).val; omega
  | ⟨2, _⟩ => show win0_2.index t (2 : Fin 3) * 64 + 1 * (y 2).val = (y 2).val; omega

/-- The mask window's block is its whole array at every point. -/
theorem r0_iblk3 (c : Dev nD) (t : Fin cfg0.N) : (iblk0 V c 3 t : Vec F S1x1224 .f32) = (V c main_v11 : Vec F S1x1224 .f32) := by
  obtain ⟨-, -, -, -, -, -, -, -, -, e0, e1, -⟩ := r0_idx_facts t
  funext y
  show (V c main_v11 : Vec F S1x1224 .f32) (((cfg0.win 3).blk t).view.emb y) = (V c main_v11 : Vec F S1x1224 .f32) y
  refine congrArg (V c main_v11 : Vec F S1x1224 .f32) (funext fun a => Fin.ext ?_)
  match a with
  | ⟨0, _⟩ => show win0_3.index t (0 : Fin 2) * 1 + 1 * (y 0).val = (y 0).val; omega
  | ⟨1, _⟩ => show win0_3.index t (1 : Fin 2) * 1224 + 1 * (y 1).val = (y 1).val; omega

/-- An index of a block with a leading unit axis has `0` there. -/
theorem r0_unit3 {a b : ℕ} (y : (⟨3, ![1, a, b]⟩ : Shape).Idx) : y = ix3 (0 : Fin 1) (y 1) (y 2) := by
  funext d
  match d with
  | ⟨0, _⟩ => exact Fin.ext (by have : (y 0).val < 1 := (y 0).isLt; show (y 0).val = 0; omega)
  | ⟨1, _⟩ => rfl
  | ⟨2, _⟩ => rfl

/-! ### The first result: the masked second convolution -/

/-- What the first result array ends holding: at slab `n`, the payload of image `n`'s slab. -/
def r0_G4 (c : Dev nD) : Vec F S128x128x1224 .f32 := fun i =>
  k0_pay2 (y1blk (xfblk V c (i 0)) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) (ix3 0 (i 1) (i 2))

theorem r0_G4_apply (c : Dev nD) (n co : Fin 128) (j : Fin 1224) :
    r0_G4 V c (ix3 n co j) = k0_pay2 (y1blk (xfblk V c n) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) (ix3 0 co j) := rfl

/-- What point `t` writes back is block `t` of that array. -/
theorem r0_flushed4 (c : Dev nD) (t : Fin cfg0.N) :
    (dat0 V c).flushed 4 t = ((cfg0.win 4).blk t).view.read (Elt F) (r0_G4 V c) := by
  show (cfg0.win 4).cut (grid0.coords t) ((dat0 V c).after 4 t) = _
  rw [after0_4]
  unfold outsAt0
  dsimp only
  rw [r0_out4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t) (iblk0 V c 3 t)]
  rw [r0_iblk0, r0_iblk1, r0_iblk2, r0_iblk3]
  obtain ⟨-, -, -, -, -, -, -, -, -, -, -, e0, e1, e2, -⟩ := r0_idx_facts t
  funext y
  have hemb : ((cfg0.win 4).blk t).view.emb y = ix3 (r0_img t) (y 1) (y 2) := funext fun a => Fin.ext (by
    match a with
    | ⟨0, _⟩ => show win0_4.index t (0 : Fin 3) * 1 + 1 * (y 0).val = t.val; have : (y 0).val < 1 := (y 0).isLt; omega
    | ⟨1, _⟩ => show win0_4.index t (1 : Fin 3) * 128 + 1 * (y 1).val = (y 1).val; omega
    | ⟨2, _⟩ => show win0_4.index t (2 : Fin 3) * 1224 + 1 * (y 2).val = (y 2).val; omega)
  show k0_pay2 (y1blk (xfblk V c (r0_img t)) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) y = r0_G4 V c (((cfg0.win 4).blk t).view.emb y)
  rw [hemb]
  exact (congrArg _ (r0_unit3 (a := 128) (b := 1224) y)).trans (r0_G4_apply V c (r0_img t) (y 1) (y 2)).symm

/-- An index of the array is in point `t`'s block iff each coordinate is in the block's range on its axis. -/
theorem r0_mem_blk4 (t : Fin cfg0.N) (i : S128x128x1224.Idx) :
    i ∈ ((cfg0.win 4).blk t).view.set ↔ ∀ a : Fin 3, win0_4.index t a * S1x128x1224.size a ≤ (i a).val
      ∧ (i a).val < win0_4.index t a * S1x128x1224.size a + S1x128x1224.size a := by
  show i ∈ ((View.whole main_v12_0).slice (win0_4.rect t)).set ↔ _
  rw [View.set_slice_whole, Rect.mem_set_unit]
  exact Iff.rfl

/-- Slab `n` of the array is point `n`'s block. -/
theorem r0_cover4 (i : S128x128x1224.Idx) :
    ∃ t : Fin cfg0.N, (cfg0.win 4).flush t = true ∧ i ∈ ((cfg0.win 4).blk t).view.set := by
  have h0 : (i 0).val < 128 := (i 0).isLt
  have h1 : (i 1).val < 128 := (i 1).isLt
  have h2 : (i 2).val < 1224 := (i 2).isLt
  obtain ⟨t, ht⟩ : ∃ t : Fin cfg0.N, t.val = (i 0).val := ⟨⟨(i 0).val, Nat.lt_of_lt_of_eq h0 N_0.symm⟩, rfl⟩
  refine ⟨t, flush0_4 t, ?_⟩
  obtain ⟨-, -, -, -, -, -, -, -, -, -, -, e0, e1, e2, -⟩ := r0_idx_facts t
  rw [r0_mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 1224 ≤ (i 2).val ∧ (i 2).val < win0_4.index t (2 : Fin 3) * 1224 + 1224; omega

/-- The first result array after the region. -/
theorem r0_final4 (c : Dev nD) : (dat0 V c).arrAt 4 cfg0.N = r0_G4 V c :=
  (dat0 V c).arrAt_eq_of_cover 4 (r0_G4 V c) (fun t _ => r0_flushed4 V c t) r0_cover4

/-! ### The second result: its sums along the flat axis -/

/-- What the second result array ends holding: at slab `n`, the payload of image `n`'s slab. -/
def r0_G5 (c : Dev nD) : Vec F S128x128x1 .f32 := fun i =>
  k0_pay3 (y1blk (xfblk V c (i 0)) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) (ix3 0 (i 1) (i 2))

theorem r0_G5_apply (c : Dev nD) (n co : Fin 128) (j : Fin 1) :
    r0_G5 V c (ix3 n co j) = k0_pay3 (y1blk (xfblk V c n) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) (ix3 0 co j) := rfl

/-- What point `t` writes back is block `t` of that array. -/
theorem r0_flushed5 (c : Dev nD) (t : Fin cfg0.N) :
    (dat0 V c).flushed 5 t = ((cfg0.win 5).blk t).view.read (Elt F) (r0_G5 V c) := by
  show (cfg0.win 5).cut (grid0.coords t) ((dat0 V c).after 5 t) = _
  rw [after0_5]
  unfold outsAt0
  dsimp only
  rw [r0_out5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t) (iblk0 V c 3 t)]
  rw [r0_iblk0, r0_iblk1, r0_iblk2, r0_iblk3]
  obtain ⟨-, -, -, -, -, -, -, -, -, -, -, -, -, -, e0, e1, e2, -⟩ := r0_idx_facts t
  funext y
  have hemb : ((cfg0.win 5).blk t).view.emb y = ix3 (r0_img t) (y 1) (y 2) := funext fun a => Fin.ext (by
    match a with
    | ⟨0, _⟩ => show win0_5.index t (0 : Fin 3) * 1 + 1 * (y 0).val = t.val; have : (y 0).val < 1 := (y 0).isLt; omega
    | ⟨1, _⟩ => show win0_5.index t (1 : Fin 3) * 128 + 1 * (y 1).val = (y 1).val; omega
    | ⟨2, _⟩ => show win0_5.index t (2 : Fin 3) * 1 + 1 * (y 2).val = (y 2).val; omega)
  show k0_pay3 (y1blk (xfblk V c (r0_img t)) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) y = r0_G5 V c (((cfg0.win 5).blk t).view.emb y)
  rw [hemb]
  exact (congrArg _ (r0_unit3 (a := 128) (b := 1) y)).trans (r0_G5_apply V c (r0_img t) (y 1) (y 2)).symm

/-- An index of the array is in point `t`'s block iff each coordinate is in the block's range on its axis. -/
theorem r0_mem_blk5 (t : Fin cfg0.N) (i : S128x128x1.Idx) :
    i ∈ ((cfg0.win 5).blk t).view.set ↔ ∀ a : Fin 3, win0_5.index t a * S1x128x1.size a ≤ (i a).val
      ∧ (i a).val < win0_5.index t a * S1x128x1.size a + S1x128x1.size a := by
  show i ∈ ((View.whole main_v12_1).slice (win0_5.rect t)).set ↔ _
  rw [View.set_slice_whole, Rect.mem_set_unit]
  exact Iff.rfl

/-- Slab `n` of the array is point `n`'s block. -/
theorem r0_cover5 (i : S128x128x1.Idx) :
    ∃ t : Fin cfg0.N, (cfg0.win 5).flush t = true ∧ i ∈ ((cfg0.win 5).blk t).view.set := by
  have h0 : (i 0).val < 128 := (i 0).isLt
  have h1 : (i 1).val < 128 := (i 1).isLt
  have h2 : (i 2).val < 1 := (i 2).isLt
  obtain ⟨t, ht⟩ : ∃ t : Fin cfg0.N, t.val = (i 0).val := ⟨⟨(i 0).val, Nat.lt_of_lt_of_eq h0 N_0.symm⟩, rfl⟩
  refine ⟨t, flush0_5 t, ?_⟩
  obtain ⟨-, -, -, -, -, -, -, -, -, -, -, -, -, -, e0, e1, e2, -⟩ := r0_idx_facts t
  rw [r0_mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 1 ≤ (i 2).val ∧ (i 2).val < win0_5.index t (2 : Fin 3) * 1 + 1; omega

/-- The second result array after the region. -/
theorem r0_final5 (c : Dev nD) : (dat0 V c).arrAt 5 cfg0.N = r0_G5 V c :=
  (dat0 V c).arrAt_eq_of_cover 5 (r0_G5 V c) (fun t _ => r0_flushed5 V c t) r0_cover5

/-! ### The third result: the sums of its squares along the flat axis -/

/-- What the third result array ends holding: at slab `n`, the payload of image `n`'s slab. -/
def r0_G6 (c : Dev nD) : Vec F S128x128x1 .f32 := fun i =>
  k0_pay4 (y1blk (xfblk V c (i 0)) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) (ix3 0 (i 1) (i 2))

theorem r0_G6_apply (c : Dev nD) (n co : Fin 128) (j : Fin 1) :
    r0_G6 V c (ix3 n co j) = k0_pay4 (y1blk (xfblk V c n) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) (ix3 0 co j) := rfl

/-- What point `t` writes back is block `t` of that array. -/
theorem r0_flushed6 (c : Dev nD) (t : Fin cfg0.N) :
    (dat0 V c).flushed 6 t = ((cfg0.win 6).blk t).view.read (Elt F) (r0_G6 V c) := by
  show (cfg0.win 6).cut (grid0.coords t) ((dat0 V c).after 6 t) = _
  rw [after0_6]
  unfold outsAt0
  dsimp only
  rw [r0_out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t) (iblk0 V c 3 t)]
  rw [r0_iblk0, r0_iblk1, r0_iblk2, r0_iblk3]
  obtain ⟨-, -, -, -, -, -, -, -, -, -, -, -, -, -, -, -, -, e0, e1, e2⟩ := r0_idx_facts t
  funext y
  have hemb : ((cfg0.win 6).blk t).view.emb y = ix3 (r0_img t) (y 1) (y 2) := funext fun a => Fin.ext (by
    match a with
    | ⟨0, _⟩ => show win0_6.index t (0 : Fin 3) * 1 + 1 * (y 0).val = t.val; have : (y 0).val < 1 := (y 0).isLt; omega
    | ⟨1, _⟩ => show win0_6.index t (1 : Fin 3) * 128 + 1 * (y 1).val = (y 1).val; omega
    | ⟨2, _⟩ => show win0_6.index t (2 : Fin 3) * 1 + 1 * (y 2).val = (y 2).val; omega)
  show k0_pay4 (y1blk (xfblk V c (r0_img t)) (V c main_v1 : Vec F S3x64x64 .f32)) (k0_pay7 (F := F))
      (tap2 (V c main_v3 : Vec F S3x128x64 .f32) 0) (tap2 (V c main_v3 : Vec F S3x128x64 .f32) 1) (tap2 (V c main_v3 : Vec F S3x128x64 .f32) 2)
      (V c main_v11 : Vec F S1x1224 .f32) y = r0_G6 V c (((cfg0.win 6).blk t).view.emb y)
  rw [hemb]
  exact (congrArg _ (r0_unit3 (a := 128) (b := 1) y)).trans (r0_G6_apply V c (r0_img t) (y 1) (y 2)).symm

/-- An index of the array is in point `t`'s block iff each coordinate is in the block's range on its axis. -/
theorem r0_mem_blk6 (t : Fin cfg0.N) (i : S128x128x1.Idx) :
    i ∈ ((cfg0.win 6).blk t).view.set ↔ ∀ a : Fin 3, win0_6.index t a * S1x128x1.size a ≤ (i a).val
      ∧ (i a).val < win0_6.index t a * S1x128x1.size a + S1x128x1.size a := by
  show i ∈ ((View.whole main_v12_2).slice (win0_6.rect t)).set ↔ _
  rw [View.set_slice_whole, Rect.mem_set_unit]
  exact Iff.rfl

/-- Slab `n` of the array is point `n`'s block. -/
theorem r0_cover6 (i : S128x128x1.Idx) :
    ∃ t : Fin cfg0.N, (cfg0.win 6).flush t = true ∧ i ∈ ((cfg0.win 6).blk t).view.set := by
  have h0 : (i 0).val < 128 := (i 0).isLt
  have h1 : (i 1).val < 128 := (i 1).isLt
  have h2 : (i 2).val < 1 := (i 2).isLt
  obtain ⟨t, ht⟩ : ∃ t : Fin cfg0.N, t.val = (i 0).val := ⟨⟨(i 0).val, Nat.lt_of_lt_of_eq h0 N_0.symm⟩, rfl⟩
  refine ⟨t, flush0_6 t, ?_⟩
  obtain ⟨-, -, -, -, -, -, -, -, -, -, -, -, -, -, -, -, -, e0, e1, e2⟩ := r0_idx_facts t
  rw [r0_mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 1 ≤ (i 2).val ∧ (i 2).val < win0_6.index t (2 : Fin 3) * 1 + 1; omega

/-- The third result array after the region. -/
theorem r0_final6 (c : Dev nD) : (dat0 V c).arrAt 6 cfg0.N = r0_G6 V c :=
  (dat0 V c).arrAt_eq_of_cover 6 (r0_G6 V c) (fun t _ => r0_flushed6 V c t) r0_cover6

/-! ## The three arrays, read at an index -/

/-- The fused region leaves image `n`'s masked second convolution at slab `n` of its first result, … -/
theorem arr0_4_apply (c : Dev nD) (n co : Fin 128) (j : Fin 1224) :
    ((dat0 V c).arrAt 4 cfg0.N : Vec F S128x128x1224 .f32) (ix3 n co j)
      = k0_pay2 (y1blk (xfblk V c n) (V c main_v1 : Vec F S3x64x64 .f32)) (k0_pay7 (F := F))
          (tap2 (V c main_v3 : Vec F S3x128x64 .f32) 0) (tap2 (V c main_v3 : Vec F S3x128x64 .f32) 1) (tap2 (V c main_v3 : Vec F S3x128x64 .f32) 2)
          (V c main_v11 : Vec F S1x1224 .f32) (ix3 0 co j) := by
  rw [r0_final4]
  rfl

/-- … its per-channel sums at row `n` of its second, … -/
theorem arr0_5_apply (c : Dev nD) (n co : Fin 128) :
    ((dat0 V c).arrAt 5 cfg0.N : Vec F S128x128x1 .f32) (ix3 n co 0)
      = k0_pay3 (y1blk (xfblk V c n) (V c main_v1 : Vec F S3x64x64 .f32)) (k0_pay7 (F := F))
          (tap2 (V c main_v3 : Vec F S3x128x64 .f32) 0) (tap2 (V c main_v3 : Vec F S3x128x64 .f32) 1) (tap2 (V c main_v3 : Vec F S3x128x64 .f32) 2)
          (V c main_v11 : Vec F S1x1224 .f32) (ix3 0 co 0) := by
  rw [r0_final5]
  rfl

/-- … and the sums of squares at row `n` of its third. -/
theorem arr0_6_apply (c : Dev nD) (n co : Fin 128) :
    ((dat0 V c).arrAt 6 cfg0.N : Vec F S128x128x1 .f32) (ix3 n co 0)
      = k0_pay4 (y1blk (xfblk V c n) (V c main_v1 : Vec F S3x64x64 .f32)) (k0_pay7 (F := F))
          (tap2 (V c main_v3 : Vec F S3x128x64 .f32) 0) (tap2 (V c main_v3 : Vec F S3x128x64 .f32) 1) (tap2 (V c main_v3 : Vec F S3x128x64 .f32) 2)
          (V c main_v11 : Vec F S1x1224 .f32) (ix3 0 co 0) := by
  rw [r0_final6]
  rfl

end Cert.ReferenceIdeal.Hand

end
-- ==== Proof.RArr1.lean ====
/-
  From blocks to the array, for the reference program's normalising region at any float instance: one grid point per
  image, whose output block is the image's slab of the result, written whole by the body; so the array the pipeline
  leaves holds, at image `n`, the body's payload of image `n`'s slab of the wide result and of the two per-channel columns.
-/
import proofs.«135837_g2000304308963006_pallasbulk_990_2_alg».proof.Proof.Gen.ReferenceIdeal.Frame
import Idealize.ShloMosaic.Lib.ValueIdx
import Idealize.ShloMosaic.Lib.Pipeline.Value
import Mathlib.Tactic.FinCases

set_option maxRecDepth 16384

noncomputable section

namespace Cert.ReferenceIdeal.Hand

open Idealize.ShloMosaic Idealize.ShloMosaic.TcCoe Idealize.ShloMosaic.ValueIdx
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

/-- Image `n`'s slab of the wide result cut into rows of 36. -/
abbrev yblk (c : Dev nD) (n : Fin 128) : Vec F S1x128x34x36 .f32 :=
  fun y => (V c main_v26 : Vec F S128x128x34x36 .f32) (ix4 n (y 1) (y 2) (y 3))

/-- A whole-block rectangle starts at the origin on every axis (rank 4, rank 3). -/
theorem origin4 : (![0, 0, 0, 0] : Fin 4 → Nat) = fun _ => 0 := funext fun a => by fin_cases a <;> rfl
theorem origin3 : (![0, 0, 0] : Fin 3 → Nat) = fun _ => 0 := funext fun a => by fin_cases a <;> rfl

/-- The two per-channel columns, as the region finds them. -/
abbrev colA (c : Dev nD) : Vec F S128x1x1 .f32 := (V c main_v24 : Vec F S128x1x1 .f32)
abbrev colB (c : Dev nD) : Vec F S128x1x1 .f32 := (V c main_v25 : Vec F S128x1x1 .f32)

/-- The whole result as one function of the region's inputs: at image `i 0`, the body's payload of that image's slab
    and of the two columns, read at the remaining three coordinates. -/
abbrev wholeG (c : Dev nD) : Vec F S128x128x34x34 .f32 :=
  fun i => k1_pay1 (yblk V c (i 0)) (colA V c) (colB V c) (ix4 (0 : Fin 1) (i 1) (i 2) (i 3))

/-- The payload at equal blocks and equal indices. -/
theorem pay_congr (x0 x0' : Vec F S1x128x34x36 .f32) (x1 x1' x2 x2' : Vec F S128x1x1 .f32) (j j' : S1x128x34x34.Idx)
    (h0 : x0 = x0') (h1 : x1 = x1') (h2 : x2 = x2') (hj : j = j') :
    k1_pay1 x0 x1 x2 j = k1_pay1 x0' x1' x2' j' := by
  subst h0 h1 h2 hj; rfl

/-- The block index maps over the grid: the wide input's and the output's blocks move with the image on axis 0 and
    sit at the origin elsewhere; the two columns' blocks are the whole columns. -/
theorem index_facts : ∀ t : Fin cfg1.N,
    win1_3.index t (0 : Fin 4) = t.val ∧ win1_3.index t (1 : Fin 4) = 0 ∧ win1_3.index t (2 : Fin 4) = 0 ∧ win1_3.index t (3 : Fin 4) = 0
    ∧ win1_0.index t (0 : Fin 4) = t.val ∧ win1_0.index t (1 : Fin 4) = 0 ∧ win1_0.index t (2 : Fin 4) = 0 ∧ win1_0.index t (3 : Fin 4) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0 :=
  (by decide +kernel : ∀ t : Fin grid1.N, _)

/-- What point `t` writes back is block `t` of the whole-array function. -/
theorem flushed1_3_eq (c : Dev nD) (t : Fin cfg1.N) :
    (dat1 V c).flushed 3 t = ((cfg1.win 3).blk t).view.read (Elt F) (wholeG V c) := by
  show (cfg1.win 3).cut (grid1.coords t) ((dat1 V c).after 3 t) = _
  rw [after1_3]
  unfold out1_3
  rw [View.canon_unit_zero origin4]
  simp only [View.ld_unit_zero (S := S1x128x34x36) origin4, View.ld_unit_zero (S := S128x1x1) origin3]
  obtain ⟨e0, e1, e2, e3, f0, f1, f2, f3, g0, g1, g2, k0, k1, k2⟩ := index_facts t
  funext y
  show k1_pay1 (iblk1 V c 0 t) (iblk1 V c 1 t) (iblk1 V c 2 t) y = wholeG V c (((cfg1.win 3).blk t).view.emb y)
  have hy0 : (y 0).val < 1 := (y 0).isLt
  -- the wide input's block at the point is the slab of the image the output block sits at
  have b0 : (iblk1 V c 0 t : Vec F S1x128x34x36 .f32) = yblk V c (((cfg1.win 3).blk t).view.emb y 0) := by
    funext z
    show V c main_v26 (((cfg1.win 0).blk t).view.emb z) = V c main_v26 (ix4 (((cfg1.win 3).blk t).view.emb y 0) (z 1) (z 2) (z 3))
    refine congrArg (V c main_v26) ?_
    funext a; apply Fin.ext
    have hz0 : (z 0).val < 1 := (z 0).isLt
    match a with
    | ⟨0, _⟩ => show win1_0.index t (0 : Fin 4) * 1 + 1 * (z 0).val = win1_3.index t (0 : Fin 4) * 1 + 1 * (y 0).val; omega
    | ⟨1, _⟩ => show win1_0.index t (1 : Fin 4) * 128 + 1 * (z 1).val = (z 1).val; omega
    | ⟨2, _⟩ => show win1_0.index t (2 : Fin 4) * 34 + 1 * (z 2).val = (z 2).val; omega
    | ⟨3, _⟩ => show win1_0.index t (3 : Fin 4) * 36 + 1 * (z 3).val = (z 3).val; omega
  -- each column's block is the whole column
  have b1 : (iblk1 V c 1 t : Vec F S128x1x1 .f32) = colA V c := by
    funext z
    show V c main_v24 (((cfg1.win 1).blk t).view.emb z) = V c main_v24 z
    refine congrArg (V c main_v24) ?_
    funext a; apply Fin.ext
    match a with
    | ⟨0, _⟩ => show win1_1.index t (0 : Fin 3) * 128 + 1 * (z 0).val = (z 0).val; omega
    | ⟨1, _⟩ => show win1_1.index t (1 : Fin 3) * 1 + 1 * (z 1).val = (z 1).val; omega
    | ⟨2, _⟩ => show win1_1.index t (2 : Fin 3) * 1 + 1 * (z 2).val = (z 2).val; omega
  have b2 : (iblk1 V c 2 t : Vec F S128x1x1 .f32) = colB V c := by
    funext z
    show V c main_v25 (((cfg1.win 2).blk t).view.emb z) = V c main_v25 z
    refine congrArg (V c main_v25) ?_
    funext a; apply Fin.ext
    match a with
    | ⟨0, _⟩ => show win1_2.index t (0 : Fin 3) * 128 + 1 * (z 0).val = (z 0).val; omega
    | ⟨1, _⟩ => show win1_2.index t (1 : Fin 3) * 1 + 1 * (z 1).val = (z 1).val; omega
    | ⟨2, _⟩ => show win1_2.index t (2 : Fin 3) * 1 + 1 * (z 2).val = (z 2).val; omega
  -- inside the block, the output's last three coordinates are the array's
  have hj : y = ix4 (0 : Fin 1) (((cfg1.win 3).blk t).view.emb y 1) (((cfg1.win 3).blk t).view.emb y 2) (((cfg1.win 3).blk t).view.emb y 3) := by
    funext a; apply Fin.ext
    match a with
    | ⟨0, _⟩ => show (y 0).val = 0; omega
    | ⟨1, _⟩ => show (y 1).val = win1_3.index t (1 : Fin 4) * 128 + 1 * (y 1).val; omega
    | ⟨2, _⟩ => show (y 2).val = win1_3.index t (2 : Fin 4) * 34 + 1 * (y 2).val; omega
    | ⟨3, _⟩ => show (y 3).val = win1_3.index t (3 : Fin 4) * 34 + 1 * (y 3).val; omega
  exact pay_congr (iblk1 V c 0 t) (yblk V c (((cfg1.win 3).blk t).view.emb y 0)) (iblk1 V c 1 t) (colA V c) (iblk1 V c 2 t) (colB V c)
    y (ix4 (0 : Fin 1) (((cfg1.win 3).blk t).view.emb y 1) (((cfg1.win 3).blk t).view.emb y 2) (((cfg1.win 3).blk t).view.emb y 3)) b0 b1 b2 hj

/-- An index of the result is in point `t`'s block iff each coordinate is in the block's range on its axis. -/
theorem mem_blk1_3 (t : Fin cfg1.N) (i : S128x128x34x34.Idx) :
    i ∈ ((cfg1.win 3).blk t).view.set ↔ ∀ a : Fin 4, win1_3.index t a * S1x128x34x34.size a ≤ (i a).val
      ∧ (i a).val < win1_3.index t a * S1x128x34x34.size a + S1x128x34x34.size a := by
  show i ∈ ((View.whole main_v27).slice (win1_3.rect t)).set ↔ _
  rw [View.set_slice_whole, Rect.mem_set_unit]
  exact Iff.rfl

/-- Every index of the result lies in the block of the point of its image, and every point writes its block back. -/
theorem cover1_3_arr (i : S128x128x34x34.Idx) :
    ∃ t : Fin cfg1.N, (cfg1.win 3).flush t = true ∧ i ∈ ((cfg1.win 3).blk t).view.set := by
  have hi0 : (i 0).val < 128 := (i 0).isLt
  have hi1 : (i 1).val < 128 := (i 1).isLt
  have hi2 : (i 2).val < 34 := (i 2).isLt
  have hi3 : (i 3).val < 34 := (i 3).isLt
  obtain ⟨t, ht⟩ : ∃ t : Fin cfg1.N, t.val = (i 0).val := ⟨⟨(i 0).val, Nat.lt_of_lt_of_eq hi0 N_1.symm⟩, rfl⟩
  obtain ⟨e0, e1, e2, e3, -⟩ := index_facts t
  refine ⟨t, flush1_3 t, ?_⟩
  rw [mem_blk1_3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 34 ≤ (i 2).val ∧ (i 2).val < win1_3.index t (2 : Fin 4) * 34 + 34; omega
  | ⟨3, _⟩ => show win1_3.index t (3 : Fin 4) * 34 ≤ (i 3).val ∧ (i 3).val < win1_3.index t (3 : Fin 4) * 34 + 34; omega

/-- The array the region leaves is the whole-array function. -/
theorem arr1_3_eq (c : Dev nD) : (dat1 V c).arrAt 3 cfg1.N = wholeG V c :=
  (dat1 V c).arrAt_eq_of_cover 3 (wholeG V c) (fun t _ => flushed1_3_eq V c t) cover1_3_arr

/-- The normalising region leaves image `n`'s result at slab `n` of the program's result. -/
theorem arr1_3_apply (c : Dev nD) (n co : Fin 128) (r q : Fin 34) :
    ((dat1 V c).arrAt 3 cfg1.N : Vec F S128x128x34x34 .f32) (ix4 n co r q)
      = k1_pay1 (yblk V c n) (V c main_v24 : Vec F S128x1x1 .f32) (V c main_v25 : Vec F S128x1x1 .f32) (ix4 0 co r q) := by
  exact congrFun (arr1_3_eq V c) (ix4 n co r q)

end Cert.ReferenceIdeal.Hand

end
-- ==== Proof.SpecRef.lean ====
/-
  The same convolutions in the shape the second program writes them: the padded image arrives unrectified and is
  rectified inside the sum; each tap has its own weight matrix; the second convolution runs over whatever bordered array
  it is handed.  At the padded image, the per-tap slices of the weights and the bordered first convolution these are
  the specification's `c1` and `c2`, term for term.
-/
import proofs.«135837_g2000304308963006_pallasbulk_990_2_alg».proof.Proof.Spec

noncomputable section

open scoped BigOperators

namespace Cert.Spec

/-- First convolution over an unrectified flat image `xf` and per-tap weights `w t cm ci`. -/
def c1R (xf : Fin 64 → ℕ → EReal) (w : Fin 3 → Fin 64 → Fin 64 → EReal) (cm : Fin 64) (j : ℕ) : EReal :=
  ∑ t : Fin 3, ∑ ci : Fin 64, w t cm ci * max (xf ci (t.val * 36 + j)) 0

/-- Second convolution over a bordered array `y` and per-tap weights `w t co cm`. -/
def c2R (y : Fin 64 → ℕ → EReal) (w : Fin 3 → Fin 128 → Fin 64 → EReal) (co : Fin 128) (j : ℕ) : EReal :=
  ∑ t : Fin 3, ∑ cm : Fin 64, w t co cm * y cm (t.val + j)

theorem c1R_pad0 (x : Img) (A : Wt1) (cm : Fin 64) (j : ℕ) :
    c1R (pad0 x) (fun t cm ci => A cm ci t) cm j = c1 x A cm j := rfl

theorem c2R_y1 (x : Img) (A : Wt1) (B : Wt2) (co : Fin 128) (j : ℕ) :
    c2R (y1 x A) (fun t co cm => B co cm t) co j = c2 x A B co j := rfl

end Cert.Spec

end
-- ==== Proof.RPay.lean ====
/-
  The idealized reference's payloads read at an index, at the extended reals.  Its fused kernel rectifies the padded flat
  image, adds up three matrix products (one per row tap, each into a zero accumulator, the running sum started from a
  zero vector), and — once that result sits inside a zero-bordered buffer — adds up three more (one per column tap),
  masks, and reduces along the flat axis; its second kernel drops the two invalid columns of each row, subtracts the
  mean and scales by the inverse deviation.
-/
import proofs.«135837_g2000304308963006_pallasbulk_990_2_alg».proof.Proof.Gen.ReferenceIdeal.Skeleton
import proofs.«135837_g2000304308963006_pallasbulk_990_2_alg».proof.Proof.Spec
import proofs.«135837_g2000304308963006_pallasbulk_990_2_alg».proof.Proof.SpecRef
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Pay

open Idealize.ShloMosaic Idealize.ShloMosaic.ValueIdx Cert.ReferenceIdeal Cert.ReferenceIdeal.Gen

/-- A loaded flat image block by channel and flat column (zero past the end: never read there). -/
abbrev flat (v0 : Vec Ideal S1x64x1224 .f32) : Fin 64 → ℕ → EReal :=
  fun ci j => if h : j < 1224 then v0 (ix3 0 ci ⟨j, h⟩) else 0
/-- The three loaded tap matrices of the first convolution. -/
abbrev taps1 (v5 v10 v15 : Vec Ideal S1x64x64 .f32) : Fin 3 → Fin 64 → Fin 64 → EReal :=
  fun t cm ci => match t with | ⟨0, _⟩ => v5 (ix3 0 cm ci) | ⟨1, _⟩ => v10 (ix3 0 cm ci) | ⟨2, _⟩ => v15 (ix3 0 cm ci)
/-- The bordered buffer by channel and flat column (zero past the end: never read there). -/
abbrev bord (v27 : Vec Ideal S64x1226 .f32) : Fin 64 → ℕ → EReal :=
  fun cm j => if h : j < 1226 then v27 (ix2 cm ⟨j, h⟩) else 0
/-- The three loaded tap matrices of the second convolution. -/
abbrev taps2 (v29 v34 v39 : Vec Ideal S1x128x64 .f32) : Fin 3 → Fin 128 → Fin 64 → EReal :=
  fun t co cm => match t with | ⟨0, _⟩ => v29 (ix3 0 co cm) | ⟨1, _⟩ => v34 (ix3 0 co cm) | ⟨2, _⟩ => v39 (ix3 0 co cm)

/-! ## The first matrix product's operand indices, axis by axis -/

theorem lhs1_0 (i : S64x1152.Idx) (q : dot_S64x64_S64x1152_S64x1152_1_0_0_1_n_n.contr.Idx) :
    (dot_S64x64_S64x1152_S64x1152_1_0_0_1_n_n.lhsIdx i q 0).val = (i 0).val := by
  unfold DotDims.lhsIdx
  rw [dif_neg (show ¬(0 : Fin S64x64.rank) ∈ dot_S64x64_S64x1152_S64x1152_1_0_0_1_n_n.lhsBatch by decide),
    dif_pos (show (0 : Fin S64x64.rank) ∈ dot_S64x64_S64x1152_S64x1152_1_0_0_1_n_n.lhsNonContracting by decide)]
  rfl

theorem lhs1_1 (i : S64x1152.Idx) (q : dot_S64x64_S64x1152_S64x1152_1_0_0_1_n_n.contr.Idx) :
    (dot_S64x64_S64x1152_S64x1152_1_0_0_1_n_n.lhsIdx i q 1).val = (q ⟨0, by decide⟩).val :=
  dot_S64x64_S64x1152_S64x1152_1_0_0_1_n_n.lhsIdx_val_of_single rfl i q

theorem rhs1_0 (i : S64x1152.Idx) (q : dot_S64x64_S64x1152_S64x1152_1_0_0_1_n_n.contr.Idx) :
    (dot_S64x64_S64x1152_S64x1152_1_0_0_1_n_n.rhsIdx i q 0).val = (q ⟨0, by decide⟩).val :=
  dot_S64x64_S64x1152_S64x1152_1_0_0_1_n_n.rhsIdx_val_of_single rfl i q

theorem rhs1_1 (i : S64x1152.Idx) (q : dot_S64x64_S64x1152_S64x1152_1_0_0_1_n_n.contr.Idx) :
    (dot_S64x64_S64x1152_S64x1152_1_0_0_1_n_n.rhsIdx i q 1).val = (i 1).val := by
  unfold DotDims.rhsIdx
  rw [dif_neg (show ¬(1 : Fin S64x1152.rank) ∈ dot_S64x64_S64x1152_S64x1152_1_0_0_1_n_n.rhsBatch by decide),
    dif_pos (show (1 : Fin S64x1152.rank) ∈ dot_S64x64_S64x1152_S64x1152_1_0_0_1_n_n.rhsNonContracting by decide)]
  rfl

/-- A 64 × 64 by 64 × 1152 product into a zero accumulator, at row `cm` and column `j`. -/
theorem mm1_apply (a : FVec Ideal S64x64 .f32) (x : FVec Ideal S64x1152 .f32) (cm : Fin 64) (j : Fin 1152) :
    matmul dot_S64x64_S64x1152_S64x1152_1_0_0_1_n_n none a x (constant (F := Ideal) S64x1152 .f32 0x00000000#32) (ix2 cm j)
      = ∑ ci : Fin 64, a (ix2 cm ci) * x (ix2 ci j) := by
  simp only [matmul]
  rw [Ideal.matmul_constant_zero_apply,
    ← Equiv.sum_comp (contrEquiv1 dot_S64x64_S64x1152_S64x1152_1_0_0_1_n_n 64 rfl rfl).symm]
  refine Finset.sum_congr rfl fun k _ => ?_
  have hk := contrEquiv1_symm_val dot_S64x64_S64x1152_S64x1152_1_0_0_1_n_n 64 rfl rfl k
  have el : dot_S64x64_S64x1152_S64x1152_1_0_0_1_n_n.lhsIdx (ix2 cm j)
      ((contrEquiv1 dot_S64x64_S64x1152_S64x1152_1_0_0_1_n_n 64 rfl rfl).symm k) = ix2 cm k :=
    funext fun a => Fin.ext (by
      match a with
      | ⟨0, _⟩ => exact lhs1_0 _ _
      | ⟨1, _⟩ => exact (lhs1_1 _ _).trans hk)
  have er : dot_S64x64_S64x1152_S64x1152_1_0_0_1_n_n.rhsIdx (ix2 cm j)
      ((contrEquiv1 dot_S64x64_S64x1152_S64x1152_1_0_0_1_n_n 64 rfl rfl).symm k) = ix2 k j :=
    funext fun a => Fin.ext (by
      match a with
      | ⟨0, _⟩ => exact (rhs1_0 _ _).trans hk
      | ⟨1, _⟩ => exact rhs1_1 _ _)
  rw [el, er]

/-- One row tap of the first convolution: the tap matrix without its unit axis, times the rectified image cut from
    column `o`, into a zero accumulator. -/
theorem tap1_apply (w : Vec Ideal S1x64x64 .f32) (v0 : Vec Ideal S1x64x1224 .f32) (o : ℕ) (ho : o + 1152 ≤ 1224)
    (h : S64x1224.Slices ![0, o] S64x1152) (cm : Fin 64) (j : Fin 1152) :
    matmul dot_S64x64_S64x1152_S64x1152_1_0_0_1_n_n none
        (shapeCast S64x64 w shapeCasts_S1x64x64_S64x64 : FVec Ideal S64x64 .f32)
        (extractStridedSlice S64x1152 ![0, o]
          (maximumf (shapeCast S64x1224 v0 shapeCasts_S1x64x1224_S64x1224 : FVec Ideal S64x1224 .f32)
            (broadcast S64x1224 (Scalar.ofBits (F := Ideal) .f32 0x00000000#32))) h : FVec Ideal S64x1152 .f32)
        (constant (F := Ideal) S64x1152 .f32 0x00000000#32) (ix2 cm j)
      = ∑ ci : Fin 64, w (ix3 0 cm ci) * max (flat v0 ci (o + j.val)) 0 := by
  rw [mm1_apply]
  refine Finset.sum_congr rfl fun ci _ => ?_
  have hlt : o + j.val < 1224 := by have := j.isLt; omega
  have hf : flat v0 ci (o + j.val) = v0 (ix3 0 ci ⟨o + j.val, hlt⟩) := dif_pos hlt
  rw [shapeCast_1ab_ab_apply, slice2_axis1_apply o _ h ci j ⟨o + j.val, hlt⟩ rfl, maximumf_apply,
    shapeCast_1ab_ab_apply, broadcast_apply, hf]
  show _ * max _ (Ideal.ofBits .f32 0x00000000#32) = _
  rw [Ideal.ofBits_zero_f32]

/-! ## The second matrix product's operand indices, axis by axis -/

theorem lhs2_0 (i : S128x1224.Idx) (q : dot_S128x64_S64x1224_S128x1224_1_0_0_1_n_n.contr.Idx) :
    (dot_S128x64_S64x1224_S128x1224_1_0_0_1_n_n.lhsIdx i q 0).val = (i 0).val := by
  unfold DotDims.lhsIdx
  rw [dif_neg (show ¬(0 : Fin S128x64.rank) ∈ dot_S128x64_S64x1224_S128x1224_1_0_0_1_n_n.lhsBatch by decide),
    dif_pos (show (0 : Fin S128x64.rank) ∈ dot_S128x64_S64x1224_S128x1224_1_0_0_1_n_n.lhsNonContracting by decide)]
  rfl

theorem lhs2_1 (i : S128x1224.Idx) (q : dot_S128x64_S64x1224_S128x1224_1_0_0_1_n_n.contr.Idx) :
    (dot_S128x64_S64x1224_S128x1224_1_0_0_1_n_n.lhsIdx i q 1).val = (q ⟨0, by decide⟩).val :=
  dot_S128x64_S64x1224_S128x1224_1_0_0_1_n_n.lhsIdx_val_of_single rfl i q

theorem rhs2_0 (i : S128x1224.Idx) (q : dot_S128x64_S64x1224_S128x1224_1_0_0_1_n_n.contr.Idx) :
    (dot_S128x64_S64x1224_S128x1224_1_0_0_1_n_n.rhsIdx i q 0).val = (q ⟨0, by decide⟩).val :=
  dot_S128x64_S64x1224_S128x1224_1_0_0_1_n_n.rhsIdx_val_of_single rfl i q

theorem rhs2_1 (i : S128x1224.Idx) (q : dot_S128x64_S64x1224_S128x1224_1_0_0_1_n_n.contr.Idx) :
    (dot_S128x64_S64x1224_S128x1224_1_0_0_1_n_n.rhsIdx i q 1).val = (i 1).val := by
  unfold DotDims.rhsIdx
  rw [dif_neg (show ¬(1 : Fin S64x1224.rank) ∈ dot_S128x64_S64x1224_S128x1224_1_0_0_1_n_n.rhsBatch by decide),
    dif_pos (show (1 : Fin S64x1224.rank) ∈ dot_S128x64_S64x1224_S128x1224_1_0_0_1_n_n.rhsNonContracting by decide)]
  rfl

/-- A 128 × 64 by 64 × 1224 product into a zero accumulator, at row `co` and column `j`. -/
theorem mm2_apply (a : FVec Ideal S128x64 .f32) (x : FVec Ideal S64x1224 .f32) (co : Fin 128) (j : Fin 1224) :
    matmul dot_S128x64_S64x1224_S128x1224_1_0_0_1_n_n none a x (constant (F := Ideal) S128x1224 .f32 0x00000000#32) (ix2 co j)
      = ∑ cm : Fin 64, a (ix2 co cm) * x (ix2 cm j) := by
  simp only [matmul]
  rw [Ideal.matmul_constant_zero_apply,
    ← Equiv.sum_comp (contrEquiv1 dot_S128x64_S64x1224_S128x1224_1_0_0_1_n_n 64 rfl rfl).symm]
  refine Finset.sum_congr rfl fun k _ => ?_
  have hk := contrEquiv1_symm_val dot_S128x64_S64x1224_S128x1224_1_0_0_1_n_n 64 rfl rfl k
  have el : dot_S128x64_S64x1224_S128x1224_1_0_0_1_n_n.lhsIdx (ix2 co j)
      ((contrEquiv1 dot_S128x64_S64x1224_S128x1224_1_0_0_1_n_n 64 rfl rfl).symm k) = ix2 co k :=
    funext fun a => Fin.ext (by
      match a with
      | ⟨0, _⟩ => exact lhs2_0 _ _
      | ⟨1, _⟩ => exact (lhs2_1 _ _).trans hk)
  have er : dot_S128x64_S64x1224_S128x1224_1_0_0_1_n_n.rhsIdx (ix2 co j)
      ((contrEquiv1 dot_S128x64_S64x1224_S128x1224_1_0_0_1_n_n 64 rfl rfl).symm k) = ix2 k j :=
    funext fun a => Fin.ext (by
      match a with
      | ⟨0, _⟩ => exact (rhs2_0 _ _).trans hk
      | ⟨1, _⟩ => exact rhs2_1 _ _)
  rw [el, er]

/-- One column tap of the second convolution: the tap matrix without its unit axis, times the bordered buffer cut
    from column `o`, into a zero accumulator. -/
theorem tap2_apply (w : Vec Ideal S1x128x64 .f32) (v27 : Vec Ideal S64x1226 .f32) (o : ℕ) (ho : o + 1224 ≤ 1226)
    (h : S64x1226.Slices ![0, o] S64x1224) (co : Fin 128) (j : Fin 1224) :
    matmul dot_S128x64_S64x1224_S128x1224_1_0_0_1_n_n none
        (shapeCast S128x64 w shapeCasts_S1x128x64_S128x64 : FVec Ideal S128x64 .f32)
        (extractStridedSlice S64x1224 ![0, o] v27 h : FVec Ideal S64x1224 .f32)
        (constant (F := Ideal) S128x1224 .f32 0x00000000#32) (ix2 co j)
      = ∑ cm : Fin 64, w (ix3 0 co cm) * bord v27 cm (o + j.val) := by
  rw [mm2_apply]
  refine Finset.sum_congr rfl fun cm _ => ?_
  have hlt : o + j.val < 1226 := by have := j.isLt; omega
  have hb : bord v27 cm (o + j.val) = v27 (ix2 cm ⟨o + j.val, hlt⟩) := dif_pos hlt
  rw [shapeCast_1ab_ab_apply, slice2_axis1_apply o _ h cm j ⟨o + j.val, hlt⟩ rfl, hb]

/-- A vector cast to a column reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the flat axis of a 128 × 1224 array, at channel `co`. -/
theorem rowsum_apply (src : FVec Ideal S128x1224 .f32) (hφ : FKind.Formats .f32)
    (hacc : (0x00000000#32 : BitVec 32) = FKind.add.neutral .f32 hφ) (co : Fin 128) :
    multiReduction (F := Ideal) .add [1] S128 src 0x00000000#32 reduces_S128x1224_S128 hφ hacc (ix1 co)
      = ∑ j : Fin 1224, src (ix2 co j) := by
  refine (Ideal.multiReduction_add_single src 0x00000000#32 reduces_S128x1224_S128 hφ hacc (ix1 co)).trans ?_
  refine Finset.sum_congr rfl fun k _ => ?_
  exact congrArg src (funext fun a => Fin.ext (by match a with | ⟨0, _⟩ => rfl | ⟨1, _⟩ => rfl))

/-! ## The payloads -/

/-- The zero fill of the bordered buffer. -/
theorem k0_pay5_apply (i : S64x1226.Idx) : k0_pay5 (F := Ideal) i = 0 := by
  unfold k0_pay5
  rw [shapeCast_self]
  exact Ideal.ofBits_zero_f32

/-- The zero start of the second running sum. -/
theorem k0_pay7_apply (i : S128x1224.Idx) : k0_pay7 (F := Ideal) i = 0 := by
  unfold k0_pay7
  exact Ideal.ofBits_zero_f32

/-- The first convolution at channel `cm`, flat column `j`. -/
theorem k0_pay6_apply (v0 : Vec Ideal S1x64x1224 .f32) (v5 v10 v15 : Vec Ideal S1x64x64 .f32) (cm : Fin 64) (j : Fin 1152) :
    k0_pay6 (F := Ideal) v0 v5 v10 v15 (ix2 cm j) = Cert.Spec.c1R (flat v0) (taps1 v5 v10 v15) cm j.val := by
  unfold k0_pay6
  rw [shapeCast_self, addf_apply, addf_apply, addf_apply, broadcast_apply,
    tap1_apply _ v0 0 (by omega), tap1_apply _ v0 36 (by omega), tap1_apply _ v0 72 (by omega)]
  show Ideal.ofBits .f32 0x00000000#32 + _ + _ + _ = _
  rw [Ideal.ofBits_zero_f32, zero_add]
  unfold Cert.Spec.c1R
  rw [Fin.sum_univ_three]
  rfl

/-- The masked second convolution at channel `co`, flat column `j`, the running sum started from zero. -/
theorem k0_pay1_apply (v27 : Vec Ideal S64x1226 .f32) (v28 : FVec Ideal S128x1224 .f32) (hv28 : ∀ i, v28 i = 0)
    (v29 v34 v39 : Vec Ideal S1x128x64 .f32) (v44 : Vec Ideal S1x1224 .f32) (co : Fin 128) (j : Fin 1224) :
    k0_pay1 (F := Ideal) v27 v28 v29 v34 v39 v44 (ix2 co j)
      = Cert.Spec.c2R (bord v27) (taps2 v29 v34 v39) co j.val * v44 (ix2 0 j) := by
  unfold k0_pay1
  rw [mulf_apply, addf_apply, addf_apply, addf_apply, hv28, zero_add,
    tap2_apply _ v27 0 (by omega), tap2_apply _ v27 1 (by omega), tap2_apply _ v27 2 (by omega),
    broadcastTo_1b_ab_apply, shapeCast_self]
  unfold Cert.Spec.c2R
  rw [Fin.sum_univ_three]
  rfl

/-- The stored wide result is the masked convolution under a leading unit axis. -/
theorem k0_pay2_apply (v27 : Vec Ideal S64x1226 .f32) (v28 : FVec Ideal S128x1224 .f32)
    (v29 v34 v39 : Vec Ideal S1x128x64 .f32) (v44 : Vec Ideal S1x1224 .f32) (co : Fin 128) (j : Fin 1224) :
    k0_pay2 (F := Ideal) v27 v28 v29 v34 v39 v44 (ix3 0 co j) = k0_pay1 (F := Ideal) v27 v28 v29 v34 v39 v44 (ix2 co j) := by
  unfold k0_pay2
  exact shapeCast_ab_1ab_apply _ _ 0 co j

/-- Its sum along the flat axis. -/
theorem k0_pay3_apply (v27 : Vec Ideal S64x1226 .f32) (v28 : FVec Ideal S128x1224 .f32)
    (v29 v34 v39 : Vec Ideal S1x128x64 .f32) (v44 : Vec Ideal S1x1224 .f32) (co : Fin 128) :
    k0_pay3 (F := Ideal) v27 v28 v29 v34 v39 v44 (ix3 0 co 0)
      = ∑ j : Fin 1224, k0_pay1 (F := Ideal) v27 v28 v29 v34 v39 v44 (ix2 co j) := by
  unfold k0_pay3
  refine (shapeCast_ab_1ab_apply _ _ 0 co 0).trans ?_
  refine (shapeCast_a_a1_apply _ _ co 0).trans ?_
  exact rowsum_apply _ _ _ co

/-- The sum of its squares along the flat axis. -/
theorem k0_pay4_apply (v27 : Vec Ideal S64x1226 .f32) (v28 : FVec Ideal S128x1224 .f32)
    (v29 v34 v39 : Vec Ideal S1x128x64 .f32) (v44 : Vec Ideal S1x1224 .f32) (co : Fin 128) :
    k0_pay4 (F := Ideal) v27 v28 v29 v34 v39 v44 (ix3 0 co 0)
      = ∑ j : Fin 1224, k0_pay1 (F := Ideal) v27 v28 v29 v34 v39 v44 (ix2 co j) * k0_pay1 (F := Ideal) v27 v28 v29 v34 v39 v44 (ix2 co j) := by
  unfold k0_pay4
  refine (shapeCast_ab_1ab_apply _ _ 0 co 0).trans ?_
  refine (shapeCast_a_a1_apply _ _ co 0).trans ?_
  exact rowsum_apply _ _ _ co

/-- The normalising kernel at channel `co`, row `r`, column `q`. -/
theorem k1_pay1_apply (v0 : Vec Ideal S1x128x34x36 .f32) (v3 v7 : Vec Ideal S128x1x1 .f32) (co : Fin 128) (r q : Fin 34) :
    k1_pay1 (F := Ideal) v0 v3 v7 (ix4 0 co r q)
      = (v0 (ix4 0 co r ⟨q.val, by have := q.isLt; omega⟩) - v3 (ix3 co 0 0)) * v7 (ix3 co 0 0) := by
  unfold k1_pay1
  refine (shapeCast_abc_1abc_apply _ _ 0 co r q).trans ?_
  rw [mulf_apply, subf_apply]
  have hb : ∀ w : Vec Ideal S128x1x1 .f32,
      broadcastTo S128x34x34 (shapeCast S128x1x1 w shapeCasts_S128x1x1_S128x1x1 : FVec Ideal S128x1x1 .f32)
        broadcasts_S128x1x1_S128x34x34 (ix3 co r q) = w (ix3 co 0 0) := fun w => by
    rw [shapeCast_self]
    exact broadcastTo_apply w _ (ix3 co r q) (ix3 co 0 0) fun a => by
      match a with
      | ⟨0, _⟩ => rfl
      | ⟨1, _⟩ => rfl
      | ⟨2, _⟩ => rfl
  rw [hb v3, hb v7]
  have hs : extractStridedSlice S128x34x34 ![0, 0, 0]
      (shapeCast S128x34x36 v0 shapeCasts_S1x128x34x36_S128x34x36 : FVec Ideal S128x34x36 .f32)
      slices_S128x34x36_o0_0_0_S128x34x34 (ix3 co r q)
        = v0 (ix4 0 co r ⟨q.val, by have := q.isLt; omega⟩) := by
    refine (extractStridedSlice_apply _ _ _ (ix3 co r q) (ix3 co r ⟨q.val, by have := q.isLt; omega⟩) fun a => ?_).trans ?_
    · match a with
      | ⟨0, _⟩ => exact (Nat.zero_add _).symm
      | ⟨1, _⟩ => exact (Nat.zero_add _).symm
      | ⟨2, _⟩ => exact (Nat.zero_add _).symm
    · exact shapeCast_1abc_abc_apply _ _ co r _
  rw [hs]

end Cert.ReferenceIdeal.Pay

end
-- ==== Proof.RHost.lean ====
/-
  What the idealized reference program's host operations compute, at the extended reals, read at an index.  Before the
  fused region: each weight array's trailing unit axis is dropped and its tap axis moved to the front; the image batch is
  zero-padded by one row above and below and two columns left and right and its rows are laid end to end.  Between the
  regions: each channel's per-image sums are added over the batch and divided by the count, giving mean, biased variance
  and inverse deviation, each reshaped to a column; the wide result's flat axis is cut into rows of 36.
-/
import proofs.«135837_g2000304308963006_pallasbulk_990_2_alg».proof.Proof.Gen.ReferenceIdeal.Launch
import proofs.«135837_g2000304308963006_pallasbulk_990_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws
import Idealize.ShloMosaic.Lib.KernelVsHost

noncomputable section

open scoped BigOperators

namespace Cert.ReferenceIdeal.HostVal

open Idealize.ShloMosaic Idealize.ShloMosaic.TcCoe Idealize.ShloMosaic.ValueIdx Cert.ReferenceIdeal Cert.ReferenceIdeal.Gen

/-- The first weights of a valuation, by output channel, input channel, tap. -/
abbrev Aof (V : Valuation τ sig (Elt Ideal)) : Cert.Spec.Wt1 := fun cm ci t => (V (Proc.devRef .tc main_arg1) : S64x64x3x1.Idx → EReal) (ix4 cm ci t 0)
/-- The second weights of a valuation. -/
abbrev Bof (V : Valuation τ sig (Elt Ideal)) : Cert.Spec.Wt2 := fun co cm t => (V (Proc.devRef .tc main_arg2) : S128x64x1x3.Idx → EReal) (ix4 co cm 0 t)
/-- Image `n` of a valuation's batch. -/
abbrev Xof (V : Valuation τ sig (Elt Ideal)) (n : Fin 128) : Cert.Spec.Img := fun ci h w => (V (Proc.devRef .tc main_arg0) : S128x64x32x32.Idx → EReal) (ix4 n ci h w)

/-- The buffers when the fused region is entered, from the launch contents `V`. -/
abbrev H5 (V : Valuation τ sig (Elt Ideal)) : Valuation τ sig (Elt Ideal) :=
  StableHlo.after hostOps0_4 (StableHlo.after hostOps0_3 (StableHlo.after hostOps0_2 (StableHlo.after hostOps0_1 (StableHlo.after hostOps0 V))))

/-! ## Reading the shape operations at an index -/

/-- A rank-3 array with its last axis moved to the front reads, at `(t, i, j)`, the operand at `(i, j, t)`. -/
theorem transpose_ix3_201_apply {α : Type} {a b c : ℕ} (x : (⟨3, ![a, b, c]⟩ : Shape).Idx → α)
    (h : (⟨3, ![a, b, c]⟩ : Shape).Transposes [2, 0, 1] ⟨3, ![c, a, b]⟩) (t : Fin c) (i : Fin a) (j : Fin b) :
    transpose ⟨3, ![c, a, b]⟩ [2, 0, 1] x h (ix3 t i j) = x (ix3 i j t) :=
  transpose_apply _ x h _ _ fun d => match d with | ⟨0, _⟩ => rfl | ⟨1, _⟩ => rfl | ⟨2, _⟩ => rfl

/-- The first weights, tap axis in front. -/
theorem v1_val (V : Valuation τ sig (Elt Ideal)) :
    (H5 V (Proc.devRef .tc main_v1) : S3x64x64.Idx → EReal) = fun i => Aof V (i 1) (i 2) (i 0) := by
  show StableHlo.after hostOps0_4 (StableHlo.after hostOps0_3 (StableHlo.after hostOps0_2 (StableHlo.after hostOps0_1 (StableHlo.after hostOps0 V)))) (Proc.devRef .tc main_v1) = _
  after_results
  funext i
  obtain ⟨t, cm, ci, rfl⟩ : ∃ t cm ci, i = ix3 t cm ci := ⟨_, _, _, eq_ix3 i⟩
  show transpose S3x64x64 [2, 0, 1]
      (fun i => shapeCast S64x64x3 (V (Proc.devRef .tc main_arg1) : S64x64x3x1.Idx → EReal) shapeCasts_S64x64x3x1_S64x64x3 i)
      transposes_S64x64x3_S3x64x64_2_0_1 (ix3 t cm ci)
    = (V (Proc.devRef .tc main_arg1) : S64x64x3x1.Idx → EReal) (ix4 cm ci t 0)
  rw [transpose_ix3_201_apply]
  exact shapeCast_apply (s := S64x64x3x1) (t := S64x64x3) _ _ _ (ix4 cm ci t 0) (by
    show (S64x64x3x1.rowMajor (ix4 cm ci t 0)).val = (S64x64x3.rowMajor (ix3 cm ci t)).val
    rw [Shape.rowMajor_val_four, Shape.rowMajor_val_three]
    show ((cm.val * 64 + ci.val) * 3 + t.val) * 1 + 0 = (cm.val * 64 + ci.val) * 3 + t.val
    omega)

/-- The second weights, tap axis in front. -/
theorem v3_val (V : Valuation τ sig (Elt Ideal)) :
    (H5 V (Proc.devRef .tc main_v3) : S3x128x64.Idx → EReal) = fun i => Bof V (i 1) (i 2) (i 0) := by
  show StableHlo.after hostOps0_4 (StableHlo.after hostOps0_3 (StableHlo.after hostOps0_2 (StableHlo.after hostOps0_1 (StableHlo.after hostOps0 V)))) (Proc.devRef .tc main_v3) = _
  after_results
  funext i
  obtain ⟨t, co, cm, rfl⟩ : ∃ t co cm, i = ix3 t co cm := ⟨_, _, _, eq_ix3 i⟩
  show transpose S3x128x64 [2, 0, 1]
      (fun i => shapeCast S128x64x3 (V (Proc.devRef .tc main_arg2) : S128x64x1x3.Idx → EReal) shapeCasts_S128x64x1x3_S128x64x3 i)
      transposes_S128x64x3_S3x128x64_2_0_1 (ix3 t co cm)
    = (V (Proc.devRef .tc main_arg2) : S128x64x1x3.Idx → EReal) (ix4 co cm 0 t)
  rw [transpose_ix3_201_apply]
  exact shapeCast_apply (s := S128x64x1x3) (t := S128x64x3) _ _ _ (ix4 co cm 0 t) (by
    show (S128x64x1x3.rowMajor (ix4 co cm 0 t)).val = (S128x64x3.rowMajor (ix3 co cm t)).val
    rw [Shape.rowMajor_val_four, Shape.rowMajor_val_three]
    show ((co.val * 64 + cm.val) * 1 + 0) * 3 + t.val = (co.val * 64 + cm.val) * 3 + t.val
    omega)

/-- The integer zero, converted, is the padding value `0`. -/
theorem padValue_eq : (sitofp .f32 (constantI S_ 32 0#32) : FVec Ideal S_ .f32) (Shape.Idx.first h_S_) = (0 : EReal) := by
  show ((((0#32 : BitVec 32).toInt : ℤ) : ℝ) : EReal) = 0
  simp

/-- The zero-padded batch, rows laid end to end. -/
theorem v5_val (V : Valuation τ sig (Elt Ideal)) :
    (H5 V (Proc.devRef .tc main_v5) : S128x64x1224.Idx → EReal) = fun i => Cert.Spec.pad0 (Xof V (i 0)) (i 1) (i 2).val := by
  show StableHlo.after hostOps0_4 (StableHlo.after hostOps0_3 (StableHlo.after hostOps0_2 (StableHlo.after hostOps0_1 (StableHlo.after hostOps0 V)))) (Proc.devRef .tc main_v5) = _
  after_results
  funext i
  obtain ⟨n, ci, j, rfl⟩ : ∃ n ci j, i = ix3 n ci j := ⟨_, _, _, eq_ix3 i⟩
  show shapeCast S128x64x1224
      (pad S128x64x34x36 ![0, 0, 1, 2] ![0, 0, 1, 2] ![0, 0, 0, 0] (V (Proc.devRef .tc main_arg0) : S128x64x32x32.Idx → EReal)
        (sitofp .f32 (constantI S_ 32 0#32) : FVec Ideal S_ .f32) pads_S128x64x32x32_S128x64x34x36_000_000_110_220 h_S_)
      shapeCasts_S128x64x34x36_S128x64x1224 (ix3 n ci j)
    = Cert.Spec.pad0 (Xof V n) ci j.val
  have hj : j.val < 1224 := j.isLt
  have hr : j.val / 36 < 34 := by omega
  have hc : j.val % 36 < 36 := Nat.mod_lt _ (by decide)
  rw [shapeCast_apply (s := S128x64x34x36) (t := S128x64x1224) _ _ _ (ix4 n ci ⟨j.val / 36, hr⟩ ⟨j.val % 36, hc⟩) (by
    show (S128x64x34x36.rowMajor (ix4 n ci ⟨j.val / 36, hr⟩ ⟨j.val % 36, hc⟩)).val = (S128x64x1224.rowMajor (ix3 n ci j)).val
    rw [Shape.rowMajor_val_four, Shape.rowMajor_val_three]
    show ((n.val * 64 + ci.val) * 34 + j.val / 36) * 36 + j.val % 36 = (n.val * 64 + ci.val) * 1224 + j.val
    omega)]
  unfold Cert.Spec.pad0
  by_cases h : Cert.Spec.Inside j.val
  · rw [dif_pos h]
    obtain ⟨⟨h1, h2⟩, h3, h4⟩ := h
    exact pad_apply_of_inside (s := S128x64x32x32) (t := S128x64x34x36) _ _ _ _ _ _ _ _
      (ix4 n ci ⟨j.val / 36 - 1, by omega⟩ ⟨j.val % 36 - 2, by omega⟩) (fun a => match a with
        | ⟨0, _⟩ => by show n.val = 0 + n.val * (0 + 1); omega
        | ⟨1, _⟩ => by show ci.val = 0 + ci.val * (0 + 1); omega
        | ⟨2, _⟩ => by show j.val / 36 = 1 + (j.val / 36 - 1) * (0 + 1); omega
        | ⟨3, _⟩ => by show j.val % 36 = 2 + (j.val % 36 - 2) * (0 + 1); omega)
  · rw [dif_neg h]
    by_cases hrow : 1 ≤ j.val / 36 ∧ j.val / 36 ≤ 32
    · have hcol : ¬(2 ≤ j.val % 36 ∧ j.val % 36 ≤ 33) := fun hc' => h ⟨hrow, hc'⟩
      rw [pad_apply_of_not_inside (s := S128x64x32x32) (t := S128x64x34x36) _ _ _ _ _ _ _ _ (3 : Fin 4) (by
        show ¬(2 ≤ j.val % 36 ∧ (j.val % 36 - 2) % (0 + 1) = 0 ∧ (j.val % 36 - 2) / (0 + 1) < 32)
        omega)]
      exact padValue_eq
    · rw [pad_apply_of_not_inside (s := S128x64x32x32) (t := S128x64x34x36) _ _ _ _ _ _ _ _ (2 : Fin 4) (by
        show ¬(1 ≤ j.val / 36 ∧ (j.val / 36 - 1) % (0 + 1) = 0 ∧ (j.val / 36 - 1) / (0 + 1) < 32)
        omega)]
      exact padValue_eq

/-- Between the regions, from the contents `U` the fused region leaves: a channel's per-image sums and sums of squares
    are columns of its second and third results. -/
abbrev Pof (U : Valuation τ sig (Elt Ideal)) (co : Fin 128) : Fin 128 → EReal := fun n => (U (Proc.devRef .tc main_v12_1) : S128x128x1.Idx → EReal) (ix3 n co 0)
abbrev Qof (U : Valuation τ sig (Elt Ideal)) (co : Fin 128) : Fin 128 → EReal := fun n => (U (Proc.devRef .tc main_v12_2) : S128x128x1.Idx → EReal) (ix3 n co 0)

/-! ## The statistics between the regions -/

/-- A `[128, 128, 1]` array summed over its first axis and divided by the count: the host's column of means. -/
abbrev meanCol (x : FVec Ideal S128x128x1 .f32) : FVec Ideal S128x1 .f32 :=
  Host.divf (Host.reduceAdd x (constant S_ .f32 0x00000000#32) reducesTo_S128x128x1_S128x1_d0 h_S_)
    (broadcastInDim S128x1 ![] bcast_S_S128x1 (constant S_ .f32 0x48108000#32))

/-- At channel `co` it is the batch sum of the channel's entries divided by the count. -/
theorem meanCol_apply (x : FVec Ideal S128x128x1 .f32) (co : Fin 128) :
    meanCol x (ix2 co 0) = Ideal.div (∑ n : Fin 128, x (ix3 n co 0)) Cert.Spec.cntE := by
  unfold meanCol
  rw [hostDivf_apply, hostReduceAdd_apply, broadcastInDim_scalar_apply, constant_apply, constant_apply, Ideal.ofBits_zero_f32,
    Ideal.hostReduceAdd_single reducesTo_S128x128x1_S128x1_d0 (by decide : S128x128x1.Reduces [0] S128x1), zero_add]
  unfold Cert.Spec.cntE
  exact congrArg (fun s => Ideal.div s (Ideal.ofBits .f32 0x48108000#32)) (Finset.sum_congr rfl fun n _ => congrArg x
    (funext fun a => match a with | ⟨0, _⟩ => rfl | ⟨1, _⟩ => rfl | ⟨2, _⟩ => rfl))

/-- A column read through the cast to `[128, 1, 1]`. -/
theorem col_cast_apply (y : FVec Ideal S128x1 .f32) (co : Fin 128) (a b : Fin 1) :
    shapeCast S128x1x1 y shapeCasts_S128x1_S128x1x1 (ix3 co a b) = y (ix2 co 0) :=
  shapeCast_apply (s := S128x1) (t := S128x1x1) _ _ _ (ix2 co 0) (by
    show (S128x1.rowMajor (ix2 co 0)).val = (S128x1x1.rowMajor (ix3 co a b)).val
    rw [Shape.rowMajor_val_two, Shape.rowMajor_val_three]
    show co.val * 1 + 0 = (co.val * 1 + a.val) * 1 + b.val
    omega)

/-- The mean, as a column. -/
theorem v24_val (U : Valuation τ sig (Elt Ideal)) :
    (StableHlo.after hostOps1 U (Proc.devRef .tc main_v24) : S128x1x1.Idx → EReal) = fun i => Cert.Spec.meanE (Pof U (i 0)) := by
  show StableHlo.after hostOps1 U (Proc.devRef .tc main_v24) = _
  after_results
  funext i
  obtain ⟨co, a, b, rfl⟩ : ∃ co a b, i = ix3 co a b := ⟨_, _, _, eq_ix3 i⟩
  show shapeCast S128x1x1 (meanCol (U (Proc.devRef .tc main_v12_1) : S128x128x1.Idx → EReal)) shapeCasts_S128x1_S128x1x1 (ix3 co a b)
    = Cert.Spec.meanE (Pof U co)
  rw [col_cast_apply, meanCol_apply]
  rfl

/-- The inverse deviation, as a column. -/
theorem v25_val (U : Valuation τ sig (Elt Ideal)) :
    (StableHlo.after hostOps1 U (Proc.devRef .tc main_v25) : S128x1x1.Idx → EReal) = fun i => Cert.Spec.rstdE (Pof U (i 0)) (Qof U (i 0)) := by
  show StableHlo.after hostOps1 U (Proc.devRef .tc main_v25) = _
  after_results
  funext i
  obtain ⟨co, a, b, rfl⟩ : ∃ co a b, i = ix3 co a b := ⟨_, _, _, eq_ix3 i⟩
  show shapeCast S128x1x1
      (Host.rsqrt (addf (subf (meanCol (U (Proc.devRef .tc main_v12_2) : S128x128x1.Idx → EReal))
          (mulf (meanCol (U (Proc.devRef .tc main_v12_1) : S128x128x1.Idx → EReal)) (meanCol (U (Proc.devRef .tc main_v12_1) : S128x128x1.Idx → EReal))))
        (broadcastInDim S128x1 ![] bcast_S_S128x1 (constant S_ .f32 0x3727C5AC#32))))
      shapeCasts_S128x1_S128x1x1 (ix3 co a b)
    = Cert.Spec.rstdE (Pof U co) (Qof U co)
  rw [col_cast_apply]
  show Ideal.rsqrt (meanCol (U (Proc.devRef .tc main_v12_2) : S128x128x1.Idx → EReal) (ix2 co 0)
      - meanCol (U (Proc.devRef .tc main_v12_1) : S128x128x1.Idx → EReal) (ix2 co 0) * meanCol (U (Proc.devRef .tc main_v12_1) : S128x128x1.Idx → EReal) (ix2 co 0)
      + broadcastInDim S128x1 ![] bcast_S_S128x1 (constant (F := Ideal) S_ .f32 0x3727C5AC#32) (ix2 co 0)) = _
  rw [meanCol_apply, meanCol_apply, broadcastInDim_scalar_apply, constant_apply]
  rfl

/-- The wide result with its flat axis cut into rows of 36. -/
theorem v26_val (U : Valuation τ sig (Elt Ideal)) :
    (StableHlo.after hostOps1 U (Proc.devRef .tc main_v26) : S128x128x34x36.Idx → EReal)
      = fun i => (U (Proc.devRef .tc main_v12_0) : S128x128x1224.Idx → EReal)
          (ix3 (i 0) (i 1) ⟨(i 2).val * 36 + (i 3).val, by have h2 : (i 2).val < 34 := (i 2).isLt; have h3 : (i 3).val < 36 := (i 3).isLt; omega⟩) := by
  show StableHlo.after hostOps1 U (Proc.devRef .tc main_v26) = _
  after_results
  funext i
  obtain ⟨n, co, r, q, rfl⟩ : ∃ n co r q, i = ix4 n co r q := ⟨_, _, _, _, eq_ix4 i⟩
  have hr : r.val < 34 := r.isLt
  have hq : q.val < 36 := q.isLt
  exact shapeCast_apply (s := S128x128x1224) (t := S128x128x34x36) _ _ _ (ix3 n co ⟨r.val * 36 + q.val, by omega⟩) (by
    show (S128x128x1224.rowMajor (ix3 n co ⟨r.val * 36 + q.val, by omega⟩)).val = (S128x128x34x36.rowMajor (ix4 n co r q)).val
    rw [Shape.rowMajor_val_three, Shape.rowMajor_val_four]
    show (n.val * 128 + co.val) * 1224 + (r.val * 36 + q.val) = ((n.val * 128 + co.val) * 34 + r.val) * 36 + q.val
    omega)

end Cert.ReferenceIdeal.HostVal

end
-- ==== Proof.RMask.lean ====
/-
  The mask of the valid columns, as the idealized reference program's host operations build it: the flat column index
  `j < 1224`, its remainder modulo the row width 36 (the remainder of the divisor's sign, then corrected — the dividend is
  never negative, so the correction never fires), compared below 34, widened to a float: one on the 34 valid columns of
  every flat row, zero on the other two.
-/
import proofs.«135837_g2000304308963006_pallasbulk_990_2_alg».proof.Proof.Gen.ReferenceIdeal.Launch
import proofs.«135837_g2000304308963006_pallasbulk_990_2_alg».proof.Proof.Spec
import proofs.«135837_g2000304308963006_pallasbulk_990_2_alg».proof.Proof.MaskWord
import Idealize.ShloMosaic.Lib.ValueIdx
import Idealize.ShloMosaic.Lib.Pipeline.Value
import Idealize.ShloMosaic.Lib.StableHlo.Run
import Idealize.ShloMosaic.Lib.IdealHost

noncomputable section

namespace Cert.ReferenceIdeal.HostVal

open Idealize.ShloMosaic Idealize.ShloMosaic.TcCoe Idealize.ShloMosaic.ValueIdx Cert.ReferenceIdeal Cert.ReferenceIdeal.Gen

theorem v11_val (V : Valuation τ sig (Elt Ideal)) :
    (StableHlo.after hostOps0_4 (StableHlo.after hostOps0_3 (StableHlo.after hostOps0_2 (StableHlo.after hostOps0_1 (StableHlo.after hostOps0 V)))) (Proc.devRef .tc main_v11) : S1x1224.Idx → EReal)
      = fun i => Cert.Spec.msk (i 1).val := by
  show StableHlo.after _ _ _ = _
  -- the buffer's contents as one composed term of the host operations
  after_results_simp
  funext i
  -- an index of the [1, 1224] result has row 0, so its row-major position is its column: the reshape reads column (i 1)
  have hi0 : (i 0).val = 0 := by have := (i 0).isLt; change (i 0).val < 1 at this; omega
  refine (shapeCast_apply (s := S1224) (t := S1x1224) _ shapeCasts_S1224_S1x1224 i (ix1 (i 1)) ?_).trans ?_
  · rw [Shape.rowMajor_val_one, Shape.rowMajor_val_two]
    show (i 1).val = (i 0).val * 1224 + (i 1).val
    omega
  -- at column j the chain is the word arithmetic of the mask bit (iota reads the word of j, every broadcast of a
  -- scalar reads the scalar), widened
  · exact Cert.MaskWord.uitofp_colBit (i 1).val (i 1).isLt

end Cert.ReferenceIdeal.HostVal

end
-- ==== Proof.RChain.lean ====
/-
  The idealized reference program's result as ONE function of the launch arrays: the last boundary's contents at the
  result buffer are, at image n, channel co, row r, column q, the specification's `outR` — the masked second convolution
  minus the mean, times the inverse deviation — of the batch and the two weight arrays the program was launched with.
  The chain: what the fused region is entered with (the weights tap-major, the padded flat batch, the mask); what it
  leaves (the masked second convolution, its per-image sums and sums of squares: the scratch buffer it reads back is the
  first convolution inside a zero border); what the host makes of that (mean and inverse deviation as columns, the wide
  result cut into rows); and the normalising region's payload of those.
-/
import proofs.«135837_g2000304308963006_pallasbulk_990_2_alg».proof.Proof.RefRun
import proofs.«135837_g2000304308963006_pallasbulk_990_2_alg».proof.Proof.RArr0
import proofs.«135837_g2000304308963006_pallasbulk_990_2_alg».proof.Proof.RArr1
import proofs.«135837_g2000304308963006_pallasbulk_990_2_alg».proof.Proof.RPay
import proofs.«135837_g2000304308963006_pallasbulk_990_2_alg».proof.Proof.RHost
import proofs.«135837_g2000304308963006_pallasbulk_990_2_alg».proof.Proof.RMask
import proofs.«135837_g2000304308963006_pallasbulk_990_2_alg».proof.Proof.Spec
import proofs.«135837_g2000304308963006_pallasbulk_990_2_alg».proof.Proof.SpecRef
import Idealize.ShloMosaic.Lib.ValueIdx

set_option maxRecDepth 16384

noncomputable section

open scoped BigOperators

namespace Cert.ReferenceIdeal.Hand

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg)

/-- The launch memory's image batch, first weights and second weights on core `c`, by coordinates. -/
abbrev Xm (c : Dev nD) : Fin 128 → Cert.Spec.Img := fun n ci h w => (m ((c : Thread nD τ).loc main_arg0) : S128x64x32x32.Idx → EReal) (ix4 n ci h w)
abbrev Am (c : Dev nD) : Cert.Spec.Wt1 := fun cm ci t => (m ((c : Thread nD τ).loc main_arg1) : S64x64x3x1.Idx → EReal) (ix4 cm ci t 0)
abbrev Bm (c : Dev nD) : Cert.Spec.Wt2 := fun co cm t => (m ((c : Thread nD τ).loc main_arg2) : S128x64x1x3.Idx → EReal) (ix4 co cm 0 t)

open Cert.ReferenceIdeal.HostVal Cert.ReferenceIdeal.Pay

/-! ## What the fused region is entered with -/

theorem V5_v1 (c : Dev nD) : (V5 m ρ c main_v1 : S3x64x64.Idx → EReal) = fun i => Am m c (i 1) (i 2) (i 0) :=
  v1_val (W0 m ρ c)
theorem V5_v3 (c : Dev nD) : (V5 m ρ c main_v3 : S3x128x64.Idx → EReal) = fun i => Bm m c (i 1) (i 2) (i 0) :=
  v3_val (W0 m ρ c)
theorem V5_v5 (c : Dev nD) : (V5 m ρ c main_v5 : S128x64x1224.Idx → EReal) = fun i => Cert.Spec.pad0 (Xm m c (i 0)) (i 1) (i 2).val :=
  v5_val (W0 m ρ c)
theorem V5_v11 (c : Dev nD) : (V5 m ρ c main_v11 : S1x1224.Idx → EReal) = fun i => Cert.Spec.msk (i 1).val :=
  v11_val (W0 m ρ c)

/-- Image `n`'s loaded flat block is the zero-padded image (past the end both are zero). -/
theorem flat_V5 (c : Dev nD) (n : Fin 128) : flat (xfblk (V5 m ρ) c n) = Cert.Spec.pad0 (Xm m c n) := by
  funext ci j
  by_cases h : j < 1224
  · rw [show flat (xfblk (V5 m ρ) c n) ci j = (V5 m ρ c main_v5 : S128x64x1224.Idx → EReal) (ix3 n ci ⟨j, h⟩) from dif_pos h]
    exact congrFun (V5_v5 m ρ c) (ix3 n ci ⟨j, h⟩)
  · rw [show flat (xfblk (V5 m ρ) c n) ci j = 0 from dif_neg h]
    unfold Cert.Spec.pad0
    rw [dif_neg]
    rintro ⟨⟨_, h2⟩, _⟩
    omega

theorem taps1_V5 (c : Dev nD) :
    taps1 (tap1 (V5 m ρ c main_v1 : Vec Ideal S3x64x64 .f32) 0) (tap1 (V5 m ρ c main_v1 : Vec Ideal S3x64x64 .f32) 1) (tap1 (V5 m ρ c main_v1 : Vec Ideal S3x64x64 .f32) 2)
      = fun t cm ci => Am m c cm ci t := by
  funext t cm ci
  match t with
  | ⟨0, _⟩ => exact congrFun (V5_v1 m ρ c) (ix3 0 cm ci)
  | ⟨1, _⟩ => exact congrFun (V5_v1 m ρ c) (ix3 1 cm ci)
  | ⟨2, _⟩ => exact congrFun (V5_v1 m ρ c) (ix3 2 cm ci)

theorem taps2_V5 (c : Dev nD) :
    taps2 (tap2 (V5 m ρ c main_v3 : Vec Ideal S3x128x64 .f32) 0) (tap2 (V5 m ρ c main_v3 : Vec Ideal S3x128x64 .f32) 1) (tap2 (V5 m ρ c main_v3 : Vec Ideal S3x128x64 .f32) 2)
      = fun t co cm => Bm m c co cm t := by
  funext t co cm
  match t with
  | ⟨0, _⟩ => exact congrFun (V5_v3 m ρ c) (ix3 0 co cm)
  | ⟨1, _⟩ => exact congrFun (V5_v3 m ρ c) (ix3 1 co cm)
  | ⟨2, _⟩ => exact congrFun (V5_v3 m ρ c) (ix3 2 co cm)

/-- The scratch buffer as read back is the first convolution inside its zero border. -/
theorem bord_V5 (c : Dev nD) (n : Fin 128) :
    bord (y1blk (xfblk (V5 m ρ) c n) (V5 m ρ c main_v1 : Vec Ideal S3x64x64 .f32)) = Cert.Spec.y1 (Xm m c n) (Am m c) := by
  funext cm j
  unfold Cert.Spec.y1
  by_cases h : j < 1226
  · rw [show bord (y1blk (xfblk (V5 m ρ) c n) (V5 m ρ c main_v1 : Vec Ideal S3x64x64 .f32)) cm j
        = y1blk (xfblk (V5 m ρ) c n) (V5 m ρ c main_v1 : Vec Ideal S3x64x64 .f32) (ix2 cm ⟨j, h⟩) from dif_pos h]
    unfold y1blk
    by_cases hj : 36 ≤ j ∧ j < 1188
    · rw [dif_pos (show 36 ≤ ((ix2 cm (⟨j, h⟩ : Fin 1226) : S64x1226.Idx) 1).val ∧ ((ix2 cm (⟨j, h⟩ : Fin 1226) : S64x1226.Idx) 1).val < 1188 from hj), if_pos hj]
      rw [k0_pay6_apply, flat_V5, taps1_V5]
      rfl
    · rw [dif_neg (show ¬ (36 ≤ ((ix2 cm (⟨j, h⟩ : Fin 1226) : S64x1226.Idx) 1).val ∧ ((ix2 cm (⟨j, h⟩ : Fin 1226) : S64x1226.Idx) 1).val < 1188) from hj), if_neg hj]
      exact k0_pay5_apply _
  · rw [show bord (y1blk (xfblk (V5 m ρ) c n) (V5 m ρ c main_v1 : Vec Ideal S3x64x64 .f32)) cm j = 0 from dif_neg h]
    rw [if_neg (by omega)]

/-- The fused kernel's masked convolution of image `n` is the specification's. -/
theorem pay1_V5 (c : Dev nD) (n co : Fin 128) (j : Fin 1224) :
    k0_pay1 (F := Ideal) (y1blk (xfblk (V5 m ρ) c n) (V5 m ρ c main_v1 : Vec Ideal S3x64x64 .f32)) (k0_pay7 (F := Ideal))
        (tap2 (V5 m ρ c main_v3 : Vec Ideal S3x128x64 .f32) 0) (tap2 (V5 m ρ c main_v3 : Vec Ideal S3x128x64 .f32) 1) (tap2 (V5 m ρ c main_v3 : Vec Ideal S3x128x64 .f32) 2)
        (V5 m ρ c main_v11 : Vec Ideal S1x1224 .f32) (ix2 co j)
      = Cert.Spec.am (Xm m c n) (Am m c) (Bm m c) co j.val := by
  rw [k0_pay1_apply _ _ k0_pay7_apply, bord_V5, taps2_V5]
  rw [show (V5 m ρ c main_v11 : Vec Ideal S1x1224 .f32) (ix2 0 j) = Cert.Spec.msk j.val from congrFun (V5_v11 m ρ c) (ix2 0 j)]
  rfl

/-! ## What the fused region leaves -/

theorem W6_v12_0 (c : Dev nD) (n co : Fin 128) (j : Fin 1224) :
    (W6 m ρ c (Proc.devRef .tc main_v12_0) : S128x128x1224.Idx → EReal) (ix3 n co j) = Cert.Spec.am (Xm m c n) (Am m c) (Bm m c) co j.val := by
  rw [show W6 m ρ c (Proc.devRef .tc main_v12_0) = (dat0 (V5 m ρ) c).arrAt 4 cfg0.N from W6_arr m ρ c 4]
  rw [arr0_4_apply, k0_pay2_apply]
  exact pay1_V5 m ρ c n co j

theorem W6_v12_1 (c : Dev nD) (n co : Fin 128) :
    (W6 m ρ c (Proc.devRef .tc main_v12_1) : S128x128x1.Idx → EReal) (ix3 n co 0) = Cert.Spec.ps (Xm m c n) (Am m c) (Bm m c) co := by
  rw [show W6 m ρ c (Proc.devRef .tc main_v12_1) = (dat0 (V5 m ρ) c).arrAt 5 cfg0.N from W6_arr m ρ c 5]
  rw [arr0_5_apply, k0_pay3_apply]
  unfold Cert.Spec.ps
  show (∑ j : Fin 1224, (_ : EReal)) = ∑ j : Fin 1224, (_ : EReal)
  exact Finset.sum_congr rfl fun j _ => pay1_V5 m ρ c n co j

theorem W6_v12_2 (c : Dev nD) (n co : Fin 128) :
    (W6 m ρ c (Proc.devRef .tc main_v12_2) : S128x128x1.Idx → EReal) (ix3 n co 0) = Cert.Spec.pq (Xm m c n) (Am m c) (Bm m c) co := by
  rw [show W6 m ρ c (Proc.devRef .tc main_v12_2) = (dat0 (V5 m ρ) c).arrAt 6 cfg0.N from W6_arr m ρ c 6]
  rw [arr0_6_apply, k0_pay4_apply]
  unfold Cert.Spec.pq
  show (∑ j : Fin 1224, (_ : EReal)) = ∑ j : Fin 1224, (_ : EReal)
  exact Finset.sum_congr rfl fun j _ => by rw [pay1_V5]

theorem Pof_W6 (c : Dev nD) (co : Fin 128) : Pof (W6 m ρ c) co = Cert.Spec.PS (Xm m c) (Am m c) (Bm m c) co := by
  funext n; exact W6_v12_1 m ρ c n co

theorem Qof_W6 (c : Dev nD) (co : Fin 128) : Qof (W6 m ρ c) co = Cert.Spec.PQ (Xm m c) (Am m c) (Bm m c) co := by
  funext n; exact W6_v12_2 m ρ c n co

/-! ## The result -/

theorem result_val (c : Dev nD) :
    (W8 m ρ c (Proc.devRef .tc main_v27) : S128x128x34x34.Idx → EReal)
      = fun i => Cert.Spec.outR (Xm m c) (Am m c) (Bm m c) (i 0) (i 1) (i 2) (i 3) := by
  funext i
  obtain ⟨n, co, r, q, rfl⟩ : ∃ (n co : Fin 128) (r q : Fin 34), i = ix4 n co r q := ⟨i 0, i 1, i 2, i 3, eq_ix4 i⟩
  rw [show W8 m ρ c (Proc.devRef .tc main_v27) = (dat1 (V7 m ρ) c).arrAt 3 cfg1.N from W8_arr m ρ c 3]
  rw [arr1_3_apply, k1_pay1_apply]
  rw [show (V7 m ρ c main_v24 : Vec Ideal S128x1x1 .f32) (ix3 co 0 0) = _ from congrFun (v24_val (W6 m ρ c)) (ix3 co 0 0)]
  rw [show (V7 m ρ c main_v25 : Vec Ideal S128x1x1 .f32) (ix3 co 0 0) = _ from congrFun (v25_val (W6 m ρ c)) (ix3 co 0 0)]
  rw [show yblk (V7 m ρ) c n (ix4 0 co r ⟨q.val, by have := q.isLt; omega⟩)
      = (W6 m ρ c (Proc.devRef .tc main_v12_0) : S128x128x1224.Idx → EReal) (ix3 n co ⟨r.val * 36 + q.val, by have := r.isLt; have := q.isLt; omega⟩)
      from congrFun (v26_val (W6 m ρ c)) (ix4 n co r ⟨q.val, by have := q.isLt; omega⟩)]
  rw [W6_v12_0]
  show (Cert.Spec.am (Xm m c n) (Am m c) (Bm m c) co (r.val * 36 + q.val) - Cert.Spec.meanE (Pof (W6 m ρ c) co))
      * Cert.Spec.rstdE (Pof (W6 m ρ c) co) (Qof (W6 m ρ c) co) = Cert.Spec.outR (Xm m c) (Am m c) (Bm m c) n co r q
  rw [Pof_W6, Qof_W6]
  rfl

end Cert.ReferenceIdeal.Hand

end
-- ==== Proof.SpecLaw.lean ====
/-
  THE LAW that joins the two programs.  For finite inputs every intermediate value is a real number; the biased variance
  of finitely many reals over exactly the `cnt = 128 · 1156` masked-in positions is non-negative (Cauchy–Schwarz against
  the 0/1 mask), so `var + eps > 0` and `rstd` is a positive real; then
  `∑ k, (b k * r) * y k + (-μ) * r = ((∑ k, b k * y k) * 1 - μ) * r` by distributivity over the reals.
-/
import proofs.«135837_g2000304308963006_pallasbulk_990_2_alg».proof.Proof.Spec
import proofs.«135837_g2000304308963006_pallasbulk_990_2_alg».proof.Proof.SpecRegroup
import Mathlib.Data.EReal.Basic
import Mathlib.Data.EReal.Operations
import Mathlib.Algebra.Order.BigOperators.Ring.Finset
import Mathlib.Algebra.BigOperators.Ring.Finset
import Mathlib.Data.Fintype.BigOperators

noncomputable section

open scoped BigOperators

namespace Cert.Spec

open Idealize.ShloMosaic

/-! ## Real-valued extended reals -/

/-- An extended real that is the coercion of a real number. -/
def IsR (x : EReal) : Prop := ∃ v : ℝ, x = (v : EReal)

theorem IsR.eq {x : EReal} (h : IsR x) : x = ((x.toReal : ℝ) : EReal) := by
  obtain ⟨v, rfl⟩ := h; rw [EReal.toReal_coe]

theorem isR_coe (v : ℝ) : IsR (v : EReal) := ⟨v, rfl⟩
theorem isR_zero : IsR 0 := ⟨0, rfl⟩
theorem isR_one : IsR 1 := ⟨1, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

/-- Rectifying a real gives a real. -/
theorem IsR.max0 {x : EReal} (hx : IsR x) : IsR (max x 0) := by
  rcases le_total x 0 with h | h
  · rw [max_eq_right h]; exact isR_zero
  · rw [max_eq_left h]; exact hx

/-- A finite sum of reals is a real. -/
theorem isR_sum {ι : Type*} (s : Finset ι) (f : ι → EReal) (h : ∀ i ∈ s, IsR (f i)) : IsR (∑ i ∈ s, f i) := by
  classical
  induction s using Finset.induction_on with
  | empty => simpa using isR_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Finiteness propagates through the convolutions -/

section Finite

variable {x : Img} {A : Wt1} {B : Wt2}

theorem isR_pad0 (hx : ∀ ci h w, IsR (x ci h w)) (ci : Fin 64) (j : ℕ) : IsR (pad0 x ci j) := by
  unfold pad0; split_ifs
  · exact hx _ _ _
  · exact isR_zero

theorem isR_xp (hx : ∀ ci h w, IsR (x ci h w)) (ci : Fin 64) (j : ℕ) : IsR (xp x ci j) := (isR_pad0 hx ci j).max0

theorem isR_c1 (hx : ∀ ci h w, IsR (x ci h w)) (hA : ∀ cm ci t, IsR (A cm ci t)) (cm : Fin 64) (j : ℕ) :
    IsR (c1 x A cm j) :=
  isR_sum _ _ fun t _ => isR_sum _ _ fun ci _ => (hA cm ci t).mul (isR_xp hx ci _)

theorem isR_y1 (hx : ∀ ci h w, IsR (x ci h w)) (hA : ∀ cm ci t, IsR (A cm ci t)) (cm : Fin 64) (j : ℕ) :
    IsR (y1 x A cm j) := by
  unfold y1; split_ifs
  · exact isR_c1 hx hA cm _
  · exact isR_zero

theorem isR_c2 (hx : ∀ ci h w, IsR (x ci h w)) (hA : ∀ cm ci t, IsR (A cm ci t)) (hB : ∀ co cm t, IsR (B co cm t))
    (co : Fin 128) (j : ℕ) : IsR (c2 x A B co j) :=
  isR_sum _ _ fun t _ => isR_sum _ _ fun cm _ => (hB co cm t).mul (isR_y1 hx hA cm _)

/-- The mask as a real: one or zero. -/
def mskR (j : ℕ) : ℝ := if j % 36 < 34 then 1 else 0

theorem msk_eq (j : ℕ) : msk j = (mskR j : EReal) := by
  unfold msk mskR; split_ifs <;> simp

theorem mskR_sq (j : ℕ) : mskR j * mskR j = mskR j := by
  unfold mskR; split_ifs <;> simp

theorem isR_am (hx : ∀ ci h w, IsR (x ci h w)) (hA : ∀ cm ci t, IsR (A cm ci t)) (hB : ∀ co cm t, IsR (B co cm t))
    (co : Fin 128) (j : ℕ) : IsR (am x A B co j) := by
  unfold am; rw [msk_eq]; exact (isR_c2 hx hA hB co j).mul (isR_coe _)

end Finite

/-! ## The two literals -/

/-- The count literal denotes `147968 = 128 · 1156`. -/
theorem cntE_eq : cntE = ((147968 : ℝ) : EReal) := by
  unfold cntE; simp [Ideal.ofBits, Ideal.ieee, -EReal.coe_mul]; norm_num

/-- The guard literal denotes a positive real. -/
theorem epsE_pos : ∃ e : ℝ, 0 < e ∧ epsE = (e : EReal) := by
  unfold epsE; simp [Ideal.ofBits, Ideal.ieee, -EReal.coe_mul]

/-! ## Mean, variance and inverse deviation of real sums -/

theorem meanE_real {P : Fin 128 → EReal} {p : Fin 128 → ℝ} (hP : ∀ n, P n = (p n : EReal)) :
    meanE P = (((∑ n, p n) / 147968 : ℝ) : EReal) := by
  unfold meanE
  rw [cntE_eq, Ideal.div_coe (by norm_num), Finset.sum_congr rfl (fun n _ => hP n), ← coe_sum, ← EReal.coe_mul,
    mul_one_div]

theorem varE_real {P Q : Fin 128 → EReal} {p q : Fin 128 → ℝ} (hP : ∀ n, P n = (p n : EReal))
    (hQ : ∀ n, Q n = (q n : EReal)) :
    varE P Q = (((∑ n, q n) / 147968 - (∑ n, p n) / 147968 * ((∑ n, p n) / 147968) : ℝ) : EReal) := by
  unfold varE
  rw [meanE_real hP, cntE_eq, Ideal.div_coe (by norm_num), Finset.sum_congr rfl (fun n _ => hQ n), ← coe_sum,
    ← EReal.coe_mul, ← EReal.coe_mul, ← EReal.coe_sub, mul_one_div]

/-- The inverse deviation of a positive real is a real. -/
theorem rsqrt_real {v : ℝ} (hv : 0 < v) : Ideal.rsqrt (v : EReal) = (((Real.sqrt v)⁻¹ : ℝ) : EReal) := by
  rw [Ideal.rsqrt_coe, if_neg (not_lt.2 hv.le), if_neg hv.ne']

/-! ## The variance is non-negative -/

/-- The mask keeps `34 · 34` of the `1224` flat columns. -/
theorem count_msk : ∑ j : Fin 1224, mskR j.val ^ 2 = 1156 := by
  have h : ∀ j : Fin 1224, mskR j.val ^ 2 = if j.val % 36 < 34 then (1 : ℝ) else 0 := by
    intro j; unfold mskR; split_ifs <;> simp
  have hc : (Finset.univ.filter (fun j : Fin 1224 => j.val % 36 < 34)).card = 1156 := by decide
  rw [Finset.sum_congr rfl (fun j _ => h j), Finset.sum_boole, hc]; norm_num

/-- Cauchy–Schwarz against the mask: values supported on the mask have `(∑ a)² ≤ (∑ a²) · 147968`. -/
theorem sq_sum_le (a : Fin 128 → Fin 1224 → ℝ) (ha : ∀ n j, a n j = a n j * mskR j.val) :
    (∑ n, ∑ j, a n j) ^ 2 ≤ (∑ n, ∑ j, a n j * a n j) * 147968 := by
  have h1 : ∑ n, ∑ j, a n j = ∑ p : Fin 128 × Fin 1224, a p.1 p.2 * mskR p.2.val := by
    rw [Fintype.sum_prod_type]; exact Finset.sum_congr rfl fun n _ => Finset.sum_congr rfl fun j _ => ha n j
  have h2 : ∑ n, ∑ j, a n j * a n j = ∑ p : Fin 128 × Fin 1224, a p.1 p.2 ^ 2 := by
    rw [Fintype.sum_prod_type]; simp only [sq]
  have h3 : ∑ p : Fin 128 × Fin 1224, mskR p.2.val ^ 2 = 147968 := by
    rw [Fintype.sum_prod_type]; simp only [count_msk, Finset.sum_const, Finset.card_univ, Fintype.card_fin]; norm_num
  rw [h1, h2, ← h3]
  exact Finset.sum_mul_sq_le_sq_mul_sq _ _ _

theorem var_nonneg (S1 S2 : ℝ) (h : S1 ^ 2 ≤ S2 * 147968) : 0 ≤ S2 / 147968 - S1 / 147968 * (S1 / 147968) := by
  have e : S2 / 147968 - S1 / 147968 * (S1 / 147968) = (S2 * 147968 - S1 ^ 2) / 147968 ^ 2 := by
    field_simp
  rw [e]; exact div_nonneg (sub_nonneg.2 h) (by norm_num)

/-! ## A real factor leaves a finite sum of real products -/

theorem sum_scale {ι : Type*} (s : Finset ι) (f g : ι → EReal) (hf : ∀ k, IsR (f k)) (hg : ∀ k, IsR (g k)) (ρ : ℝ) :
    ∑ k ∈ s, (f k * (ρ : EReal)) * g k = (∑ k ∈ s, f k * g k) * (ρ : EReal) := by
  have e1 : ∀ k, (f k * (ρ : EReal)) * g k = (((f k).toReal * (g k).toReal * ρ : ℝ) : EReal) := by
    intro k
    rw [show (f k).toReal * (g k).toReal * ρ = (f k).toReal * ρ * (g k).toReal by ring, EReal.coe_mul, EReal.coe_mul,
      ← (hf k).eq, ← (hg k).eq]
  have e2 : ∀ k, f k * g k = (((f k).toReal * (g k).toReal : ℝ) : EReal) := by
    intro k; rw [EReal.coe_mul, ← (hf k).eq, ← (hg k).eq]
  rw [Finset.sum_congr rfl (fun k _ => e1 k), Finset.sum_congr rfl (fun k _ => e2 k), ← coe_sum, ← coe_sum,
    ← EReal.coe_mul, Finset.sum_mul]

/-- The second convolution with its weights scaled by a real is the convolution times that real. -/
theorem c2K_scaled {x : Img} {A : Wt1} {B : Wt2} (hx : ∀ ci h w, IsR (x ci h w)) (hA : ∀ cm ci t, IsR (A cm ci t))
    (hB : ∀ co cm t, IsR (B co cm t)) (g : Fin 128 → EReal) (co : Fin 128) (ρ : ℝ) (hg : g co = (ρ : EReal)) (j : ℕ) :
    c2K x (cat1 A) (fun co' k => cat2 B co' k * g co') co j = c2 x A B co j * (ρ : EReal) := by
  rw [← c2K_cat]
  unfold c2K
  simp only [hg]
  exact sum_scale _ _ _ (fun k => hB _ _ _) (fun k => by rw [y1K_cat]; exact isR_y1 hx hA _ _) ρ

/-! ## The statistics are real, the inverse deviation finite -/

/-- With a non-negative variance, `var + eps` is positive and its inverse square root is a real. -/
theorem rstdE_real {P Q : Fin 128 → EReal} {p q : Fin 128 → ℝ} (hP : ∀ n, P n = (p n : EReal))
    (hQ : ∀ n, Q n = (q n : EReal))
    (hnn : 0 ≤ (∑ n, q n) / 147968 - (∑ n, p n) / 147968 * ((∑ n, p n) / 147968)) :
    ∃ ρ : ℝ, rstdE P Q = (ρ : EReal) := by
  obtain ⟨e, he, hε⟩ := epsE_pos
  unfold rstdE
  rw [varE_real hP hQ, hε, ← EReal.coe_add, rsqrt_real (by linarith)]
  exact ⟨_, rfl⟩

theorem stats_real (X : Fin 128 → Img) (A : Wt1) (B : Wt2) (hX : ∀ n ci h w, IsR (X n ci h w))
    (hA : ∀ cm ci t, IsR (A cm ci t)) (hB : ∀ co cm t, IsR (B co cm t)) (co : Fin 128) :
    ∃ μ ρ : ℝ, meanE (PS X A B co) = (μ : EReal) ∧ rstdE (PS X A B co) (PQ X A B co) = (ρ : EReal) := by
  let a : Fin 128 → Fin 1224 → ℝ := fun m j => (am (X m) A B co j.val).toReal
  have ha : ∀ m j, am (X m) A B co j.val = (a m j : EReal) := fun m j => (isR_am (hX m) hA hB co j.val).eq
  have hmask : ∀ m j, a m j = a m j * mskR j.val := by
    intro m j
    obtain ⟨c, hc⟩ := isR_c2 (hX m) hA hB co j.val
    show (am (X m) A B co j.val).toReal = (am (X m) A B co j.val).toReal * mskR j.val
    unfold am
    rw [msk_eq, hc, ← EReal.coe_mul, EReal.toReal_coe, mul_assoc, mskR_sq]
  have hps : ∀ m, PS X A B co m = ((∑ j, a m j : ℝ) : EReal) := by
    intro m
    show ps (X m) A B co = _
    unfold ps
    rw [coe_sum]; exact Finset.sum_congr rfl fun j _ => ha m j
  have hpq : ∀ m, PQ X A B co m = ((∑ j, a m j * a m j : ℝ) : EReal) := by
    intro m
    show pq (X m) A B co = _
    unfold pq
    rw [coe_sum]; refine Finset.sum_congr rfl fun j _ => ?_
    rw [ha m j, EReal.coe_mul]
  obtain ⟨ρ, hρ⟩ := rstdE_real hps hpq (var_nonneg _ _ (sq_sum_le a hmask))
  exact ⟨_, ρ, meanE_real hps, hρ⟩

/-! ## The law -/

/-- The mask is one on the 34 valid columns of a flat row. -/
theorem msk_valid (r q : Fin 34) : msk (r.val * 36 + q.val) = 1 := by
  unfold msk
  rw [if_pos]
  have := q.isLt
  omega

theorem outK_eq_outR (X : Fin 128 → Img) (A : Wt1) (B : Wt2)
    (hX : ∀ n ci h w, ∃ v : ℝ, X n ci h w = (v : EReal)) (hA : ∀ cm ci t, ∃ v : ℝ, A cm ci t = (v : EReal))
    (hB : ∀ co cm t, ∃ v : ℝ, B co cm t = (v : EReal)) (n : Fin 128) (co : Fin 128) (r q : Fin 34) :
    outK X A B n co r q = outR X A B n co r q := by
  obtain ⟨μ, ρ, hμ, hρ⟩ := stats_real X A B hX hA hB co
  obtain ⟨c, hc⟩ := isR_c2 (hX n) hA hB co (r.val * 36 + q.val)
  unfold outK outR am
  rw [c2K_scaled (hX n) hA hB _ co ρ hρ, hμ, hρ, msk_valid, hc, mul_one, ← EReal.coe_neg, ← EReal.coe_mul,
    ← EReal.coe_mul, ← EReal.coe_add, ← EReal.coe_sub, ← EReal.coe_mul]
  congr 1; ring

end Cert.Spec

end
-- ==== Proof.Finite.lean ====
/-
  What the precondition says at the extended reals: each input array's entries have absolute value below +∞ (the
  conjunction of three all-reductions of such comparisons), so every entry is a real number — neither infinity.
-/
import proofs.«135837_g2000304308963006_pallasbulk_990_2_alg».proof.Pre_finite_inputs
import proofs.«135837_g2000304308963006_pallasbulk_990_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- At the extended reals, an entry whose absolute value compares below the pattern of +∞ is a real number:
    `max a (-a) < ⊤` rules out both infinities. -/
theorem real_of_abs_lt (a : Ideal .f32)
    (e : FloatOps.cmpf .olt (FloatOps.hostAbsf a) (FloatOps.ofBits (F := Ideal) .f32 0x7F800000#32) = 1#1) :
    ∃ r : ℝ, a = (r : EReal) := by
  have htop : FloatOps.ofBits (F := Ideal) .f32 0x7F800000#32 = (⊤ : EReal) := by
    show Ideal.ofBits .f32 0x7F800000#32 = ⊤
    simp [Ideal.ofBits, Ideal.ieee]
  rw [htop, Ideal.hostAbsf_def, Ideal.cmpf_def, Ideal.absf_def] at e
  have hlt : max a (-a) < (⊤ : EReal) := by
    by_contra hn
    simp [Ideal.cmp, hn] at e
  have h1 : a < ⊤ := lt_of_le_of_lt (le_max_left _ _) hlt
  have h2 : -a < ⊤ := lt_of_le_of_lt (le_max_right _ _) hlt
  induction a using EReal.rec with
  | bot => simp at h2
  | coe r => exact ⟨r, rfl⟩
  | top => simp at h1

/-- One array of the precondition: an all-reduction by `and` of the comparisons `|a i| < +∞` that came out 1 says every
    entry of the array is a real number. -/
theorem real_of_all {s : Shape} {axes : List (Fin s.rank)} (hb : Cert.Pre_finite_inputs.S_.BroadcastsInDim s ![])
    (hr : s.ReducesTo axes Cert.Pre_finite_inputs.S_) (hu : 0 < Cert.Pre_finite_inputs.S_.numel) (a : FVec Ideal s .f32)
    (e : Host.reduce IntOp.andi
        (cmpf .olt (Host.absf a) (broadcastInDim s ![] hb (constant Cert.Pre_finite_inputs.S_ .f32 0x7F800000#32)))
        (constantI Cert.Pre_finite_inputs.S_ 1 1#1) hr hu ix0 = 1#1) :
    ∀ i, ∃ r : ℝ, a i = (r : EReal) := by
  intro i
  haveI : Subsingleton Cert.Pre_finite_inputs.S_.Idx := ⟨fun a b => funext fun d => d.elim0⟩
  exact real_of_abs_lt (a i) (Host.reduce_andi_all _ _ hr hu ix0 e i)

theorem real_of_pre [Cert.Pre_finite_inputs.Facts]
    (x : FVec Ideal Cert.Pre_finite_inputs.S128x64x32x32 .f32) (w1 : FVec Ideal Cert.Pre_finite_inputs.S64x64x3x1 .f32)
    (w2 : FVec Ideal Cert.Pre_finite_inputs.S128x64x1x3 .f32)
    (h : Cert.Pre_finite_inputs.fn (F := Ideal) x w1 w2 = fun _ => 1#1) :
    (∀ i, ∃ r : ℝ, x i = (r : EReal)) ∧ (∀ i, ∃ r : ℝ, w1 i = (r : EReal)) ∧ (∀ i, ∃ r : ℝ, w2 i = (r : EReal)) := by
  have h0 := congrFun h ix0
  dsimp only [Cert.Pre_finite_inputs.fn, andi] at h0
  obtain ⟨h12, h3⟩ := IntOp.andi_eq_one.1 h0
  obtain ⟨h1, h2⟩ := IntOp.andi_eq_one.1 h12
  exact ⟨real_of_all _ _ _ x h1, real_of_all _ _ _ w1 h2, real_of_all _ _ _ w2 h3⟩

end Cert.Finite

end
-- ==== Proof.Claims.lean ====
/-
  The five claims.  The three frames are the runs with everything but the arguments forgotten: the kernel program's at
  the word level and at the extended reals from ONE proof generic in the float instance, the reference's as generated.
  Nothing was rewritten by the idealization, so `preserves` is trivial.  For `algebraic`: the kernel program's result is
  `outK` of its launch arrays and the reference's is `outR` of its own; the launch arrays agree; the precondition makes
  every entry a real number; and for real inputs `outK = outR` (the variance is non-negative, so the inverse deviation is
  a real and distributes over the second convolution's sum).
-/
import proofs.«135837_g2000304308963006_pallasbulk_990_2_alg».proof.Defs
import proofs.«135837_g2000304308963006_pallasbulk_990_2_alg».proof.Proof.Gen.Kernel
import proofs.«135837_g2000304308963006_pallasbulk_990_2_alg».proof.Proof.Gen.KernelIdeal
import proofs.«135837_g2000304308963006_pallasbulk_990_2_alg».proof.Proof.Gen.ReferenceIdeal
import proofs.«135837_g2000304308963006_pallasbulk_990_2_alg».proof.Proof.Gen.Pre_finite_inputs
import proofs.«135837_g2000304308963006_pallasbulk_990_2_alg».proof.Proof.Gen.ReferenceIdeal.Frame
import proofs.«135837_g2000304308963006_pallasbulk_990_2_alg».proof.Proof.KRun
import proofs.«135837_g2000304308963006_pallasbulk_990_2_alg».proof.Proof.KIRun
import proofs.«135837_g2000304308963006_pallasbulk_990_2_alg».proof.Proof.RefRun
import proofs.«135837_g2000304308963006_pallasbulk_990_2_alg».proof.Proof.KIChain
import proofs.«135837_g2000304308963006_pallasbulk_990_2_alg».proof.Proof.RChain
import proofs.«135837_g2000304308963006_pallasbulk_990_2_alg».proof.Proof.SpecLaw
import proofs.«135837_g2000304308963006_pallasbulk_990_2_alg».proof.Proof.Finite

noncomputable section

namespace Cert.Proof.Claims

open Idealize.ShloMosaic Idealize.ShloMosaic.TcCoe Idealize.SL.Sem Idealize.ShloMosaic.ValueIdx

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ => Cert.ReferenceIdeal.Gen.frame m ρ

theorem preserves : Cert.preserves_Kernel_KernelIdeal := trivial

theorem algebraic : Cert.algebraic_KernelIdeal_ReferenceIdeal := by
  intro m ρ m' ρ' hpre hagree
  refine ⟨fun c => ((fun i => Cert.Spec.outK (Cert.KernelIdeal.Hand.Xm m c) (Cert.KernelIdeal.Hand.Am m c)
      (Cert.KernelIdeal.Hand.Bm m c) (i 0) (i 1) (i 2) (i 3)) : Cert.KernelIdeal.S128x128x34x34.Idx → EReal), ?_, ?_⟩
  · refine (θ_run Cert.KernelIdeal.defs _ _).mono (fun r h c => ⟨?_, ?_, ?_, ?_⟩) (Cert.KernelIdeal.Hand.run_all m ρ)
    · exact (h c _ (Cert.KernelIdeal.Hand.mem_uc Cert.KernelIdeal.main_v39 (by decide))).trans (Cert.KernelIdeal.Hand.result_val m ρ c)
    · exact (h c _ (Cert.KernelIdeal.Hand.mem_uc Cert.KernelIdeal.main_arg0 (by decide))).trans (Cert.KernelIdeal.Hand.W6_main_arg0 m ρ c)
    · exact (h c _ (Cert.KernelIdeal.Hand.mem_uc Cert.KernelIdeal.main_arg1 (by decide))).trans (Cert.KernelIdeal.Hand.W6_main_arg1 m ρ c)
    · exact (h c _ (Cert.KernelIdeal.Hand.mem_uc Cert.KernelIdeal.main_arg2 (by decide))).trans (Cert.KernelIdeal.Hand.W6_main_arg2 m ρ c)
  · refine (θ_run Cert.ReferenceIdeal.defs _ _).mono (fun r h c => ⟨?_, ?_, ?_, ?_⟩) (Cert.ReferenceIdeal.Hand.run_all m' ρ')
    · refine (h c _ (Cert.ReferenceIdeal.Gen.mem_uc Cert.ReferenceIdeal.main_v27 (by decide))).trans
        ((Cert.ReferenceIdeal.Hand.result_val m' ρ' c).trans ?_)
      have hX : Cert.ReferenceIdeal.Hand.Xm m' c = Cert.KernelIdeal.Hand.Xm m c := by
        funext n ci h w; exact congrFun (hagree c).1 (ix4 n ci h w)
      have hA : Cert.ReferenceIdeal.Hand.Am m' c = Cert.KernelIdeal.Hand.Am m c := by
        funext cm ci t; exact congrFun (hagree c).2.1 (ix4 cm ci t 0)
      have hB : Cert.ReferenceIdeal.Hand.Bm m' c = Cert.KernelIdeal.Hand.Bm m c := by
        funext co cm t; exact congrFun (hagree c).2.2 (ix4 co cm 0 t)
      obtain ⟨hx, ha, hb⟩ := Cert.Finite.real_of_pre _ _ _ (hpre c)
      funext i
      rw [hX, hA, hB]
      exact (Cert.Spec.outK_eq_outR _ _ _ (fun n ci h w => hx _) (fun cm ci t => ha _) (fun co cm t => hb _) _ _ _ _).symm
    · exact (h c _ (Cert.ReferenceIdeal.Gen.mem_uc Cert.ReferenceIdeal.main_arg0 (by decide))).trans (Cert.ReferenceIdeal.Gen.W8_main_arg0 m' ρ' c)
    · exact (h c _ (Cert.ReferenceIdeal.Gen.mem_uc Cert.ReferenceIdeal.main_arg1 (by decide))).trans (Cert.ReferenceIdeal.Gen.W8_main_arg1 m' ρ' c)
    · exact (h c _ (Cert.ReferenceIdeal.Gen.mem_uc Cert.ReferenceIdeal.main_arg2 (by decide))).trans (Cert.ReferenceIdeal.Gen.W8_main_arg2 m' ρ' c)

end Cert.Proof.Claims

end
-- ==== Proof.lean ====
/-
  `Cert.Claim`: an idealized two-pass kernel — per-image statistics of a rectified, twice-convolved batch, then the same
  convolutions recomputed with the batch normalisation folded into the second weights — against a reference that stores
  the wide convolution once and normalises it in a second pass.  Over the extended reals, under the precondition that
  every input entry is finite, both end with `(y − mean) · rstd` on the valid columns: the claims are proved in
  Proof/Claims.lean and assembled here behind the witnesses of the programs' stated facts.
-/
import proofs.«135837_g2000304308963006_pallasbulk_990_2_alg».proof.Defs
import proofs.«135837_g2000304308963006_pallasbulk_990_2_alg».proof.Proof.Gen.Kernel
import proofs.«135837_g2000304308963006_pallasbulk_990_2_alg».proof.Proof.Gen.KernelIdeal
import proofs.«135837_g2000304308963006_pallasbulk_990_2_alg».proof.Proof.Gen.ReferenceIdeal
import proofs.«135837_g2000304308963006_pallasbulk_990_2_alg».proof.Proof.Gen.Pre_finite_inputs
import proofs.«135837_g2000304308963006_pallasbulk_990_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
